-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x2048 : Shape := ⟨2, ![512, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : FVec F S512x2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  main_v3
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Kernel.lean ====
abbrev S512x2048 : Shape := ⟨2, ![512, 2048]⟩
abbrev S2048x512 : Shape := ⟨2, ![2048, 512]⟩
abbrev S4 : Shape := ⟨1, ![4]⟩
abbrev S_ : Shape := ⟨0, ![]⟩
abbrev S512x512 : Shape := ⟨2, ![512, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S512x2048, .f32⟩
  | .hbm, ⟨1, _⟩ => ⟨S2048x512, .bf16⟩
  | .local _ .vmem, ⟨0, _⟩ => ⟨S512x2048, .f32⟩
  | .local _ .vmem, ⟨1, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  let v15 : Index := Scalar.indexCast v14
  ![0, v15.toNat]
def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v25 : BitVec 32 := Scalar.addi v2 c1_i32_7
  let c4_i32_8 : BitVec 32 := 4#32
  let c0_i32_9 : BitVec 32 := 0#32
  let v26 : BitVec 1 := Scalar.cmpi .eq c4_i32_8 c0_i32_9
  let c1_i32_10 : BitVec 32 := 1#32
  let v27 : BitVec 32 := Scalar.select v26 c1_i32_10 c4_i32_8
  let v28 : BitVec 32 := Scalar.remsi v25 v27
  let c0_i32_12 : BitVec 32 := 0#32
  let v30 : BitVec 1 := Scalar.cmpi .slt v28 c0_i32_12
  let c0_i32_13 : BitVec 32 := 0#32
  let v31 : BitVec 1 := Scalar.cmpi .slt v27 c0_i32_13
  let v32 : BitVec 1 := Scalar.xori v30 v31
  let c0_i32_11 : BitVec 32 := 0#32
  let v29 : BitVec 1 := Scalar.cmpi .ne v28 c0_i32_11
  let v33 : BitVec 1 := Scalar.andi v32 v29
  let v34 : BitVec 32 := Scalar.addi v28 v27
  let v35 : BitVec 32 := Scalar.select v33 v34 v28
  let c1_i32_15 : BitVec 32 := 1#32
  let v36 : BitVec 32 := Scalar.muli v35 c1_i32_15
  let v37 : BitVec 32 := Scalar.addi c0_i32_16 v36
  v37.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_17 : BitVec 32 := 2#32
  let v38 : BitVec 32 := Scalar.addi v2 c2_i32_17
  let c4_i32_18 : BitVec 32 := 4#32
  let c0_i32_19 : BitVec 32 := 0#32
  let v39 : BitVec 1 := Scalar.cmpi .eq c4_i32_18 c0_i32_19
  let c1_i32_20 : BitVec 32 := 1#32
  let v40 : BitVec 32 := Scalar.select v39 c1_i32_20 c4_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c1_i32_25 : BitVec 32 := 1#32
  let v49 : BitVec 32 := Scalar.muli v48 c1_i32_25
  let v50 : BitVec 32 := Scalar.addi c0_i32_26 v49
  v50.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v51 : BitVec 32 := Scalar.addi v2 c3_i32
  let c4_i32_27 : BitVec 32 := 4#32
  let c0_i32_28 : BitVec 32 := 0#32
  let v52 : BitVec 1 := Scalar.cmpi .eq c4_i32_27 c0_i32_28
  let c1_i32_29 : BitVec 32 := 1#32
  let v53 : BitVec 32 := Scalar.select v52 c1_i32_29 c4_i32_27
  let v54 : BitVec 32 := Scalar.remsi v51 v53
  let c0_i32_31 : BitVec 32 := 0#32
  let v56 : BitVec 1 := Scalar.cmpi .slt v54 c0_i32_31
  let c0_i32_32 : BitVec 32 := 0#32
  let v57 : BitVec 1 := Scalar.cmpi .slt v53 c0_i32_32
  let v58 : BitVec 1 := Scalar.xori v56 v57
  let c0_i32_30 : BitVec 32 := 0#32
  let v55 : BitVec 1 := Scalar.cmpi .ne v54 c0_i32_30
  let v59 : BitVec 1 := Scalar.andi v58 v55
  let v60 : BitVec 32 := Scalar.addi v54 v53
  let v61 : BitVec 32 := Scalar.select v59 v60 v54
  let c1_i32_34 : BitVec 32 := 1#32
  let v62 : BitVec 32 := Scalar.muli v61 c1_i32_34
  let v63 : BitVec 32 := Scalar.addi c0_i32_35 v62
  v63.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_45 : BitVec 32 := 512#32
  let v76 : BitVec 32 := Scalar.muli v2 c512_i32_45
  let c0_i32_50 : BitVec 32 := 0#32
  ![v76.toNat, 0]
def k0_off3 (d0 : Dev nD) (c2_i32_37 : BitVec 32) : Fin 2 → Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.addi v2 c2_i32_37
  let c4_i32_38 : BitVec 32 := 4#32
  let c0_i32_39 : BitVec 32 := 0#32
  let v65 : BitVec 1 := Scalar.cmpi .eq c4_i32_38 c0_i32_39
  let c1_i32_40 : BitVec 32 := 1#32
  let v66 : BitVec 32 := Scalar.select v65 c1_i32_40 c4_i32_38
  let v67 : BitVec 32 := Scalar.remsi v64 v66
  let c0_i32_42 : BitVec 32 := 0#32
  let v69 : BitVec 1 := Scalar.cmpi .slt v67 c0_i32_42
  let c0_i32_43 : BitVec 32 := 0#32
  let v70 : BitVec 1 := Scalar.cmpi .slt v66 c0_i32_43
  let v71 : BitVec 1 := Scalar.xori v69 v70
  let c0_i32_41 : BitVec 32 := 0#32
  let v68 : BitVec 1 := Scalar.cmpi .ne v67 c0_i32_41
  let v72 : BitVec 1 := Scalar.andi v71 v68
  let v73 : BitVec 32 := Scalar.addi v67 v66
  let v74 : BitVec 32 := Scalar.select v72 v73 v67
  let c512_i32_44 : BitVec 32 := 512#32
  let v75 : BitVec 32 := Scalar.muli v74 c512_i32_44
  ![0, v75.toNat]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v64 : BitVec 32 := Scalar.addi v2 c2_i32_37
  let c4_i32_38 : BitVec 32 := 4#32
  let c0_i32_39 : BitVec 32 := 0#32
  let v65 : BitVec 1 := Scalar.cmpi .eq c4_i32_38 c0_i32_39
  let c1_i32_40 : BitVec 32 := 1#32
  let v66 : BitVec 32 := Scalar.select v65 c1_i32_40 c4_i32_38
  let v67 : BitVec 32 := Scalar.remsi v64 v66
  let c0_i32_42 : BitVec 32 := 0#32
  let v69 : BitVec 1 := Scalar.cmpi .slt v67 c0_i32_42
  let c0_i32_43 : BitVec 32 := 0#32
  let v70 : BitVec 1 := Scalar.cmpi .slt v66 c0_i32_43
  let v71 : BitVec 1 := Scalar.xori v69 v70
  let c0_i32_41 : BitVec 32 := 0#32
  let v68 : BitVec 1 := Scalar.cmpi .ne v67 c0_i32_41
  let v72 : BitVec 1 := Scalar.andi v71 v68
  let v73 : BitVec 32 := Scalar.addi v67 v66
  let v74 : BitVec 32 := Scalar.select v72 v73 v67
  let c1_i32_48 : BitVec 32 := 1#32
  let v77 : BitVec 32 := Scalar.muli v74 c1_i32_48
  let v78 : BitVec 32 := Scalar.addi c0_i32_49 v77
  v78.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v106 : BitVec 32 := Scalar.addi v2 c1_i32_63
  let c4_i32_64 : BitVec 32 := 4#32
  let c0_i32_65 : BitVec 32 := 0#32
  let v107 : BitVec 1 := Scalar.cmpi .eq c4_i32_64 c0_i32_65
  let c1_i32_66 : BitVec 32 := 1#32
  let v108 : BitVec 32 := Scalar.select v107 c1_i32_66 c4_i32_64
  let v109 : BitVec 32 := Scalar.remsi v106 v108
  let c0_i32_68 : BitVec 32 := 0#32
  let v111 : BitVec 1 := Scalar.cmpi .slt v109 c0_i32_68
  let c0_i32_69 : BitVec 32 := 0#32
  let v112 : BitVec 1 := Scalar.cmpi .slt v108 c0_i32_69
  let v113 : BitVec 1 := Scalar.xori v111 v112
  let c0_i32_67 : BitVec 32 := 0#32
  let v110 : BitVec 1 := Scalar.cmpi .ne v109 c0_i32_67
  let v114 : BitVec 1 := Scalar.andi v113 v110
  let v115 : BitVec 32 := Scalar.addi v109 v108
  let v116 : BitVec 32 := Scalar.select v114 v115 v109
  let c1_i32_74 : BitVec 32 := 1#32
  let v119 : BitVec 32 := Scalar.muli v116 c1_i32_74
  let v120 : BitVec 32 := Scalar.addi c0_i32_75 v119
  v120.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_89 : BitVec 32 := 3#32
  let v148 : BitVec 32 := Scalar.addi v2 c3_i32_89
  let c4_i32_90 : BitVec 32 := 4#32
  let c0_i32_91 : BitVec 32 := 0#32
  let v149 : BitVec 1 := Scalar.cmpi .eq c4_i32_90 c0_i32_91
  let c1_i32_92 : BitVec 32 := 1#32
  let v150 : BitVec 32 := Scalar.select v149 c1_i32_92 c4_i32_90
  let v151 : BitVec 32 := Scalar.remsi v148 v150
  let c0_i32_94 : BitVec 32 := 0#32
  let v153 : BitVec 1 := Scalar.cmpi .slt v151 c0_i32_94
  let c0_i32_95 : BitVec 32 := 0#32
  let v154 : BitVec 1 := Scalar.cmpi .slt v150 c0_i32_95
  let v155 : BitVec 1 := Scalar.xori v153 v154
  let c0_i32_93 : BitVec 32 := 0#32
  let v152 : BitVec 1 := Scalar.cmpi .ne v151 c0_i32_93
  let v156 : BitVec 1 := Scalar.andi v155 v152
  let v157 : BitVec 32 := Scalar.addi v151 v150
  let v158 : BitVec 32 := Scalar.select v156 v157 v151
  let c1_i32_100 : BitVec 32 := 1#32
  let v161 : BitVec 32 := Scalar.muli v158 c1_i32_100
  let v162 : BitVec 32 := Scalar.addi c0_i32_101 v161
  v162.toNat
def k0_off4 (d0 : Dev nD) : Fin 2 → Nat :=
  let c0_105 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_104 : BitVec 32 := 512#32
  let v169 : BitVec 32 := Scalar.muli v2 c512_i32_104
  let v170 : Index := Scalar.indexCast v169
  ![0, v170.toNat]
def k0_off5 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_108 : BitVec 32 := 512#32
  let v179 : BitVec 32 := Scalar.muli v2 c512_i32_108
  ![0, v179.toNat]
def k0_off6 (d0 : Dev nD) (c1_i32_112 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v183 : BitVec 32 := Scalar.subi v2 c1_i32_112
  let c4_i32_113 : BitVec 32 := 4#32
  let c0_i32_114 : BitVec 32 := 0#32
  let v184 : BitVec 1 := Scalar.cmpi .eq c4_i32_113 c0_i32_114
  let c1_i32_115 : BitVec 32 := 1#32
  let v185 : BitVec 32 := Scalar.select v184 c1_i32_115 c4_i32_113
  let v186 : BitVec 32 := Scalar.remsi v183 v185
  let c0_i32_117 : BitVec 32 := 0#32
  let v188 : BitVec 1 := Scalar.cmpi .slt v186 c0_i32_117
  let c0_i32_118 : BitVec 32 := 0#32
  let v189 : BitVec 1 := Scalar.cmpi .slt v185 c0_i32_118
  let v190 : BitVec 1 := Scalar.xori v188 v189
  let c0_i32_116 : BitVec 32 := 0#32
  let v187 : BitVec 1 := Scalar.cmpi .ne v186 c0_i32_116
  let v191 : BitVec 1 := Scalar.andi v190 v187
  let v192 : BitVec 32 := Scalar.addi v186 v185
  let v193 : BitVec 32 := Scalar.select v191 v192 v186
  let c512_i32_120 : BitVec 32 := 512#32
  let v195 : BitVec 32 := Scalar.muli v193 c512_i32_120
  let c0_i32_125 : BitVec 32 := 0#32
  ![v195.toNat, 0]
def k0_off7 (d0 : Dev nD) (c1_i32_112 : BitVec 32) : Fin 2 → Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v183 : BitVec 32 := Scalar.subi v2 c1_i32_112
  let c4_i32_113 : BitVec 32 := 4#32
  let c0_i32_114 : BitVec 32 := 0#32
  let v184 : BitVec 1 := Scalar.cmpi .eq c4_i32_113 c0_i32_114
  let c1_i32_115 : BitVec 32 := 1#32
  let v185 : BitVec 32 := Scalar.select v184 c1_i32_115 c4_i32_113
  let v186 : BitVec 32 := Scalar.remsi v183 v185
  let c0_i32_117 : BitVec 32 := 0#32
  let v188 : BitVec 1 := Scalar.cmpi .slt v186 c0_i32_117
  let c0_i32_118 : BitVec 32 := 0#32
  let v189 : BitVec 1 := Scalar.cmpi .slt v185 c0_i32_118
  let v190 : BitVec 1 := Scalar.xori v188 v189
  let c0_i32_116 : BitVec 32 := 0#32
  let v187 : BitVec 1 := Scalar.cmpi .ne v186 c0_i32_116
  let v191 : BitVec 1 := Scalar.andi v190 v187
  let v192 : BitVec 32 := Scalar.addi v186 v185
  let v193 : BitVec 32 := Scalar.select v191 v192 v186
  let c512_i32_119 : BitVec 32 := 512#32
  let v194 : BitVec 32 := Scalar.muli v193 c512_i32_119
  ![0, v194.toNat]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  h_S512x512 : 0 < S512x512.numel
  shapeCasts_S512x512_S512x512 : S512x512.ShapeCasts S512x512
  bitsLt_bf16_f32 : FTy.bits .bf16 < FTy.bits .f32
  hamt_1 : (1#32 : BitVec 32).msb = false
  hamt_3 : (3#32 : BitVec 32).msb = false
  inb_S4_S1_2 : ∀ a, (![2] : Fin 1 → Nat) a + S1.size a ≤ S4.size a
  squeezes_S1_S_ : S1.Squeezes S_
  inb_S4_S1_1 : ∀ a, (![1] : Fin 1 → Nat) a + S1.size a ≤ S4.size a
  inb_S4_S1_3 : ∀ a, (![3] : Fin 1 → Nat) a + S1.size a ≤ S4.size a
  hcc0_scratch1 : 1 + S4.numel ≤ 10
  hcc0_scratch2 : 5 + S4.numel ≤ 10
  hcc0_scratch3 : 9 + S_.numel ≤ 10
  k0_off1_inb : ∀ d0 : Dev nD, ∀ (r : Fin 3), ∀ a, (k0_off1 d0 (BitVec.ofNat 32 (1 + r.val))) a + S512x512.size a ≤ S512x2048.size a
  k0_off1_packedbf16 : ∀ d0 : Dev nD, ∀ (r : Fin 3), (Rect.unit (s := S512x2048) (k0_off1 d0 (BitVec.ofNat 32 (1 + r.val))) S512x512.size (k0_off1_inb d0 r)).PackedRows (EltTy.packing .bf16)
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off2_inb : ∀ d0 : Dev nD, ∀ a, (k0_off2 d0) a + S512x512.size a ≤ S2048x512.size a
  k0_off3_inb : ∀ d0 : Dev nD, ∀ (r : Fin 3), ∀ a, (k0_off3 d0 (BitVec.ofNat 32 (1 + r.val))) a + S512x512.size a ≤ S512x2048.size a
  k0_off3_wordsbf16 : ∀ d0 : Dev nD, ∀ (r : Fin 3), (Rect.unit (s := S512x2048) (k0_off3 d0 (BitVec.ofNat 32 (1 + r.val))) S512x512.size (k0_off3_inb d0 r)).WholeWords (EltTy.packing .bf16)
  k0_off2_wordsbf16 : ∀ d0 : Dev nD, (Rect.unit (s := S2048x512) (k0_off2 d0) S512x512.size (k0_off2_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ a, (k0_off4 d0) a + S512x512.size a ≤ S512x2048.size a
  k0_off4_packedbf16 : ∀ d0 : Dev nD, (Rect.unit (s := S512x2048) (k0_off4 d0) S512x512.size (k0_off4_inb d0)).PackedRows (EltTy.packing .bf16)
  k0_off5_inb : ∀ d0 : Dev nD, ∀ a, (k0_off5 d0) a + S512x512.size a ≤ S512x2048.size a
  k0_off5_wordsbf16 : ∀ d0 : Dev nD, (Rect.unit (s := S512x2048) (k0_off5 d0) S512x512.size (k0_off5_inb d0)).WholeWords (EltTy.packing .bf16)
  k0_off6_inb : ∀ d0 : Dev nD, ∀ (r : Fin 3), ∀ a, (k0_off6 d0 (BitVec.ofNat 32 (1 + r.val))) a + S512x512.size a ≤ S2048x512.size a
  k0_off7_inb : ∀ d0 : Dev nD, ∀ (r : Fin 3), ∀ a, (k0_off7 d0 (BitVec.ofNat 32 (1 + r.val))) a + S512x512.size a ≤ S512x2048.size a
  k0_off7_wordsbf16 : ∀ d0 : Dev nD, ∀ (r : Fin 3), (Rect.unit (s := S512x2048) (k0_off7 d0 (BitVec.ofNat 32 (1 + r.val))) S512x512.size (k0_off7_inb d0 r)).WholeWords (EltTy.packing .bf16)
  k0_off6_wordsbf16 : ∀ d0 : Dev nD, ∀ (r : Fin 3), (Rect.unit (s := S2048x512) (k0_off6 d0 (BitVec.ofNat 32 (1 + r.val))) S512x512.size (k0_off6_inb d0 r)).WholeWords (EltTy.packing .bf16)
  hstage0_0 : ∀ j, (stage0_0 j).IsWhole

variable [Facts₀]

abbrev cc0_scratch1 : DmaSems sig S4 := SemArray.consecutive 1 S4 hcc0_scratch1
abbrev cc0_scratch2 : DmaSems sig S4 := SemArray.consecutive 5 S4 hcc0_scratch2
abbrev cc0_scratch3 : DmaSems sig S_ := SemArray.consecutive 9 S_ hcc0_scratch3

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Peers.lean ====
/-
  The mesh arithmetic of the all-to-all on four devices. Device `c` sends, at offset `1 + r` (`r : Fin 3`), to
  device `pe c r = c + 1 + r (mod 4)`, and receives on its cell `r` from `sr c r = c - 1 - r (mod 4)`; `neg r` is the
  offset at which the peer sends back. The printed device chains and the printed offset chains of the body are put in
  closed form here, decided over the four devices.
-/
import proofs.«900008_g7700000000000009_dist_a2a_v7x_i4_i_m512_n512_bf16_1_alg».proof.Proof.Gen.Kernel

namespace Cert.Kernel.A2A

open Cert.Kernel Cert.Kernel.Gen
open Idealize.ShloMosaic

/-- The device `1 + r` places after `c` on the ring of four. -/
def pe (c : Dev nD) (r : Fin 3) : Dev nD := ⟨(c.val + 1 + r.val) % 4, Nat.mod_lt _ (by decide)⟩
/-- The device `1 + r` places before `c`. -/
def sr (c : Dev nD) (r : Fin 3) : Dev nD := ⟨(c.val + 3 - r.val) % 4, Nat.mod_lt _ (by decide)⟩
/-- The offset back: `(1 + r) + (1 + neg r) = 4`. -/
def neg (r : Fin 3) : Fin 3 := ⟨2 - r.val, by omega⟩

theorem sr_pe (c : Dev nD) (r : Fin 3) : sr (pe c r) r = c := by revert c r; decide
theorem pe_sr (c : Dev nD) (r : Fin 3) : pe (sr c r) r = c := by revert c r; decide
theorem pe_pe_neg (c : Dev nD) (r : Fin 3) : pe (pe c r) (neg r) = c := by revert c r; decide
theorem pe_neg_eq_sr (c : Dev nD) (r : Fin 3) : pe c (neg r) = sr c r := by revert c r; decide
theorem neg_neg (r : Fin 3) : neg (neg r) = r := by revert r; decide
theorem pe_ne_self (c : Dev nD) (r : Fin 3) : pe c r ≠ c := by revert c r; decide
theorem sr_ne_self (c : Dev nD) (r : Fin 3) : sr c r ≠ c := by revert c r; decide
theorem pe_inj (c : Dev nD) (r r' : Fin 3) (h : pe c r = pe c r') : r = r' := by revert c r r'; decide
theorem sr_inj (c : Dev nD) (r r' : Fin 3) (h : sr c r = sr c r') : r = r' := by revert c r r'; decide
theorem pe_inj_left (c c' : Dev nD) (r : Fin 3) (h : pe c r = pe c' r) : c = c' := by revert c c' r; decide

/-- The three signals name the devices 1, 2, 3 places on; the three transfers the devices 2, 1, 3 places on. -/
theorem dev1_eq (c : Dev nD) : (⟨k0_dev1 c, k0_dev1_lt c⟩ : Dev nD) = pe c 0 := by revert c; decide +kernel
theorem dev2_eq (c : Dev nD) : (⟨k0_dev2 c, k0_dev2_lt c⟩ : Dev nD) = pe c 1 := by revert c; decide +kernel
theorem dev3_eq (c : Dev nD) : (⟨k0_dev3 c, k0_dev3_lt c⟩ : Dev nD) = pe c 2 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 0 := by revert c; decide +kernel
theorem dev6_eq (c : Dev nD) : (⟨k0_dev6 c, k0_dev6_lt c⟩ : Dev nD) = pe c 2 := by revert c; decide +kernel

/-- The printed offsets in closed form: the column block of the peer `1 + r` places on (loads, stores and the
    transfers' sources), the row block and the column block of the peer `1 + r` places back (the receive waits). -/
theorem off1_eq (c : Dev nD) (r : Fin 3) : k0_off1 c (BitVec.ofNat 32 (1 + r.val)) = ![0, 512 * (pe c r).val] := by
  revert c r; decide +kernel
theorem off3_eq (c : Dev nD) (r : Fin 3) : k0_off3 c (BitVec.ofNat 32 (1 + r.val)) = ![0, 512 * (pe c r).val] := by
  revert c r; decide +kernel
theorem off6_eq (c : Dev nD) (r : Fin 3) : k0_off6 c (BitVec.ofNat 32 (1 + r.val)) = ![512 * (sr c r).val, 0] := by
  revert c r; decide +kernel
theorem off7_eq (c : Dev nD) (r : Fin 3) : k0_off7 c (BitVec.ofNat 32 (1 + r.val)) = ![0, 512 * (sr c r).val] := by
  revert c r; decide +kernel

end Cert.Kernel.A2A
-- ==== Proof.Kernel.Protocol.lean ====
/-
  The all-to-all on four devices, as a protocol. Every device casts its [512, 2048] block of `x` to bf16 one column
  block at a time into a scratch buffer, shakes hands with its three peers on the barrier semaphore, sends column
  block `t` of the scratch to device `t`'s result rows `[512 c, 512 c + 512)` (its own block by a local copy), waits
  for the three blocks addressed to it, for its local copy and for its three sends.

  Cells of device `c`, duty names `Fin 3` (the offset less one): the barrier cell has one round of three duties of one
  unit, duty `r` paid by the device `1 + r` places before `c`, which hands over its result rows `c` (where `c`'s
  transfer to it will land) and that it has reached round 0 of the receive cell that transfer credits; send cell `r`,
  receive cell `r` and the local cell have one duty of one block's credit each; a send cell's duty gives the source
  column block back, a receive cell's the result rows of the sender holding the sender's cast column block `c`.
-/
import proofs.«900008_g7700000000000009_dist_a2a_v7x_i4_i_m512_n512_bf16_1_alg».proof.Proof.Kernel.Peers
import proofs.«900008_g7700000000000009_dist_a2a_v7x_i4_i_m512_n512_bf16_1_alg».proof.Proof.Gen.Kernel.Skeleton
import proofs.«900008_g7700000000000009_dist_a2a_v7x_i4_i_m512_n512_bf16_1_alg».proof.Proof.Gen.Kernel.Launch
import proofs.«900008_g7700000000000009_dist_a2a_v7x_i4_i_m512_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and cells -/

/-- The staged block of `x`, the result array, the bf16 scratch. -/
abbrev xM : Memref sig .tc .vmem S512x2048 .f32 := Memref.whole cc0_stg0_0
abbrev oM : Memref sig .tc .hbm S2048x512 .bf16 := Memref.whole main_v1
abbrev sM : Memref sig .tc .vmem S512x2048 .bf16 := Memref.whole cc0_scratch0

theorem inb3 (r : Fin 3) : ∀ a, (![1 + r.val] : Fin 1 → Nat) a + S1.size a ≤ S4.size a := by revert r; decide

/-- Result rows `[512 s, 512 s + 512)` (of any device's result array): where device `s`'s transfers land. -/
abbrev oBlk (s : Dev nD) : Memref sig .tc .hbm S512x512 .bf16 :=
  oM.slice (Rect.unit (s := S2048x512) (k0_off2 s) S512x512.size (k0_off2_inb s)) (fun _ => rfl)
/-- Scratch columns of the peer `1 + r` places on: the source of transfer `r`. -/
abbrev sBlk (c : Dev nD) (r : Fin 3) : Memref sig .tc .vmem S512x512 .bf16 :=
  sM.slice (Rect.unit (s := S512x2048) (k0_off3 c (BitVec.ofNat 32 (1 + r.val))) S512x512.size (k0_off3_inb c r)) (fun _ => rfl)
/-- Scratch columns `[512 c, 512 c + 512)`: the source of the local copy. -/
abbrev sOwn (c : Dev nD) : Memref sig .tc .vmem S512x512 .bf16 :=
  sM.slice (Rect.unit (s := S512x2048) (k0_off5 c) S512x512.size (k0_off5_inb c)) (fun _ => rfl)

/-- The runtime's barrier semaphore of collective id 0 (unscoped); the send, receive and local DMA semaphores. -/
abbrev barS : Sem sig := (SemArray.scalar (sig.barrier 0 rfl) : Sems sig S_).sem
abbrev sendA (r : Fin 3) : DmaSems sig S_ := (cc0_scratch1.slice (Rect.unit (s := S4) ![1 + r.val] S1.size (inb3 r))).squeeze S_ squeezes_S1_S_
abbrev recvA (r : Fin 3) : DmaSems sig S_ := (cc0_scratch2.slice (Rect.unit (s := S4) ![1 + r.val] S1.size (inb3 r))).squeeze S_ squeezes_S1_S_
abbrev locA : DmaSems sig S_ := cc0_scratch3

abbrev barCell (c : Dev nD) : GSem nD τ sig := ((c : Thread nD τ), .reg barS)
abbrev sendCell (c : Dev nD) (r : Fin 3) : GSem nD τ sig := ((c : Thread nD τ), .dma (sendA r).sem)
abbrev recvCell (c : Dev nD) (r : Fin 3) : GSem nD τ sig := ((c : Thread nD τ), .dma (recvA r).sem)
abbrev locCell (c : Dev nD) : GSem nD τ sig := ((c : Thread nD τ), .dma locA.sem)

/-- The kernel's OWN (scoped) semaphores it uses, as the launch indexes them: send 0–2, receive 0–2, local; -/
abbrev osem : Fin 7 → SemLoc sig := fun
  | 0 => .dma (sendA 0).sem | 1 => .dma (sendA 1).sem | 2 => .dma (sendA 2).sem
  | 3 => .dma (recvA 0).sem | 4 => .dma (recvA 1).sem | 5 => .dma (recvA 2).sem | 6 => .dma locA.sem
/-- all eight of the protocol's, the barrier first. -/
abbrev csem : Fin 8 → SemLoc sig := fun
  | 0 => .reg barS
  | 1 => .dma (sendA 0).sem | 2 => .dma (sendA 1).sem | 3 => .dma (sendA 2).sem
  | 4 => .dma (recvA 0).sem | 5 => .dma (recvA 1).sem | 6 => .dma (recvA 2).sem | 7 => .dma locA.sem
abbrev kcell (ck : Dev nD × Fin 8) : GSem nD τ sig := ((ck.1 : Thread nD τ), csem ck.2)
/-- Where send cell `r`, receive cell `r` sit in that list. -/
abbrev iS (r : Fin 3) : Fin 8 := ⟨1 + r.val, by omega⟩
abbrev iR (r : Fin 3) : Fin 8 := ⟨4 + r.val, by omega⟩

/-- One block's credit. -/
abbrev N : ℕ := (oBlk (0 : Dev nD)).view.dmaCredit
theorem N_pos : 0 < N := View.dmaCredit_pos _ (by decide)

/-! ## Contents -/

/-- A float's change of format f32 → bf16. -/
def tr (a : Elt F .f32) : Elt F .bf16 := FloatOps.truncf .bf16 bitsLt_bf16_f32 a

/-- Device `c`'s staged block of `x`. -/
def xstg (c : Dev nD) : (cc0_stg0_0 : Ref sig .tc).ty.Contents (Elt F) :=
  (win0_0.blk (0 : Fin 1)).view.read (Elt F) (m ((c : Thread nD τ).loc main_arg0))

/-- The scratch once every column block is cast: `x`'s block, entry by entry in bf16. -/
def scrV (c : Dev nD) : Buf (Elt F) ((c : Thread nD τ).loc cc0_scratch0) := fun i => tr (xstg m c i)

/-- The device whose transfer lands at row `i 0` of a result array: `i 0 / 512`. -/
def rowDev (i : S2048x512.Idx) : Dev nD := ⟨(i 0).val / 512, Nat.div_lt_of_lt_mul (i 0).isLt⟩

/-- Device `c`'s result array in the end: rows `[512 s, 512 s + 512)` hold columns `[512 c, 512 c + 512)` of device
    `s`'s cast block. -/
def outV (c : Dev nD) : Buf (Elt F) ((c : Thread nD τ).loc main_v1) := fun i =>
  scrV m (rowDev i) (Shape.pair (d := ![512, 2048]) ⟨(i 0).val % 512, Nat.mod_lt _ (by decide)⟩
    ⟨512 * c.val + (i 1).val, by have h1 : (i 1).val < 512 := (i 1).isLt; have hc : c.val < 4 := c.isLt; show _ < 2048; omega⟩)

/-! ## Points-to of the pieces -/

/-- Result rows `s` of device `c`, holding `f` there. -/
def rowsPts (c s : Dev nD) (f : Buf (Elt F) ((oBlk s).view.loc (c : Thread nD τ))) : sProp 𝕄 :=
  (oBlk s).view.loc (c : Thread nD τ) ↦[(oBlk s).view.set]{fullShare} f
/-- The source columns of device `c`'s transfer `r`, holding `f` there. -/
def colsPts (c : Dev nD) (r : Fin 3) (f : Buf (Elt F) ((sBlk c r).view.loc (c : Thread nD τ))) : sProp 𝕄 :=
  (sBlk c r).view.loc (c : Thread nD τ) ↦[(sBlk c r).view.set]{fullShare} f
/-- The source columns of device `c`'s local copy, holding `f` there. -/
def ownPts (c : Dev nD) (f : Buf (Elt F) ((sOwn c).view.loc (c : Thread nD τ))) : sProp 𝕄 :=
  (sOwn c).view.loc (c : Thread nD τ) ↦[(sOwn c).view.set]{fullShare} f

omit [FloatOps F] in
instance rowsPts_storable (c s : Dev nD) (f) : BI.Storable (upEmb : UEmb _ 𝕄) (rowsPts (F := F) c s f) := by unfold rowsPts; infer_instance
omit [FloatOps F] in
instance colsPts_storable (c : Dev nD) (r : Fin 3) (f) : BI.Storable (upEmb : UEmb _ 𝕄) (colsPts (F := F) c r f) := by unfold colsPts; infer_instance
omit [FloatOps F] in
instance ownPts_storable (c : Dev nD) (f) : BI.Storable (upEmb : UEmb _ 𝕄) (ownPts (F := F) c f) := by unfold ownPts; infer_instance

/-! ## The schedule -/

/-- What the device `1 + r` places before `c` (that is `sr c r`) hands `c` with its signal: its result rows `c`, at any
    contents, and that it has reached round 0 of the receive cell `c`'s transfer to it credits. -/
def barPay (c : Dev nD) (r : Fin 3) : sProp 𝕄 := iprop((∃ f, rowsPts (sr c r) c f) ∗ reached ER (recvCell (sr c r) (neg r)) 0)
/-- Receive cell `r` of `c`: the rows of the sender `sr c r`, landed. -/
def recvPay (c : Dev nD) (r : Fin 3) : sProp 𝕄 := rowsPts c (sr c r) (outV m c)
/-- Send cell `r` of `c`: the source columns back. -/
def sendPay (c : Dev nD) (r : Fin 3) : sProp 𝕄 := colsPts c r (scrV m c)
/-- The local cell: the own rows landed and the own columns back. -/
def locPay (c : Dev nD) : sProp 𝕄 := iprop(rowsPts c c (outV m c) ∗ ownPts c (scrV m c))

abbrev IsBar (g : GSem nD τ sig) : Prop := g.1.2 = .tc ∧ g.2 = .reg barS
abbrev IsXfer (g : GSem nD τ sig) : Prop := g.1.2 = .tc ∧ ∃ k : Fin 7, g.2 = osem k

/-- One round, round 0: a barrier cell has the three duties of one unit each; a send, receive or local cell the duty
    `0` of the block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvA 0).sem then recvPay m g.1.1 0
    else if g.2 = .dma (recvA 1).sem then recvPay m g.1.1 1
    else if g.2 = .dma (recvA 2).sem then recvPay m g.1.1 2
    else if g.2 = .dma (sendA 0).sem then sendPay m g.1.1 0
    else if g.2 = .dma (sendA 1).sem then sendPay m g.1.1 1
    else if g.2 = .dma (sendA 2).sem then sendPay m g.1.1 2
    else if g.2 = .dma locA.sem then locPay m g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m).payload g r d) := by
  show BI.Storable upEmb (if g.2 = .reg barS then barPay g.1.1 d
    else if g.2 = .dma (recvA 0).sem then recvPay m g.1.1 0
    else if g.2 = .dma (recvA 1).sem then recvPay m g.1.1 1
    else if g.2 = .dma (recvA 2).sem then recvPay m g.1.1 2
    else if g.2 = .dma (sendA 0).sem then sendPay m g.1.1 0
    else if g.2 = .dma (sendA 1).sem then sendPay m g.1.1 1
    else if g.2 = .dma (sendA 2).sem then sendPay m g.1.1 2
    else if g.2 = .dma locA.sem then locPay m g.1.1
    else iprop(emp))
  unfold barPay recvPay sendPay locPay
  (repeat' split) <;> infer_instance

/-! ## What each device owes at launch; the levels -/

/-- A block's credit to the receive cell transfer `r` lands on; a unit to the barrier cell signal `r` raises. -/
def TR (c : Dev nD) (r : Fin 3) : CellTallies nD τ sig Unit := tallyAt (recvCell (pe c r) r) () N
def TB (c : Dev nD) (r : Fin 3) : CellTallies nD τ sig Unit := tallyAt (barCell (pe c r)) () 1

/-- What device `c` owes after its three signals (its three transfers, in the order the program peels them: 1, 0, 2 from the
    right), after two, after one, and at launch. -/
def O₃ (c : Dev nD) : CellTallies nD τ sig Unit := TR c 2 + TR c 0 + TR c 1
def O₂ (c : Dev nD) : CellTallies nD τ sig Unit := O₃ c + TB c 2
def O₁ (c : Dev nD) : CellTallies nD τ sig Unit := O₂ c + TB c 1
def O₀ (c : Dev nD) : CellTallies nD τ sig Unit := O₁ c + TB c 0

def L (g : GSem nD τ sig) : Finset Unit := if g.1.2 = .tc then {()} else ∅
abbrev IsRecv (sm : SemLoc sig) : Prop := sm = .dma (recvA 0).sem ∨ sm = .dma (recvA 1).sem ∨ sm = .dma (recvA 2).sem
/-- barrier cells at 1, receive cells at 2, everything else (staging, send, local) at 0. -/
def lv (g : GSem nD τ sig) (_ : Unit) : ℕ := if g.2 = .reg barS then 1 else if IsRecv g.2 then 2 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own eight, its
    three peers' barrier cells (its signals) and the receive cell each of its transfers credits. -/
def invs (K : Dev nD × Fin 8 → ℕ) (c : Dev nD) : sProp 𝕄 :=
  iprop((bigSep Finset.univ fun k : Fin 8 => cellInv ER (a2aRd m) (K (c, k)) (kcell (c, k)))
    ∗ (bigSep Finset.univ fun r : Fin 3 => cellInv ER (a2aRd m) (K (pe c r, 0)) (barCell (pe c r)))
    ∗ (bigSep Finset.univ fun r : Fin 3 => cellInv ER (a2aRd m) (K (pe c r, iR r)) (recvCell (pe c r) r)))

instance invs_persistent (K : Dev nD × Fin 8 → ℕ) (c : Dev nD) : BI.Persistent (invs m K c) := by unfold invs; infer_instance

/-- The rounds' records device `c` knows: round 0 reached at every cell it pays or owns. -/
def marks (c : Dev nD) : sProp 𝕄 :=
  iprop((bigSep Finset.univ fun k : Fin 8 => reached ER (kcell (c, k)) 0)
    ∗ (bigSep Finset.univ fun r : Fin 3 => reached ER (barCell (pe c r)) 0)
    ∗ (bigSep Finset.univ fun r : Fin 3 => reached ER (recvCell (pe c r) r) 0))

instance marks_persistent (c : Dev nD) : BI.Persistent (marks (F := F) c) := by unfold marks; infer_instance

/-- The tokens of the duties device `c` pays: duty `r` of the barrier cell its signal `r` raises, the duty of the receive
    cell its transfer `r` credits, of its own three send cells and of its local cell. -/
def payToks (c : Dev nD) : sProp 𝕄 :=
  iprop((bigSep Finset.univ fun r : Fin 3 => dutyTok ER (barCell (pe c r)) 0 r)
    ∗ (bigSep Finset.univ fun r : Fin 3 => dutyTok ER (recvCell (pe c r) r) 0 (0 : Fin 3))
    ∗ (bigSep Finset.univ fun r : Fin 3 => dutyTok ER (sendCell c r) 0 (0 : Fin 3))
    ∗ dutyTok ER (locCell c) 0 (0 : Fin 3))

/-- The protocol's ghost state device `c` starts from. -/
def ghost (K : Dev nD × Fin 8 → ℕ) (c : Dev nD) : sProp 𝕄 :=
  iprop(invs m K c ∗ marks c ∗ (bigSep Finset.univ fun k : Fin 8 => atPos ER (kcell (c, k)) 0 ∅ 0) ∗ payToks c)

/-- The credit tokens the launch deals device `c`: its barrier's three units and its three receive cells' credit. -/
def creds (c : Dev nD) : sProp 𝕄 :=
  iprop(cred (tallyAt (barCell c) () 3) ∗ bigSep Finset.univ fun r : Fin 3 => cred (tallyAt (recvCell c r) () N))

/-- What device `c`'s body starts from, besides the scratch: the ghost state at some names, the credit tokens, the level
    facts, and its result array whole as launched. -/
def start (c : Dev nD) : sProp 𝕄 :=
  iprop((∃ K, ghost m K c) ∗ creds c ∗ levAts L lv ∗ (((c : Thread nD τ).loc main_v1) ↦{fullShare} m ((c : Thread nD τ).loc main_v1)))

def Φ₀ (c : Dev nD) : sProp 𝕄 := iprop(start m c ∗ ∃ f, ((c : Thread nD τ).loc cc0_scratch0) ↦{fullShare} f)
/-- After the point: the result array whole at its final contents, the scratch whole, the seven own cells at zero, closed
    (the barrier cell is the runtime's: nothing to hand back). -/
def Φ₁ (c : Dev nD) : sProp 𝕄 :=
  iprop((((c : Thread nD τ).loc main_v1) ↦{fullShare} outV m c) ∗ (∃ f, ((c : Thread nD τ).loc cc0_scratch0) ↦{fullShare} f)
    ∗ bigSep Finset.univ fun k : Fin 7 => semVal ((c : Thread nD τ), osem k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 8 → ℕ) (c : Dev nD) : sProp 𝕄 :=
  iprop((ghost m K c ∗ creds c ∗ levAts L lv ∗ (((c : Thread nD τ).loc main_v1) ↦{fullShare} m ((c : Thread nD τ).loc main_v1))
      ∗ ∃ f, ((c : Thread nD τ).loc cc0_scratch0) ↦{fullShare} f)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

end Cert.Kernel.A2A

end
-- ==== Proof.Kernel.Tables.lean ====
/-
  The schedule's tables, cell by cell: which duties round 0 of each cell has, their amounts, what a round expects,
  what each duty hands over; and the level evidence for each wait (barrier cells sit below receive cells, everything a
  device still owes when it waits lies above the cell it waits on).
-/
import proofs.«900008_g7700000000000009_dist_a2a_v7x_i4_i_m512_n512_bf16_1_alg».proof.Proof.Kernel.Protocol

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores are pairwise distinct -/

theorem send_ne_bar (r : Fin 3) : (SemLoc.dma (sendA r).sem : SemLoc sig) ≠ .reg barS := fun h => by cases h
theorem recv_ne_bar (r : Fin 3) : (SemLoc.dma (recvA r).sem : SemLoc sig) ≠ .reg barS := fun h => by cases h
theorem loc_ne_bar : (SemLoc.dma locA.sem : SemLoc sig) ≠ .reg barS := fun h => by cases h
theorem send_ne_recv (r r' : Fin 3) : (SemLoc.dma (sendA r).sem : SemLoc sig) ≠ .dma (recvA r').sem := by revert r r'; decide
theorem send_ne_send (r r' : Fin 3) (h : r ≠ r') : (SemLoc.dma (sendA r).sem : SemLoc sig) ≠ .dma (sendA r').sem := by revert r r'; decide
theorem recv_ne_recv (r r' : Fin 3) (h : r ≠ r') : (SemLoc.dma (recvA r).sem : SemLoc sig) ≠ .dma (recvA r').sem := by revert r r'; decide
theorem loc_ne_send (r : Fin 3) : (SemLoc.dma locA.sem : SemLoc sig) ≠ .dma (sendA r).sem := by revert r; decide
theorem loc_ne_recv (r : Fin 3) : (SemLoc.dma locA.sem : SemLoc sig) ≠ .dma (recvA r).sem := by revert r; decide

section Sched
variable (c : Dev nD) (r : Fin 3)

/-- An index of `Fin 3` is one of the three literals. -/
private theorem fin3_cases (r : Fin 3) : r = 0 ∨ r = 1 ∨ r = 2 := by revert r; decide

private theorem not_bar_send : ¬ IsBar (sendCell c r) := fun h => send_ne_bar r h.2
private theorem not_bar_recv : ¬ IsBar (recvCell c r) := fun h => recv_ne_bar r h.2
private theorem not_bar_loc : ¬ IsBar (locCell c) := fun h => loc_ne_bar h.2

/-- Send, receive and local cells are among the seven transfer cells. -/
private theorem xfer_send : IsXfer (sendCell c r) := by
  rcases fin3_cases r with rfl | rfl | rfl
  exacts [⟨rfl, 0, rfl⟩, ⟨rfl, 1, rfl⟩, ⟨rfl, 2, rfl⟩]
private theorem xfer_recv : IsXfer (recvCell c r) := by
  rcases fin3_cases r with rfl | rfl | rfl
  exacts [⟨rfl, 3, rfl⟩, ⟨rfl, 4, rfl⟩, ⟨rfl, 5, rfl⟩]
private theorem xfer_loc : IsXfer (locCell c) := ⟨rfl, 6, rfl⟩

/-! ## Duties, amounts, expected units -/

theorem duties_bar : (a2aRd (F := F) m).duties (barCell c) 0 = Finset.univ := by dsimp only [a2aRd]; exact if_pos ⟨rfl, rfl, rfl⟩
theorem duties_send : (a2aRd (F := F) m).duties (sendCell c r) 0 = {0} := by
  dsimp only [a2aRd]; rw [if_neg (fun h => not_bar_send c r h.2)]; exact if_pos ⟨rfl, xfer_send c r⟩
theorem duties_recv : (a2aRd (F := F) m).duties (recvCell c r) 0 = {0} := by
  dsimp only [a2aRd]; rw [if_neg (fun h => not_bar_recv c r h.2)]; exact if_pos ⟨rfl, xfer_recv c r⟩
theorem duties_loc : (a2aRd (F := F) m).duties (locCell c) 0 = {0} := by
  dsimp only [a2aRd]; rw [if_neg (fun h => not_bar_loc c h.2)]; exact if_pos ⟨rfl, xfer_loc c⟩
theorem duties_later (g : GSem nD τ sig) : ∀ r, 1 ≤ r → (a2aRd (F := F) m).duties g r = ∅ :=
  fun r hr => by dsimp only [a2aRd]; rw [if_neg fun h => by omega, if_neg fun h => by omega]

theorem amount_bar (d : Fin 3) : (a2aRd (F := F) m).amount (barCell c) 0 d = 1 := by dsimp only [a2aRd]; exact if_pos rfl
theorem amount_send (d : Fin 3) : (a2aRd (F := F) m).amount (sendCell c r) 0 d = N := by dsimp only [a2aRd]; exact if_neg (send_ne_bar r)
theorem amount_recv (d : Fin 3) : (a2aRd (F := F) m).amount (recvCell c r) 0 d = N := by dsimp only [a2aRd]; exact if_neg (recv_ne_bar r)
theorem amount_loc (d : Fin 3) : (a2aRd (F := F) m).amount (locCell c) 0 d = N := by dsimp only [a2aRd]; exact if_neg loc_ne_bar

theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]
theorem expect_loc : (a2aRd (F := F) m).expect (locCell c) 0 = N := by
  unfold Schedule.expect Schedule.amountOf; rw [duties_loc, Finset.sum_singleton, amount_loc]

/-! ## Payloads -/

theorem payload_bar (d : Fin 3) : (a2aRd (F := F) m).payload (barCell c) 0 d = barPay c d := by dsimp only [a2aRd]; rw [if_pos rfl]
theorem payload_send (d : Fin 3) : (a2aRd (F := F) m).payload (sendCell c r) 0 d = sendPay m c r := by
  dsimp only [a2aRd]
  rw [if_neg (send_ne_bar r), if_neg (send_ne_recv r 0), if_neg (send_ne_recv r 1), if_neg (send_ne_recv r 2)]
  rcases fin3_cases r with rfl | rfl | rfl
  · rw [if_pos rfl]
  · rw [if_neg (send_ne_send 1 0 (by decide)), if_pos rfl]
  · rw [if_neg (send_ne_send 2 0 (by decide)), if_neg (send_ne_send 2 1 (by decide)), if_pos rfl]
theorem payload_recv (d : Fin 3) : (a2aRd (F := F) m).payload (recvCell c r) 0 d = recvPay m c r := by
  dsimp only [a2aRd]
  rw [if_neg (recv_ne_bar r)]
  rcases fin3_cases r with rfl | rfl | rfl
  · rw [if_pos rfl]
  · rw [if_neg (recv_ne_recv 1 0 (by decide)), if_pos rfl]
  · rw [if_neg (recv_ne_recv 2 0 (by decide)), if_neg (recv_ne_recv 2 1 (by decide)), if_pos rfl]
theorem payload_loc (d : Fin 3) : (a2aRd (F := F) m).payload (locCell c) 0 d = locPay m c := by
  dsimp only [a2aRd]
  rw [if_neg loc_ne_bar, if_neg (loc_ne_recv 0), if_neg (loc_ne_recv 1), if_neg (loc_ne_recv 2),
    if_neg (loc_ne_send 0), if_neg (loc_ne_send 1), if_neg (loc_ne_send 2), if_pos rfl]

/-- The rest of the barrier cell's round, no duty taken: the three peers' payloads. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, funext (payload_bar m c)]
  exact bigSep_univ_eq_bigSepL [0, 1, 2] (by decide) (by decide) _
theorem rest_send : bigSep ((a2aRd (F := F) m).duties (sendCell c r) 0 \ ∅) (fun d => (a2aRd (F := F) m).payload (sendCell c r) 0 d) = sendPay m c r := by
  rw [Finset.sdiff_empty, duties_send, bigSep_singleton, payload_send]
theorem rest_recv : bigSep ((a2aRd (F := F) m).duties (recvCell c r) 0 \ ∅) (fun d => (a2aRd (F := F) m).payload (recvCell c r) 0 d) = recvPay m c r := by
  rw [Finset.sdiff_empty, duties_recv, bigSep_singleton, payload_recv]
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A receive cell's semaphore is one of the three receive semaphores. -/
private theorem isRecv_recv (r : Fin 3) : IsRecv (SemLoc.dma (recvA r).sem : SemLoc sig) := by
  rcases (show r = 0 ∨ r = 1 ∨ r = 2 by revert r; decide) with rfl | rfl | rfl
  exacts [.inl rfl, .inr (.inl rfl), .inr (.inr rfl)]

/-- What a device owes after its three signals sits on its peers' receive cells. -/
private theorem O₃_pos {c : Dev nD} {g : GSem nD τ sig} {u : Unit} (h : 0 < O₃ c g u) : ∃ r, g = recvCell (pe c r) r := by
  unfold O₃ TR at h
  simp only [Pi.add_apply, Finsupp.add_apply, tallyAt_apply] at h
  by_contra hn
  rw [not_exists] at hn
  rw [if_neg (fun h' => hn 2 h'.1), if_neg (fun h' => hn 0 h'.1), if_neg (fun h' => hn 1 h'.1)] at h
  exact Nat.lt_irrefl 0 h

/-- What a device owes at launch sits on its peers' receive and barrier cells. -/
theorem O₀_pos {c : Dev nD} {g : GSem nD τ sig} {u : Unit} (h : 0 < O₀ c g u) :
    (∃ r, g = recvCell (pe c r) r) ∨ (∃ r, g = barCell (pe c r)) := by
  unfold O₀ O₁ O₂ O₃ TR TB at h
  simp only [Pi.add_apply, Finsupp.add_apply, tallyAt_apply] at h
  by_contra hn
  rw [not_or, not_exists, not_exists] at hn
  rw [if_neg (fun h' => hn.1 2 h'.1), if_neg (fun h' => hn.1 0 h'.1), if_neg (fun h' => hn.1 1 h'.1),
    if_neg (fun h' => hn.2 2 h'.1), if_neg (fun h' => hn.2 1 h'.1), if_neg (fun h' => hn.2 0 h'.1)] at h
  exact Nat.lt_irrefl 0 h

/-- A wait on a cell that is neither a barrier nor a receive cell (level 0: the pipeline's staging cells), owing what is
    owed at launch or nothing. -/
theorem mayWait_stage (c : Dev nD) (q : DmaSem sig) (hq : ¬ IsRecv (SemLoc.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; dsimp only [lv]; rw [if_neg (fun h => by cases h), if_neg hq])
      (fun g u hg => by
        rcases O₀_pos hg with ⟨r, rfl⟩ | ⟨r, rfl⟩
        · dsimp only [lv]; rw [if_neg (recv_ne_bar r), if_pos (isRecv_recv r)]; decide
        · dsimp only [lv]; rw [if_pos rfl]; decide)
  · rw [MayWait_zero]; iintro -; iempintro

/-- At its barrier wait a device owes its three transfers' credit only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨r, rfl⟩ := O₃_pos hg; exact Finset.mem_singleton_self _)
    (fun p hp => by rw [Finset.mem_singleton.mp hp]; dsimp only [lv]; rw [if_pos rfl])
    (fun g u hg => by
      obtain ⟨r, rfl⟩ := O₃_pos hg
      dsimp only [lv]; rw [if_neg (recv_ne_bar r), if_pos (isRecv_recv r)]; decide)

end Cert.Kernel.A2A

end
-- ==== Proof.Kernel.Launch.lean ====
/-
  The launch of the all-to-all: the protocol's ghost state funded for all four devices under one update (every cell's
  invariant allocated, the duty tokens dealt to the devices that pay them), each device's credit read off what its
  three peers owe it, the result array routed through the region as the unscoped rest and read back at the end.
-/
import proofs.«900008_g7700000000000009_dist_a2a_v7x_i4_i_m512_n512_bf16_1_alg».proof.Proof.Kernel.Tables

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's layout facts -/

private theorem ownSemFacts : Pipeline.OwnSemFacts cfg0.spec osem := by decide

private theorem share_eq (c : Dev nD) (w : Fin cfg0.W) : (dats m 0 c).share w = fullShare := by unfold Dat.share; split <;> rfl

private theorem csem_injective : Function.Injective (csem : Fin 8 → SemLoc sig) := by decide

private theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Receive cell `r` is the cell at place `iR r` of a device's eight. -/
private theorem csem_iR (r : Fin 3) : csem (iR r) = .dma (recvA r).sem := by revert r; decide
private theorem kcell_iR (c : Dev nD) (r : Fin 3) : kcell (c, iR r) = recvCell c r := by
  show (((c : Dev nD) : Thread nD τ), csem (iR r)) = _
  rw [csem_iR]

/-- All the protocol's cells: each device's eight. -/
private def a2aCells : Finset (GSem nD τ sig) := Finset.univ.map ⟨kcell, kcell_injective⟩

/-- The duty tokens minted for a device's own cells, as (place of the cell, duty): the barrier's three duties, then the one
    duty of each of the seven transfer cells. -/
private abbrev tcell : Fin 10 → Fin 8 × Fin 3 := fun
  | 0 => (0, 0) | 1 => (0, 1) | 2 => (0, 2)
  | 3 => (1, 0) | 4 => (2, 0) | 5 => (3, 0) | 6 => (4, 0) | 7 => (5, 0) | 8 => (6, 0) | 9 => (7, 0)
private theorem tcell_injective : Function.Injective tcell := by decide
private abbrev tokOf (cj : Dev nD × Fin 10) : GSem nD τ sig × ℕ × Fin 3 := (kcell (cj.1, (tcell cj.2).1), 0, (tcell cj.2).2)
private theorem tokOf_injective : Function.Injective (tokOf : Dev nD × Fin 10 → GSem nD τ sig × ℕ × Fin 3) := by
  rintro ⟨c, j⟩ ⟨c', j'⟩ h
  have h1 : (c, (tcell j).1) = (c', (tcell j').1) := kcell_injective (congrArg (fun x : GSem nD τ sig × ℕ × Fin 3 => x.1) h)
  have h2 : (tcell j).2 = (tcell j').2 := congrArg (fun x : GSem nD τ sig × ℕ × Fin 3 => x.2.2) h
  have hc : c = c' := congrArg Prod.fst h1
  have hk : (tcell j).1 = (tcell j').1 := congrArg Prod.snd h1
  have hj : j = j' := tcell_injective (Prod.ext hk h2)
  subst hc; subst hj; rfl
private def a2aToks : Finset (GSem nD τ sig × ℕ × Fin 3) := Finset.univ.map ⟨tokOf, tokOf_injective⟩

/-- The launch element: the pipeline library's, and the protocol's cells and tokens. -/
private def u₀ : UU :=
  (initOf (Pipeline.cells cfgs cellOf_inj) (Pipeline.launchToks cfgs cellOf_inj), initOf a2aCells a2aToks)

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
private theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
private theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The duty tokens of device `c`'s own cells: its barrier's three, its receive cells', its send cells', its local cell's. -/
private def toks (c : Dev nD) : sProp 𝕄 :=
  iprop((bigSep Finset.univ fun r : Fin 3 => dutyTok ER (barCell c) 0 r)
    ∗ (bigSep Finset.univ fun r : Fin 3 => dutyTok ER (recvCell c r) 0 (0 : Fin 3))
    ∗ (bigSep Finset.univ fun r : Fin 3 => dutyTok ER (sendCell c r) 0 (0 : Fin 3))
    ∗ dutyTok ER (locCell c) 0 (0 : Fin 3))

omit [FloatOps F] in
private theorem toks_intro (c : Dev nD) :
    (bigSep Finset.univ fun j : Fin 10 => (dutyTok ER (kcell (c, (tcell j).1)) 0 (tcell j).2 : sProp 𝕄)) ⊢ toks c := by
  unfold toks
  rw [bigSep_fin10, bigSep_fin3, bigSep_fin3, bigSep_fin3]
  iintro ⟨B0, B1, B2, S0, S1, S2, R0, R1, R2, Lc⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0 S1 S2]
  · isplitl [S0]; · iexact S0
    isplitl [S1]; · iexact S1
    iexact S2
  iexact Lc

/-- What the launch element deals device `c`: its eight cells' round states, positions and round-0 marks, and its own cells' tokens. -/
private def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
private def G' (c : Dev nD) : sProp 𝕄 := iprop(∃ K, ghost m K c)

private theorem fund_cells : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄))
      = bigSep Finset.univ fun c : Dev nD => bigSep Finset.univ fun j : Fin 10 => (dutyTok ER (kcell (c, (tcell j).1)) 0 (tcell j).2 : sProp 𝕄) := by
    unfold a2aToks; rw [bigSep_map, bigSep_univ_prod]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (bigSep_mono fun c _ => toks_intro (F := F) c)) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The send, receive and local semaphores are the kernel's own seven; -/
private theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
omit [FloatOps F] in
/-- the barrier semaphore the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨HO, HB⟩
  isplitl [HB]; · iexact HB
  iexact HO

private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 8 => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k : Fin 8 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name and its round-0 mark: persistent, so every device may read off the ones it needs. -/
private def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

private instance records_persistent (K : Dev nD × Fin 8 → ℕ) : BI.Persistent (records m K) := by unfold records; infer_instance

private theorem inv_at (K : Dev nD × Fin 8 → ℕ) (ck : Dev nD × Fin 8) : records m K ⊢ cellInv ER (a2aRd m) (K ck) (kcell ck) := by
  have h : (bigSep Finset.univ fun ck : Dev nD × Fin 8 => (cellInv ER (a2aRd m) (K ck) (kcell ck) : sProp 𝕄)) ⊢ cellInv ER (a2aRd m) (K ck) (kcell ck) :=
    bigSep_elim (Finset.mem_univ ck)
  unfold records
  iintro ⟨HI, -⟩
  iapply h; iexact HI
private theorem reached_at (K : Dev nD × Fin 8 → ℕ) (ck : Dev nD × Fin 8) : records m K ⊢ reached ER (kcell ck) 0 := by
  have h : (bigSep Finset.univ fun ck : Dev nD × Fin 8 => (reached ER (kcell ck) 0 : sProp 𝕄)) ⊢ reached ER (kcell ck) 0 :=
    bigSep_elim (Finset.mem_univ ck)
  unfold records
  iintro ⟨-, HR⟩
  iapply h; iexact HR

private theorem invs_intro (K : Dev nD × Fin 8 → ℕ) (c : Dev nD) : records m K ⊢ invs m K c := by
  have h1 : records m K ⊢ bigSep Finset.univ fun k : Fin 8 => cellInv ER (a2aRd m) (K (c, k)) (kcell (c, k)) :=
    bigSep_intro_persistent fun k _ => inv_at m K (c, k)
  have h2 : records m K ⊢ bigSep Finset.univ fun r : Fin 3 => cellInv ER (a2aRd m) (K (pe c r, 0)) (barCell (pe c r)) :=
    bigSep_intro_persistent fun r _ => inv_at m K (pe c r, 0)
  have h3 : records m K ⊢ bigSep Finset.univ fun r : Fin 3 => cellInv ER (a2aRd m) (K (pe c r, iR r)) (recvCell (pe c r) r) :=
    bigSep_intro_persistent fun r _ => (inv_at m K (pe c r, iR r)).trans (Entails.of_eq (congrArg _ (kcell_iR (pe c r) r)))
  unfold invs
  iintro #H
  isplitr; · iapply h1; iexact H
  isplitr; · iapply h2; iexact H
  iapply h3; iexact H

private theorem marks_intro (K : Dev nD × Fin 8 → ℕ) (c : Dev nD) : records m K ⊢ marks c := by
  have h1 : records m K ⊢ bigSep Finset.univ fun k : Fin 8 => reached ER (kcell (c, k)) 0 :=
    bigSep_intro_persistent fun k _ => reached_at m K (c, k)
  have h2 : records m K ⊢ bigSep Finset.univ fun r : Fin 3 => reached ER (barCell (pe c r)) 0 :=
    bigSep_intro_persistent fun r _ => reached_at m K (pe c r, 0)
  have h3 : records m K ⊢ bigSep Finset.univ fun r : Fin 3 => reached ER (recvCell (pe c r) r) 0 :=
    bigSep_intro_persistent fun r _ => (reached_at m K (pe c r, iR r)).trans (Entails.of_eq (congrArg (fun g => reached ER g 0) (kcell_iR (pe c r) r)))
  unfold marks
  iintro #H
  isplitr; · iapply h1; iexact H
  isplitr; · iapply h2; iexact H
  iapply h3; iexact H

/-- The records, a device's positions and the tokens of the duties it pays are its ghost state. -/
private theorem ghost_intro (K : Dev nD × Fin 8 → ℕ) (c : Dev nD) :
    iprop(records m K ∗ ((bigSep Finset.univ fun k : Fin 8 => atPos ER (kcell (c, k)) 0 ∅ 0) ∗ payToks c)) ⊢ G' m c := by
  unfold G' ghost
  iintro ⟨#HR, Hat, Htk⟩
  iexists K
  isplitr; · iapply (invs_intro m K c); iexact HR
  isplitr; · iapply (marks_intro m K c); iexact HR
  isplitl [Hat]; · iexact Hat
  iexact Htk

/-- The devices at a fixed offset: a bijection of the mesh. -/
private abbrev ringE (r : Fin 3) : Dev nD ≃ Dev nD := ⟨fun c => pe c r, fun c => sr c r, fun c => sr_pe c r, fun c => pe_sr c r⟩

omit [FloatOps F] in
private theorem deal (r : Fin 3) (Φ : Dev nD → sProp 𝕄) : bigSep Finset.univ Φ ⊢ bigSep Finset.univ fun c => Φ (pe c r) :=
  Entails.of_eq (bigSep_univ_equiv (ringE r) Φ)

omit [FloatOps F] in
/-- The tokens dealt over the mesh: duty `r` of a barrier cell and the duty of receive cell `r` go to the device `1 + r` places
    before the cell's owner; the send and local tokens stay. -/
private theorem toks_around : (bigSep Finset.univ fun c : Dev nD => (toks c : sProp 𝕄)) ⊢ bigSep Finset.univ fun c : Dev nD => payToks c := by
  unfold toks payToks
  simp only [bigSep_fin3, bigSep_sep']
  iintro ⟨⟨B0, B1, B2⟩, ⟨R0, R1, R2⟩, HS, HL⟩
  ihave B0' := (deal 0 fun c : Dev nD => (dutyTok ER (barCell c) 0 (0 : Fin 3) : sProp 𝕄)) $$ B0
  ihave B1' := (deal 1 fun c : Dev nD => (dutyTok ER (barCell c) 0 (1 : Fin 3) : sProp 𝕄)) $$ B1
  ihave B2' := (deal 2 fun c : Dev nD => (dutyTok ER (barCell c) 0 (2 : Fin 3) : sProp 𝕄)) $$ B2
  ihave R0' := (deal 0 fun c : Dev nD => (dutyTok ER (recvCell c 0) 0 (0 : Fin 3) : sProp 𝕄)) $$ R0
  ihave R1' := (deal 1 fun c : Dev nD => (dutyTok ER (recvCell c 1) 0 (0 : Fin 3) : sProp 𝕄)) $$ R1
  ihave R2' := (deal 2 fun c : Dev nD => (dutyTok ER (recvCell c 2) 0 (0 : Fin 3) : sProp 𝕄)) $$ R2
  isplitl [B0' B1' B2']
  · isplitl [B0']; · iexact B0'
    isplitl [B1']; · iexact B1'
    iexact B2'
  isplitl [R0' R1' R2']
  · isplitl [R0']; · iexact R0'
    isplitl [R1']; · iexact R1'
    iexact R2'
  isplitl [HS]; · iexact HS
  iexact HL

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k : Fin 8 => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 8 => (atPos ER (kcell (c, k)) 0 ∅ 0 : sProp 𝕄)) payToks).symm)
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
private theorem cred_three (g : GSem nD τ sig) :
    iprop(cred (tallyAt g () 1) ∗ cred (tallyAt g () 1) ∗ cred (tallyAt g () 1)) ⊢ (cred (tallyAt g () 3) : sProp 𝕄) := by
  have h3 : (tallyAt g () 3 : CellTallies nD τ sig Unit) = tallyAt g () 1 + (tallyAt g () 1 + tallyAt g () 1) := by
    rw [tallyAt_add, tallyAt_add]
  rw [h3]
  exact (sep_mono_right (cred_add _ _).2).trans (cred_add _ _).2

omit [FloatOps F] in
/-- Device `c`'s launch credit: each of the three devices before it owes its barrier cell a unit, and the device `1 + r` places
    before it owes its receive cell `r` a block's credit. -/
private theorem creds_intro (c : Dev nD) : (Pipeline.launchCred O₀ c : sProp 𝕄) ⊢ creds c := by
  have hO : (O₀ : Dev nD → CellTallies nD τ sig Unit) = fun d =>
      tallyAt (recvCell (pe d 2) 2) () N + tallyAt (recvCell (pe d 0) 0) () N + tallyAt (recvCell (pe d 1) 1) () N
        + tallyAt (barCell (pe d 2)) () 1 + tallyAt (barCell (pe d 1)) () 1 + tallyAt (barCell (pe d 0)) () 1 := funext fun d => rfl
  rw [hO, Pipeline.launchCred_add, Pipeline.launchCred_add, Pipeline.launchCred_add, Pipeline.launchCred_add, Pipeline.launchCred_add]
  unfold creds
  iintro ⟨⟨⟨⟨⟨R2, R0⟩, R1⟩, B2⟩, B1⟩, B0⟩
  ihave R0' := (Pipeline.launchCred_tallyAt (SemLoc.dma (recvA 0).sem) (fun d => pe d 0) (fun d => sr d 0) (fun c => pe_sr c 0) (fun d => sr_pe d 0) () N c) $$ R0
  ihave R1' := (Pipeline.launchCred_tallyAt (SemLoc.dma (recvA 1).sem) (fun d => pe d 1) (fun d => sr d 1) (fun c => pe_sr c 1) (fun d => sr_pe d 1) () N c) $$ R1
  ihave R2' := (Pipeline.launchCred_tallyAt (SemLoc.dma (recvA 2).sem) (fun d => pe d 2) (fun d => sr d 2) (fun c => pe_sr c 2) (fun d => sr_pe d 2) () N c) $$ R2
  ihave B0' := (Pipeline.launchCred_tallyAt (SemLoc.reg barS) (fun d => pe d 0) (fun d => sr d 0) (fun c => pe_sr c 0) (fun d => sr_pe d 0) () 1 c) $$ B0
  ihave B1' := (Pipeline.launchCred_tallyAt (SemLoc.reg barS) (fun d => pe d 1) (fun d => sr d 1) (fun c => pe_sr c 1) (fun d => sr_pe d 1) () 1 c) $$ B1
  ihave B2' := (Pipeline.launchCred_tallyAt (SemLoc.reg barS) (fun d => pe d 2) (fun d => sr d 2) (fun c => pe_sr c 2) (fun d => sr_pe d 2) () 1 c) $$ B2
  isplitl [B0' B1' B2']
  · iapply (cred_three (F := F) (barCell c))
    isplitl [B0']; · iexact B0'
    isplitl [B1']; · iexact B1'
    iexact B2'
  rw [bigSep_fin3]
  isplitl [R0']; · iexact R0'
  isplitl [R1']; · iexact R1'
  iexact R2'

/-! ## The theorem's side conditions -/

/-- The result array is no window's: it reaches the body as the launch's unscoped rest. -/
private theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hv, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hv
  · iempintro

private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

private theorem phi1_exit (c : Dev nD) :
    (dats m 0 c).Φ (Fin.last cfg0.N)
      ⊢ iprop((((c : Thread nD τ).loc main_v1) ↦{fullShare} outV m c) ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨Hv, Hs, Hz⟩
  isplitl [Hv]; · iexact Hv
  isplitl [Hz]; · iexact Hz
  iexact Hs

private theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run guarantees of every final state: each device's result array at its final contents, its block of `x`
    as launched. -/
def QC : PUnit × MemSt nD τ sig (Elt F) → Prop := fun r => ∀ c : Dev nD,
  r.2.mem ((c : Thread nD τ).loc main_v1) = outV m c ∧ r.2.mem ((c : Thread nD τ).loc main_arg0) = m ((c : Thread nD τ).loc main_arg0)

set_option maxRecDepth 8000 in
/-- At the compiled mesh of four devices, from any memory with zero counters: every weakly fair execution of @main
    terminates, nothing faulting, each device's result array ends at `outV` and its block of `x` unchanged — given the
    body's obligation on every device. -/
theorem run_main (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => (((c : Thread nD τ).loc main_v1) ↦{fullShare} outV m c)) (Z := fun _ => iprop(emp))
    (hX := start_intro m ρ) (hin := phi0_intro m) (hout := phi1_exit m)
    (QY := fun c s => s.mem ((c : Thread nD τ).loc main_v1) = outV m c)
    (hY := fun c s' => by
      iintro ⟨Hv, -, HSI⟩
      icombine HSI Hv gives %hx
      imodintro
      isplitr; · ipureintro; exact Buf.eq_of_forall_mem_univ hx
      iexact HSI)
    (hQ := fun s h c => ⟨(h c).2.2, ((h c).1 0).trans ((dats (F := F) m 0 c).arrAt_in (0 : Fin 1) rfl _)⟩)

/-- info: 'Cert.Kernel.A2A.run_main' depends on axioms: [propext, Classical.choice, Quot.sound] -/
#guard_msgs in #print axioms run_main

end Cert.Kernel.A2A

end
-- ==== Proof.Kernel.Obligation.lean ====
/-
  The body obligation of the pipeline library on device `c`, from the body's run: the library hands the body the
  invariant before the point, what is owed and the staged window; the run gives back the invariant after it.
-/
import proofs.«900008_g7700000000000009_dist_a2a_v7x_i4_i_m512_n512_bf16_1_alg».proof.Proof.Kernel.Protocol

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A whole buffer owned at contents `X` is a points-to of it at some contents equal to `X`. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the library hands the body at the one point: the invariant before it, what is owed, the staged window. -/
private def bodyPre' (c : Dev nD) : sProp 𝕄 :=
  iprop(Φ₀ m c ∗ (dats m 0 c).owesAt () t₀.castSucc
    ∗ (∃ d, stg c cc0_stg0_0 ((dats m 0 c).before (0 : Fin 1) t₀ d)))

/-- The library's body obligation on device `c`, given the body's run from `bodyPre` to `bodyPost` at any names `K`. -/
theorem body_obligation_of
    (hsound : ∀ (K : Dev nD × Fin 8 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt)
    (c : Dev nD) : BodyObligation (dats (F := F) m 0 c) (defs₀ (F := F)) 𝒱₀ () Set.univ := by
  intro t
  rw [fin_N t]
  rw [bigSep_W0, bigSep_W0]
  simp only [owns_whole_eq]
  show bodyPre' m c ⊢ wp frame (wpE (defs₀ (F := F)) 𝒱₀ c none) Set.univ (bodyAt0 (F := F) t₀) (fun _ => bodyPost m c)
  unfold bodyPre' Φ₀ start
  iintro ⟨⟨⟨⟨%K, Hg⟩, Hcr, Hlev, Hv⟩, Hscr⟩, Ho, Hx⟩
  iapply (hsound K c fun _ => bodyPost m c)
  unfold bodyPre
  isplitr []
  · isplitl [Hg Hcr Hlev Hv Hscr]
    · isplitl [Hg]; · iexact Hg
      isplitl [Hcr]; · iexact Hcr
      isplitl [Hlev]; · iexact Hlev
      isplitl [Hv]; · iexact Hv
      iexact Hscr
    isplitl [Ho]; · iexact Ho
    iexact Hx
  · iintro H; iexact H

end Cert.Kernel.A2A

end
-- ==== Proof.Kernel.Landing.lean ====
/-
  The pieces of the two buffers, as sets of indices and as values. The scratch's four column blocks (the three sources
  of the transfers and the local copy's) are pairwise disjoint and cover it; a result array's four row blocks likewise.
  A store of a cast column block of `x` leaves that column block of the scratch at `scrV` (whatever it held) and
  touches no other; a transfer of column block `t` of device `c`'s scratch into rows `c` of device `t`'s result leaves
  those rows at `outV` of `t`.
-/
import proofs.«900008_g7700000000000009_dist_a2a_v7x_i4_i_m512_n512_bf16_1_alg».proof.Proof.Kernel.Protocol
import Idealize.ShloMosaic.Lib.Pipeline.Value

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The three spellings of one cast -/

theorem pay3_pay2 (v : Vec F S512x512 .f32) : k0_pay3 (k0_pay2 v) = k0_pay1 v := rfl
theorem pay4_eq (v : Vec F S512x512 .f32) : k0_pay4 v = k0_pay1 v := rfl
theorem pay6_pay5 (v : Vec F S512x512 .f32) : k0_pay6 (k0_pay5 v) = k0_pay1 v := rfl

/-! ## The blocks as index sets -/

/-- Membership in a unit-stride 512 × 512 rectangle of the scratch, and of a result array, in coordinates. -/
private theorem mem_unit_s (off : Fin 2 → Nat) (inb : ∀ a, off a + S512x512.size a ≤ S512x2048.size a) (i : S512x2048.Idx) :
    i ∈ (Rect.unit (s := S512x2048) off S512x512.size inb).set ↔
      (off 0 ≤ (i 0).val ∧ (i 0).val < off 0 + 512) ∧ (off 1 ≤ (i 1).val ∧ (i 1).val < off 1 + 512) := by
  rw [Rect.mem_set_unit, Fin.forall_fin_two]; exact Iff.rfl
private theorem mem_unit_o (off : Fin 2 → Nat) (inb : ∀ a, off a + S512x512.size a ≤ S2048x512.size a) (i : S2048x512.Idx) :
    i ∈ (Rect.unit (s := S2048x512) off S512x512.size inb).set ↔
      (off 0 ≤ (i 0).val ∧ (i 0).val < off 0 + 512) ∧ (off 1 ≤ (i 1).val ∧ (i 1).val < off 1 + 512) := by
  rw [Rect.mem_set_unit, Fin.forall_fin_two]; exact Iff.rfl

/-- The blocks are their rectangles. -/
private theorem sBlk_set (c : Dev nD) (r : Fin 3) : (sBlk c r).view.set
    = (Rect.unit (s := S512x2048) (k0_off3 c (BitVec.ofNat 32 (1 + r.val))) S512x512.size (k0_off3_inb c r)).set :=
  View.set_slice_whole cc0_scratch0 _
private theorem sOwn_set (c : Dev nD) : (sOwn c).view.set = (Rect.unit (s := S512x2048) (k0_off5 c) S512x512.size (k0_off5_inb c)).set :=
  View.set_slice_whole cc0_scratch0 _
private theorem oBlk_set (s : Dev nD) : (oBlk s).view.set = (Rect.unit (s := S2048x512) (k0_off2 s) S512x512.size (k0_off2_inb s)).set :=
  View.set_slice_whole main_v1 _

/-- The offsets, coordinate by coordinate. -/
private theorem off3_0 (c : Dev nD) (r : Fin 3) : k0_off3 c (BitVec.ofNat 32 (1 + r.val)) 0 = 0 := by rw [off3_eq]; rfl
private theorem off3_1 (c : Dev nD) (r : Fin 3) : k0_off3 c (BitVec.ofNat 32 (1 + r.val)) 1 = 512 * (pe c r).val := by rw [off3_eq]; rfl
private theorem off5_0 (c : Dev nD) : k0_off5 c 0 = 0 := by rw [k0_off5_eq]; rfl
private theorem off5_1 (c : Dev nD) : k0_off5 c 1 = 512 * c.val := by rw [k0_off5_eq]; rfl
private theorem off2_0 (s : Dev nD) : k0_off2 s 0 = 512 * s.val := by rw [k0_off2_eq]; rfl
private theorem off2_1 (s : Dev nD) : k0_off2 s 1 = 0 := by rw [k0_off2_eq]; rfl

/-- Source column block `r` of device `c` is the columns of the peer `1 + r` places on; the local copy's source the
    device's own columns; result row block `s` the rows of device `s`. -/
private theorem mem_cols (c : Dev nD) (r : Fin 3) (i : S512x2048.Idx) :
    i ∈ (sBlk c r).view.set ↔ 512 * (pe c r).val ≤ (i 1).val ∧ (i 1).val < 512 * (pe c r).val + 512 := by
  have h0 : (i 0).val < 512 := (i 0).isLt
  rw [sBlk_set, mem_unit_s, off3_0, off3_1]; omega
private theorem mem_own (c : Dev nD) (i : S512x2048.Idx) :
    i ∈ (sOwn c).view.set ↔ 512 * c.val ≤ (i 1).val ∧ (i 1).val < 512 * c.val + 512 := by
  have h0 : (i 0).val < 512 := (i 0).isLt
  rw [sOwn_set, mem_unit_s, off5_0, off5_1]; omega
private theorem mem_rows (s : Dev nD) (i : S2048x512.Idx) :
    i ∈ (oBlk s).view.set ↔ 512 * s.val ≤ (i 0).val ∧ (i 0).val < 512 * s.val + 512 := by
  have h1 : (i 1).val < 512 := (i 1).isLt
  rw [oBlk_set, mem_unit_o, off2_0, off2_1]; omega

/-- The peers' places on the ring, as numbers. -/
private theorem pe0_val (c : Dev nD) : (pe c 0).val = (c.val + 1) % 4 := by revert c; decide
private theorem pe1_val (c : Dev nD) : (pe c 1).val = (c.val + 2) % 4 := by revert c; decide
private theorem pe2_val (c : Dev nD) : (pe c 2).val = (c.val + 3) % 4 := by revert c; decide
private theorem sr0_val (c : Dev nD) : (sr c 0).val = (c.val + 3) % 4 := by revert c; decide
private theorem sr1_val (c : Dev nD) : (sr c 1).val = (c.val + 2) % 4 := by revert c; decide
private theorem sr2_val (c : Dev nD) : (sr c 2).val = (c.val + 1) % 4 := by revert c; decide

/-- The store's rectangle is the transfer's source rectangle, the local store's the local copy's. -/
private theorem rect13 (c : Dev nD) (r : Fin 3) :
    Rect.unit (s := S512x2048) (k0_off1 c (BitVec.ofNat 32 (1 + r.val))) S512x512.size (k0_off1_inb c r)
      = Rect.unit (s := S512x2048) (k0_off3 c (BitVec.ofNat 32 (1 + r.val))) S512x512.size (k0_off3_inb c r) :=
  Rect.unit_congr ((off1_eq c r).trans (off3_eq c r).symm) _ _
private theorem rect45 (c : Dev nD) :
    Rect.unit (s := S512x2048) (k0_off4 c) S512x512.size (k0_off4_inb c) = Rect.unit (s := S512x2048) (k0_off5 c) S512x512.size (k0_off5_inb c) :=
  Rect.unit_congr ((k0_off4_eq c).trans (k0_off5_eq c).symm) _ _

/-- The rectangle a store of column block `r` writes through, and the load rectangle of the same columns, are the
    source of transfer `r`. -/
theorem store_set (c : Dev nD) (r : Fin 3) :
    ((sM : Memref sig .tc .vmem S512x2048 .bf16).access (Rect.unit (s := S512x2048) (k0_off1 c (BitVec.ofNat 32 (1 + r.val))) S512x512.size (k0_off1_inb c r))).setOn Finset.univ = (sBlk c r).view.set := by
  rw [rect13]; rfl
theorem load_set (c : Dev nD) (r : Fin 3) :
    (sM : Memref sig .tc .vmem S512x2048 .bf16).view.setOn ((Rect.unit (s := S512x2048) (k0_off1 c (BitVec.ofNat 32 (1 + r.val))) S512x512.size (k0_off1_inb c r))).toLoadRect.set = (sBlk c r).view.set := by
  rw [rect13, sBlk_set]; exact Finset.map_refl
theorem store_own_set (c : Dev nD) :
    ((sM : Memref sig .tc .vmem S512x2048 .bf16).access (Rect.unit (s := S512x2048) (k0_off4 c) S512x512.size (k0_off4_inb c))).setOn Finset.univ = (sOwn c).view.set := by
  rw [rect45]; rfl
theorem load_own_set (c : Dev nD) :
    (sM : Memref sig .tc .vmem S512x2048 .bf16).view.setOn ((Rect.unit (s := S512x2048) (k0_off4 c) S512x512.size (k0_off4_inb c))).toLoadRect.set = (sOwn c).view.set := by
  rw [rect45, sOwn_set]; exact Finset.map_refl

theorem cols_disjoint (c : Dev nD) (r r' : Fin 3) (h : r ≠ r') : Disjoint (sBlk c r).view.set (sBlk c r').view.set := by
  have hne : (pe c r).val ≠ (pe c r').val := fun e => h (pe_inj c r r' (Fin.ext e))
  refine Finset.disjoint_left.mpr fun i hi hi' => ?_
  have h1 := (mem_cols c r i).mp hi
  have h2 := (mem_cols c r' i).mp hi'
  omega
theorem cols_own_disjoint (c : Dev nD) (r : Fin 3) : Disjoint (sBlk c r).view.set (sOwn c).view.set := by
  have hne : (pe c r).val ≠ c.val := fun e => pe_ne_self c r (Fin.ext e)
  refine Finset.disjoint_left.mpr fun i hi hi' => ?_
  have h1 := (mem_cols c r i).mp hi
  have h2 := (mem_own c i).mp hi'
  omega
/-- Taken in the order the transfers are issued (1, 0, 2), each source lies in what is left, and what is left in the end is
    the local copy's source. -/
theorem cols_sub0 (c : Dev nD) : (sBlk c 0).view.set ⊆ Finset.univ \ (sBlk c 1).view.set := by
  intro i hi
  have hc : c.val < 4 := c.isLt
  have h0 := (mem_cols c 0 i).mp hi
  rw [pe0_val] at h0
  refine Finset.mem_sdiff.mpr ⟨Finset.mem_univ _, fun h => ?_⟩
  have h1 := (mem_cols c 1 i).mp h
  rw [pe1_val] at h1
  omega
theorem cols_sub2 (c : Dev nD) : (sBlk c 2).view.set ⊆ (Finset.univ \ (sBlk c 1).view.set) \ (sBlk c 0).view.set := by
  intro i hi
  have hc : c.val < 4 := c.isLt
  have h2 := (mem_cols c 2 i).mp hi
  rw [pe2_val] at h2
  refine Finset.mem_sdiff.mpr ⟨Finset.mem_sdiff.mpr ⟨Finset.mem_univ _, fun h => ?_⟩, fun h => ?_⟩
  · have h1 := (mem_cols c 1 i).mp h
    rw [pe1_val] at h1
    omega
  · have h0 := (mem_cols c 0 i).mp h
    rw [pe0_val] at h0
    omega
theorem cols_rest (c : Dev nD) : ((Finset.univ \ (sBlk c 1).view.set) \ (sBlk c 0).view.set) \ (sBlk c 2).view.set = (sOwn c).view.set := by
  ext i
  have hc : c.val < 4 := c.isLt
  have hi1 : (i 1).val < 2048 := (i 1).isLt
  have e0 := mem_cols c 0 i
  have e1 := mem_cols c 1 i
  have e2 := mem_cols c 2 i
  have eo := mem_own c i
  rw [pe0_val] at e0
  rw [pe1_val] at e1
  rw [pe2_val] at e2
  rw [Finset.mem_sdiff, Finset.mem_sdiff, Finset.mem_sdiff, e0, e1, e2, eo]
  simp only [Finset.mem_univ, true_and]
  omega
/-- And back: the four column blocks make the scratch. -/
theorem cols_union (c : Dev nD) :
    (sBlk c 0).view.set ∪ ((sBlk c 1).view.set ∪ ((sBlk c 2).view.set ∪ (sOwn c).view.set)) = Finset.univ := by
  ext i
  have hc : c.val < 4 := c.isLt
  have hi1 : (i 1).val < 2048 := (i 1).isLt
  have e0 := mem_cols c 0 i
  have e1 := mem_cols c 1 i
  have e2 := mem_cols c 2 i
  have eo := mem_own c i
  rw [pe0_val] at e0
  rw [pe1_val] at e1
  rw [pe2_val] at e2
  rw [Finset.mem_union, Finset.mem_union, Finset.mem_union, e0, e1, e2, eo]
  simp only [Finset.mem_univ, iff_true]
  omega

theorem rows_disjoint (s s' : Dev nD) (h : s ≠ s') : Disjoint (oBlk s).view.set (oBlk s').view.set := by
  have hne : s.val ≠ s'.val := fun e => h (Fin.ext e)
  refine Finset.disjoint_left.mpr fun i hi hi' => ?_
  have h1 := (mem_rows s i).mp hi
  have h2 := (mem_rows s' i).mp hi'
  omega
/-- The rows given to the three peers, in the order of the signals (0, 1, 2), and the own rows left. -/
theorem rows_sub1 (c : Dev nD) : (oBlk (pe c 1)).view.set ⊆ Finset.univ \ (oBlk (pe c 0)).view.set := by
  intro i hi
  have hc : c.val < 4 := c.isLt
  have h1 := (mem_rows (pe c 1) i).mp hi
  rw [pe1_val] at h1
  refine Finset.mem_sdiff.mpr ⟨Finset.mem_univ _, fun h => ?_⟩
  have h0 := (mem_rows (pe c 0) i).mp h
  rw [pe0_val] at h0
  omega
theorem rows_sub2 (c : Dev nD) : (oBlk (pe c 2)).view.set ⊆ (Finset.univ \ (oBlk (pe c 0)).view.set) \ (oBlk (pe c 1)).view.set := by
  intro i hi
  have hc : c.val < 4 := c.isLt
  have h2 := (mem_rows (pe c 2) i).mp hi
  rw [pe2_val] at h2
  refine Finset.mem_sdiff.mpr ⟨Finset.mem_sdiff.mpr ⟨Finset.mem_univ _, fun h => ?_⟩, fun h => ?_⟩
  · have h0 := (mem_rows (pe c 0) i).mp h
    rw [pe0_val] at h0
    omega
  · have h1 := (mem_rows (pe c 1) i).mp h
    rw [pe1_val] at h1
    omega
theorem rows_rest (c : Dev nD) : ((Finset.univ \ (oBlk (pe c 0)).view.set) \ (oBlk (pe c 1)).view.set) \ (oBlk (pe c 2)).view.set = (oBlk c).view.set := by
  ext i
  have hc : c.val < 4 := c.isLt
  have hi0 : (i 0).val < 2048 := (i 0).isLt
  have e0 := mem_rows (pe c 0) i
  have e1 := mem_rows (pe c 1) i
  have e2 := mem_rows (pe c 2) i
  have eo := mem_rows c i
  rw [pe0_val] at e0
  rw [pe1_val] at e1
  rw [pe2_val] at e2
  rw [Finset.mem_sdiff, Finset.mem_sdiff, Finset.mem_sdiff, e0, e1, e2, eo]
  simp only [Finset.mem_univ, true_and]
  omega
/-- And back: the three senders' rows and the own rows make the result array. -/
theorem rows_union (c : Dev nD) :
    (oBlk (sr c 0)).view.set ∪ ((oBlk (sr c 1)).view.set ∪ ((oBlk (sr c 2)).view.set ∪ (oBlk c).view.set)) = Finset.univ := by
  ext i
  have hc : c.val < 4 := c.isLt
  have hi0 : (i 0).val < 2048 := (i 0).isLt
  have e0 := mem_rows (sr c 0) i
  have e1 := mem_rows (sr c 1) i
  have e2 := mem_rows (sr c 2) i
  have eo := mem_rows c i
  rw [sr0_val] at e0
  rw [sr1_val] at e1
  rw [sr2_val] at e2
  rw [Finset.mem_union, Finset.mem_union, Finset.mem_union, e0, e1, e2, eo]
  simp only [Finset.mem_univ, iff_true]
  omega

/-! ## The values -/

/-- The stored payload, entry by entry: the change of format of the entry read. -/
private theorem pay1_apply (v : Vec F S512x512 .f32) (y : S512x512.Idx) : k0_pay1 v y = tr (v y) := by
  unfold k0_pay1
  simp only [shapeCast_self]
  rfl

/-- The cast scratch at equal devices and equal indices. -/
private theorem scrV_congr {c c' : Dev nD} (hc : c = c') (j j' : S512x2048.Idx) (hj : j = j') : scrV m c j = scrV m c' j' := by
  subst hc hj; rfl

/-- Where the blocks' own indices sit in their buffers, coordinate by coordinate. -/
private theorem oBlk_emb_0 (s : Dev nD) (y : S512x512.Idx) : (((oBlk s).view.emb y : S2048x512.Idx) 0).val = 512 * s.val + (y 0).val := by
  show k0_off2 s 0 + 1 * (y 0).val = _
  rw [off2_0]; omega
private theorem oBlk_emb_1 (s : Dev nD) (y : S512x512.Idx) : (((oBlk s).view.emb y : S2048x512.Idx) 1).val = (y 1).val := by
  show k0_off2 s 1 + 1 * (y 1).val = _
  rw [off2_1]; omega
private theorem sBlk_emb_0 (c : Dev nD) (r : Fin 3) (y : S512x512.Idx) : (((sBlk c r).view.emb y : S512x2048.Idx) 0).val = (y 0).val := by
  show k0_off3 c (BitVec.ofNat 32 (1 + r.val)) 0 + 1 * (y 0).val = _
  rw [off3_0]; omega
private theorem sBlk_emb_1 (c : Dev nD) (r : Fin 3) (y : S512x512.Idx) :
    (((sBlk c r).view.emb y : S512x2048.Idx) 1).val = 512 * (pe c r).val + (y 1).val := by
  show k0_off3 c (BitVec.ofNat 32 (1 + r.val)) 1 + 1 * (y 1).val = _
  rw [off3_1]; omega
private theorem sOwn_emb_0 (c : Dev nD) (y : S512x512.Idx) : (((sOwn c).view.emb y : S512x2048.Idx) 0).val = (y 0).val := by
  show k0_off5 c 0 + 1 * (y 0).val = _
  rw [off5_0]; omega
private theorem sOwn_emb_1 (c : Dev nD) (y : S512x512.Idx) : (((sOwn c).view.emb y : S512x2048.Idx) 1).val = 512 * c.val + (y 1).val := by
  show k0_off5 c 1 + 1 * (y 1).val = _
  rw [off5_1]; omega

/-- Device `t`'s final result at entry `y` of its rows `c`: device `c`'s cast block at row `y 0`, column `512 t + y 1`. -/
private theorem outV_emb (t c : Dev nD) (y : S512x512.Idx) (j : S512x2048.Idx) (h0 : (j 0).val = (y 0).val)
    (h1 : (j 1).val = 512 * t.val + (y 1).val) : outV m t ((oBlk c).view.emb y) = scrV m c j := by
  have hy0 : (y 0).val < 512 := (y 0).isLt
  unfold outV
  refine scrV_congr m ?_ _ _ ?_
  · apply Fin.ext
    show (((oBlk c).view.emb y : S2048x512.Idx) 0).val / 512 = c.val
    rw [oBlk_emb_0]; omega
  · apply Shape.idx_ext₂
    · show (((oBlk c).view.emb y : S2048x512.Idx) 0).val % 512 = (j 0).val
      rw [oBlk_emb_0, h0]; omega
    · show 512 * t.val + (((oBlk c).view.emb y : S2048x512.Idx) 1).val = (j 1).val
      rw [oBlk_emb_1, h1]

/-- A store of the cast of `x`'s column block `r` through that block's rectangle leaves the block at `scrV`, over any
    earlier contents. -/
theorem store_cols (c : Dev nD) (r : Fin 3) (f : Buf (Elt F) ((c : Thread nD τ).loc cc0_scratch0)) :
    ∀ i ∈ (sBlk c r).view.set,
      (((sM : Memref sig .tc .vmem S512x2048 .bf16).access (Rect.unit (s := S512x2048) (k0_off1 c (BitVec.ofNat 32 (1 + r.val))) S512x512.size (k0_off1_inb c r))).write (Elt F) f
        (k0_pay1 ((xM : Memref sig .tc .vmem S512x2048 .f32).view.readAt (Elt F) ((Rect.unit (s := S512x2048) (k0_off1 c (BitVec.ofNat 32 (1 + r.val))) S512x512.size (k0_off1_inb c r))).toLoadRect (xstg m c))) Finset.univ) i = scrV m c i := by
  intro i hi
  rw [← store_set, View.setOn_univ] at hi
  obtain ⟨y, rfl⟩ := View.exists_emb_of_mem_set _ hi
  refine (View.write_emb_of_mem _ _ (Finset.mem_univ y)).trans ?_
  rw [pay1_apply]
  rfl
theorem store_own (c : Dev nD) (f : Buf (Elt F) ((c : Thread nD τ).loc cc0_scratch0)) :
    ∀ i ∈ (sOwn c).view.set,
      (((sM : Memref sig .tc .vmem S512x2048 .bf16).access (Rect.unit (s := S512x2048) (k0_off4 c) S512x512.size (k0_off4_inb c))).write (Elt F) f
        (k0_pay1 ((xM : Memref sig .tc .vmem S512x2048 .f32).view.readAt (Elt F) ((Rect.unit (s := S512x2048) (k0_off4 c) S512x512.size (k0_off4_inb c))).toLoadRect (xstg m c))) Finset.univ) i = scrV m c i := by
  intro i hi
  rw [← store_own_set, View.setOn_univ] at hi
  obtain ⟨y, rfl⟩ := View.exists_emb_of_mem_set _ hi
  refine (View.write_emb_of_mem _ _ (Finset.mem_univ y)).trans ?_
  rw [pay1_apply]
  rfl

/-- Transfer `r` of device `c`, its source column block at `scrV`, leaves rows `c` of the peer's result at the peer's `outV`. -/
theorem land_rows (c : Dev nD) (r : Fin 3) (fd : Buf (Elt F) ((oBlk c).view.loc (pe c r : Thread nD τ)))
    (fs : Buf (Elt F) ((sBlk c r).view.loc (c : Thread nD τ))) (hfs : ∀ j ∈ (sBlk c r).view.set, fs j = scrV m c j) :
    ∀ i ∈ (oBlk c).view.set, ((oBlk c).view.write (Elt F) fd ((sBlk c r).view.read (Elt F) fs) Finset.univ) i = outV m (pe c r) i := by
  intro i hi
  obtain ⟨y, rfl⟩ := View.exists_emb_of_mem_set _ hi
  refine (View.write_emb_of_mem _ _ (Finset.mem_univ y)).trans ?_
  rw [View.read_apply, hfs _ (View.emb_mem_set _ y)]
  exact (outV_emb m (pe c r) c y _ (sBlk_emb_0 c r y) (sBlk_emb_1 c r y)).symm
/-- The local copy leaves the own rows at the device's own `outV`. -/
theorem land_own (c : Dev nD) (fd : Buf (Elt F) ((oBlk c).view.loc (c : Thread nD τ)))
    (fs : Buf (Elt F) ((sOwn c).view.loc (c : Thread nD τ))) (hfs : ∀ j ∈ (sOwn c).view.set, fs j = scrV m c j) :
    ∀ i ∈ (oBlk c).view.set, ((oBlk c).view.write (Elt F) fd ((sOwn c).view.read (Elt F) fs) Finset.univ) i = outV m c i := by
  intro i hi
  obtain ⟨y, rfl⟩ := View.exists_emb_of_mem_set _ hi
  refine (View.write_emb_of_mem _ _ (Finset.mem_univ y)).trans ?_
  rw [View.read_apply, hfs _ (View.emb_mem_set _ y)]
  exact (outV_emb m c c y _ (sOwn_emb_0 c y) (sOwn_emb_1 c y)).symm

end Cert.Kernel.A2A

end
-- ==== Proof.Kernel.Pieces.lean ====
/-
  The two buffers cut into their blocks and put together again, as assertions: the result array whole is its four
  row blocks held apart, the scratch whole its four column blocks; taken in the order the program lends them out.
-/
import proofs.«900008_g7700000000000009_dist_a2a_v7x_i4_i_m512_n512_bf16_1_alg».proof.Proof.Kernel.Landing

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The scratch less the source of transfer 1; less the sources of transfers 1 and 0. -/
abbrev rest1Pts (c : Dev nD) (f : Buf (Elt F) ((c : Thread nD τ).loc cc0_scratch0)) : sProp 𝕄 :=
  ((c : Thread nD τ).loc cc0_scratch0) ↦[Finset.univ \ (sBlk c 1).view.set]{fullShare} f
abbrev rest0Pts (c : Dev nD) (f : Buf (Elt F) ((c : Thread nD τ).loc cc0_scratch0)) : sProp 𝕄 :=
  ((c : Thread nD τ).loc cc0_scratch0) ↦[(Finset.univ \ (sBlk c 1).view.set) \ (sBlk c 0).view.set]{fullShare} f

/-! ## Four pieces of one buffer, for any location and any four index sets -/

omit [FloatOps F] in
/-- A buffer held whole is its pieces `A`, `B`, `C` taken out one after the other and the rest `D`. -/
private theorem split4 {ℓ : Loc nD τ sig} {A B C D : Finset (Idx ℓ)} (f : Buf (Elt F) ℓ)
    (hB : B ⊆ Finset.univ \ A) (hC : C ⊆ (Finset.univ \ A) \ B) (hD : ((Finset.univ \ A) \ B) \ C = D) :
    ((ℓ ↦{fullShare} f) : sProp 𝕄)
      ⊢ iprop((ℓ ↦[A]{fullShare} f) ∗ (ℓ ↦[B]{fullShare} f) ∗ (ℓ ↦[C]{fullShare} f) ∗ ℓ ↦[D]{fullShare} f) := by
  subst hD
  refine (pointsTo_split_subset (Finset.subset_univ A)).1.trans (BI.sep_mono (BI.Entails.refl _) ?_)
  refine (pointsTo_split_subset hB).1.trans (BI.sep_mono (BI.Entails.refl _) ?_)
  exact (pointsTo_split_subset hC).1

omit [FloatOps F] in
/-- Four pairwise disjoint pieces that cover the buffer, held at one contents, are the buffer whole. -/
private theorem join4 {ℓ : Loc nD τ sig} {A B C D : Finset (Idx ℓ)} (f : Buf (Elt F) ℓ)
    (dAB : Disjoint A B) (dAC : Disjoint A C) (dAD : Disjoint A D) (dBC : Disjoint B C) (dBD : Disjoint B D)
    (dCD : Disjoint C D) (hU : A ∪ (B ∪ (C ∪ D)) = Finset.univ) :
    iprop((ℓ ↦[A]{fullShare} f) ∗ (ℓ ↦[B]{fullShare} f) ∗ (ℓ ↦[C]{fullShare} f) ∗ ℓ ↦[D]{fullShare} f)
      ⊢ ((ℓ ↦{fullShare} f) : sProp 𝕄) := by
  have d1 : Disjoint B (C ∪ D) := Finset.disjoint_union_right.mpr ⟨dBC, dBD⟩
  have d0 : Disjoint A (B ∪ (C ∪ D)) := Finset.disjoint_union_right.mpr ⟨dAB, Finset.disjoint_union_right.mpr ⟨dAC, dAD⟩⟩
  refine (BI.sep_mono (BI.Entails.refl _) (BI.sep_mono (BI.Entails.refl _) (pointsTo_union dCD).2)).trans ?_
  refine (BI.sep_mono (BI.Entails.refl _) (pointsTo_union d1).2).trans ?_
  refine (pointsTo_union d0).2.trans ?_
  rw [hU]

theorem rows_congr (c s : Dev nD) (f g : Buf (Elt F) ((oBlk s).view.loc (c : Thread nD τ))) (h : ∀ i ∈ (oBlk s).view.set, f i = g i) :
    rowsPts c s f = rowsPts c s g := by
  unfold rowsPts; exact pointsTo_congr h
theorem cols_congr (c : Dev nD) (r : Fin 3) (f g : Buf (Elt F) ((sBlk c r).view.loc (c : Thread nD τ))) (h : ∀ i ∈ (sBlk c r).view.set, f i = g i) :
    colsPts c r f = colsPts c r g := by
  unfold colsPts; exact pointsTo_congr h
theorem own_congr (c : Dev nD) (f g : Buf (Elt F) ((sOwn c).view.loc (c : Thread nD τ))) (h : ∀ i ∈ (sOwn c).view.set, f i = g i) :
    ownPts c f = ownPts c g := by
  unfold ownPts; exact pointsTo_congr h

/-- The result array whole is the rows of the three peers (in the order of the signals) and the own rows. -/
theorem split_rows (c : Dev nD) (f : Buf (Elt F) ((c : Thread nD τ).loc main_v1)) :
    ((((c : Thread nD τ).loc main_v1) ↦{fullShare} f) : sProp 𝕄)
      ⊢ iprop(rowsPts c (pe c 0) f ∗ rowsPts c (pe c 1) f ∗ rowsPts c (pe c 2) f ∗ rowsPts c c f) :=
  split4 (ℓ := (c : Thread nD τ).loc main_v1) f (rows_sub1 c) (rows_sub2 c) (rows_rest c)
/-- The rows of the three senders and the own rows, at one contents, are the result array whole. -/
theorem join_rows (c : Dev nD) (f : Buf (Elt F) ((c : Thread nD τ).loc main_v1)) :
    iprop(rowsPts c (sr c 0) f ∗ rowsPts c (sr c 1) f ∗ rowsPts c (sr c 2) f ∗ rowsPts c c f)
      ⊢ ((((c : Thread nD τ).loc main_v1) ↦{fullShare} f) : sProp 𝕄) :=
  join4 (ℓ := (c : Thread nD τ).loc main_v1) f
    (rows_disjoint _ _ fun h => absurd (sr_inj c 0 1 h) (by decide))
    (rows_disjoint _ _ fun h => absurd (sr_inj c 0 2 h) (by decide))
    (rows_disjoint _ _ (sr_ne_self c 0))
    (rows_disjoint _ _ fun h => absurd (sr_inj c 1 2 h) (by decide))
    (rows_disjoint _ _ (sr_ne_self c 1))
    (rows_disjoint _ _ (sr_ne_self c 2))
    (rows_union c)

/-- The scratch lends the sources of the transfers in the order 1, 0, 2; what is left is the local copy's source. -/
theorem split_cols1 (c : Dev nD) (f : Buf (Elt F) ((c : Thread nD τ).loc cc0_scratch0)) :
    ((((c : Thread nD τ).loc cc0_scratch0) ↦{fullShare} f) : sProp 𝕄) ⊢ iprop(colsPts c 1 f ∗ rest1Pts c f) :=
  (pointsTo_split_subset (ℓ := (c : Thread nD τ).loc cc0_scratch0) (Finset.subset_univ (sBlk c 1).view.set)).1
theorem split_cols0 (c : Dev nD) (f : Buf (Elt F) ((c : Thread nD τ).loc cc0_scratch0)) :
    rest1Pts c f ⊢ iprop(colsPts c 0 f ∗ rest0Pts c f) :=
  (pointsTo_split_subset (ℓ := (c : Thread nD τ).loc cc0_scratch0) (cols_sub0 c)).1
theorem split_cols2 (c : Dev nD) (f : Buf (Elt F) ((c : Thread nD τ).loc cc0_scratch0)) :
    rest0Pts c f ⊢ iprop(colsPts c 2 f ∗ ownPts c f) := by
  refine (pointsTo_split_subset (ℓ := (c : Thread nD τ).loc cc0_scratch0) (cols_sub2 c)).1.trans ?_
  rw [cols_rest c]
  exact BI.Entails.refl _
/-- The four column blocks at one contents are the scratch whole. -/
theorem join_cols (c : Dev nD) (f : Buf (Elt F) ((c : Thread nD τ).loc cc0_scratch0)) :
    iprop(colsPts c 0 f ∗ colsPts c 1 f ∗ colsPts c 2 f ∗ ownPts c f)
      ⊢ ((((c : Thread nD τ).loc cc0_scratch0) ↦{fullShare} f) : sProp 𝕄) :=
  join4 (ℓ := (c : Thread nD τ).loc cc0_scratch0) f
    (cols_disjoint c 0 1 (by decide)) (cols_disjoint c 0 2 (by decide)) (cols_own_disjoint c 0)
    (cols_disjoint c 1 2 (by decide)) (cols_own_disjoint c 1) (cols_own_disjoint c 2)
    (cols_union c)

end Cert.Kernel.A2A

end
-- ==== Proof.Kernel.Finish.lean ====
/-
  The end of one device's body: every wait taken, the seven own cells sit past their one round and are closed (their
  counters at zero are the device's again), the four row blocks of the result array, all at the final contents, are the
  array whole, the four column blocks of the scratch the scratch whole.
-/
import proofs.«900008_g7700000000000009_dist_a2a_v7x_i4_i_m512_n512_bf16_1_alg».proof.Proof.Kernel.Tables
import proofs.«900008_g7700000000000009_dist_a2a_v7x_i4_i_m512_n512_bf16_1_alg».proof.Proof.Kernel.Pieces

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_finish (K : Dev nD × Fin 8 → ℕ) (c : Dev nD) (W : Waits sig Unit) :
    iprop(invs m K c
      ∗ (atPos ER (sendCell c 0) (0 + 1) ∅ 0 ∗ atPos ER (sendCell c 1) (0 + 1) ∅ 0 ∗ atPos ER (sendCell c 2) (0 + 1) ∅ 0
        ∗ atPos ER (recvCell c 0) (0 + 1) ∅ 0 ∗ atPos ER (recvCell c 1) (0 + 1) ∅ 0 ∗ atPos ER (recvCell c 2) (0 + 1) ∅ 0
        ∗ atPos ER (locCell c) (0 + 1) ∅ 0)
      ∗ (recvPay m c 0 ∗ recvPay m c 1 ∗ recvPay m c 2 ∗ locPay m c ∗ sendPay m c 0 ∗ sendPay m c 1 ∗ sendPay m c 2)
      ∗ owes (c : Thread nD τ) 0 W
      ∗ (((c : Thread nD τ).loc cc0_stg0_0) ↦{fullShare} xstg m c))
    ⊢ iprop(|={Set.univ}=> bodyPost m c) := by
  unfold invs recvPay locPay sendPay
  have hI : bigSep Finset.univ (fun k : Fin 8 => cellInv ER (a2aRd m) (K (c, k)) (kcell (c, k)))
      = iprop(cellInv ER (a2aRd m) (K (c, 0)) (barCell c)
        ∗ cellInv ER (a2aRd m) (K (c, 1)) (sendCell c 0) ∗ cellInv ER (a2aRd m) (K (c, 2)) (sendCell c 1)
        ∗ cellInv ER (a2aRd m) (K (c, 3)) (sendCell c 2)
        ∗ cellInv ER (a2aRd m) (K (c, 4)) (recvCell c 0) ∗ cellInv ER (a2aRd m) (K (c, 5)) (recvCell c 1)
        ∗ cellInv ER (a2aRd m) (K (c, 6)) (recvCell c 2)
        ∗ cellInv ER (a2aRd m) (K (c, 7)) (locCell c)) :=
    bigSep_univ_eq_bigSepL [0, 1, 2, 3, 4, 5, 6, 7] (by decide) (by decide) _
  rw [hI]
  iintro ⟨⟨⟨-, HI1, HI2, HI3, HI4, HI5, HI6, HI7⟩, -, -⟩, ⟨HaS0, HaS1, HaS2, HaR0, HaR1, HaR2, HaL⟩,
    ⟨HR0, HR1, HR2, ⟨HLr, HLo⟩, HS0, HS1, HS2⟩, HO, Hx⟩
  -- the seven own cells, past their one round, close: their counters at zero are the device's again
  imod (Rounds.cell_close ER (a2aRd m) (Set.mem_univ (K (c, 1))) (fun h => h) (R := 0 + 1) (duties_later m (sendCell c 0))) $$ [HI1 HaS0] with Hz0
  · isplitl [HI1]; · iexact HI1
    iexact HaS0
  imod (Rounds.cell_close ER (a2aRd m) (Set.mem_univ (K (c, 2))) (fun h => h) (R := 0 + 1) (duties_later m (sendCell c 1))) $$ [HI2 HaS1] with Hz1
  · isplitl [HI2]; · iexact HI2
    iexact HaS1
  imod (Rounds.cell_close ER (a2aRd m) (Set.mem_univ (K (c, 3))) (fun h => h) (R := 0 + 1) (duties_later m (sendCell c 2))) $$ [HI3 HaS2] with Hz2
  · isplitl [HI3]; · iexact HI3
    iexact HaS2
  imod (Rounds.cell_close ER (a2aRd m) (Set.mem_univ (K (c, 4))) (fun h => h) (R := 0 + 1) (duties_later m (recvCell c 0))) $$ [HI4 HaR0] with Hz3
  · isplitl [HI4]; · iexact HI4
    iexact HaR0
  imod (Rounds.cell_close ER (a2aRd m) (Set.mem_univ (K (c, 5))) (fun h => h) (R := 0 + 1) (duties_later m (recvCell c 1))) $$ [HI5 HaR1] with Hz4
  · isplitl [HI5]; · iexact HI5
    iexact HaR1
  imod (Rounds.cell_close ER (a2aRd m) (Set.mem_univ (K (c, 6))) (fun h => h) (R := 0 + 1) (duties_later m (recvCell c 2))) $$ [HI6 HaR2] with Hz5
  · isplitl [HI6]; · iexact HI6
    iexact HaR2
  imod (Rounds.cell_close ER (a2aRd m) (Set.mem_univ (K (c, 7))) (fun h => h) (R := 0 + 1) (duties_later m (locCell c))) $$ [HI7 HaL] with Hz6
  · isplitl [HI7]; · iexact HI7
    iexact HaL
  -- the four row blocks at the final contents are the result array whole, the four column blocks the scratch whole
  ihave Hout := (join_rows c (outV m c)) $$ [HR0 HR1 HR2 HLr]
  · isplitl [HR0]; · iexact HR0
    isplitl [HR1]; · iexact HR1
    isplitl [HR2]; · iexact HR2
    iexact HLr
  ihave Hscr := (join_cols c (scrV m c)) $$ [HS0 HS1 HS2 HLo]
  · isplitl [HS0]; · iexact HS0
    isplitl [HS1]; · iexact HS1
    isplitl [HS2]; · iexact HS2
    iexact HLo
  imodintro
  unfold bodyPost Φ₁ Dat.owesAt Pipeline.owesWithin
  have hZ : bigSep Finset.univ (fun k : Fin 7 => (semVal ((c : Thread nD τ), osem k) 0 : sProp 𝕄))
      = iprop(semVal ((c : Thread nD τ), osem 0) 0 ∗ semVal ((c : Thread nD τ), osem 1) 0
        ∗ semVal ((c : Thread nD τ), osem 2) 0 ∗ semVal ((c : Thread nD τ), osem 3) 0
        ∗ semVal ((c : Thread nD τ), osem 4) 0 ∗ semVal ((c : Thread nD τ), osem 5) 0
        ∗ semVal ((c : Thread nD τ), osem 6) 0) :=
    bigSep_univ_eq_bigSepL [0, 1, 2, 3, 4, 5, 6] (by decide) (by decide)
      (fun k : Fin 7 => (semVal ((c : Thread nD τ), osem k) 0 : sProp 𝕄))
  rw [show (dats m 0 c).owed t₀.succ = 0 from rfl, hZ]
  isplitl [Hout Hscr Hz0 Hz1 Hz2 Hz3 Hz4 Hz5 Hz6]
  · isplitl [Hout]; · iexact Hout
    isplitl [Hscr]; · iexists _; iexact Hscr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists W
    isplitr; · ipureintro; exact fun _ _ => Or.inl trivial
    iexact HO
  iexists _
  isplitr; · (ipureintro; rfl)
  iexact Hx

/-- info: 'Cert.Kernel.A2A.body_finish' depends on axioms: [propext, Classical.choice, Quot.sound] -/
#guard_msgs in #print axioms body_finish

end Cert.Kernel.A2A

end
-- ==== Proof.Kernel.Body.lean ====
/-
  One device's body, stepped once at a symbolic device `c`: the cast of the column block two places on into the scratch;
  the result array cut into its four row blocks, three handed to the peers with the three signals; the wait for the
  three peers' signals, which brings each peer's rows `c`; three times a transfer of a cast column block into a peer's
  rows `c`, the next column block cast meanwhile into the part of the scratch no pending transfer reads; the local copy;
  the seven waits, which bring back the four row blocks at their final contents and the four column blocks.
-/
import proofs.«900008_g7700000000000009_dist_a2a_v7x_i4_i_m512_n512_bf16_1_alg».proof.Proof.Kernel.Tables
import proofs.«900008_g7700000000000009_dist_a2a_v7x_i4_i_m512_n512_bf16_1_alg».proof.Proof.Kernel.Landing
import proofs.«900008_g7700000000000009_dist_a2a_v7x_i4_i_m512_n512_bf16_1_alg».proof.Proof.Kernel.Pieces
import proofs.«900008_g7700000000000009_dist_a2a_v7x_i4_i_m512_n512_bf16_1_alg».proof.Proof.Kernel.Finish

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fetch_0 (t : Fin cfg0.N) : (cfg0.win (0 : Fin 1)).fetch t = true := by rw [fin_N t]; rfl

theorem neg_0 : neg 0 = 2 := by decide
theorem neg_1 : neg 1 = 1 := by decide
theorem neg_2 : neg 2 = 0 := by decide
theorem sr_0 (c : Dev nD) : sr c 0 = pe c 2 := by revert c; decide
theorem sr_1 (c : Dev nD) : sr c 1 = pe c 1 := by revert c; decide
theorem sr_2 (c : Dev nD) : sr c 2 = pe c 0 := by revert c; decide

/-- The rectangle of column block `pe c r` of the scratch (and of the staged `x`), and of the own column block. -/
abbrev R1 (c : Dev nD) (r : Fin 3) : Rect S512x2048 := Rect.unit (s := S512x2048) (k0_off1 c (BitVec.ofNat 32 (1 + r.val))) S512x512.size (k0_off1_inb c r)
abbrev R4 (c : Dev nD) : Rect S512x2048 := Rect.unit (s := S512x2048) (k0_off4 c) S512x512.size (k0_off4_inb c)

section Body

variable (K : Dev nD × Fin 8 → ℕ)

/-- Transfer `r` of device `c`, addressed to `n = pe c r` (substituted, not rewritten): the source column block, at `scrV`
    there, goes out and comes back with the send cell; the peer's rows `c` land at the peer's `outV`. -/
theorem wp_send_a2a (c n : Dev nD) (r : Fin 3) (hn : n = pe c r)
    {hsc : (oBlk c : Memref sig (Dev.tc n : Thread nD τ).2.kind .hbm S512x512 .bf16).view.ref.isScScratch = false}
    {hsrc : (sBlk c r : Memref sig .tc .vmem S512x512 .bf16).view.WordExact} {hdst : (oBlk c : Memref sig .tc .hbm S512x512 .bf16).view.WordExact}
    {hsem : DmaTarget.Typed .vmem (.dma (recvA r).sem) (.remote (Dev.tc n : Thread nD τ) (oBlk c : Memref sig .tc .hbm S512x512 .bf16) (.dma (sendA r).sem) hsc)}
    {α : Type} {Q : α → sProp 𝕄} {k : PUnit → Prog (TpuEff nD τ sig (Elt F) Λ₀ .tc) α}
    (fs : Buf (Elt F) ((sBlk c r).view.loc (c : Thread nD τ))) (hfs : ∀ j ∈ (sBlk c r).view.set, fs j = scrV m c j)
    (fd : Buf (Elt F) ((oBlk c).view.loc (pe c r : Thread nD τ))) (O : CellTallies nD τ sig Unit) (W : Waits sig Unit) :
    iprop(cellInv ER (a2aRd m) (K (c, iS r)) (sendCell c r) ∗ cellInv ER (a2aRd m) (K (pe c r, iR r)) (recvCell (pe c r) r)
        ∗ colsPts c r fs ∗ rowsPts (pe c r) c fd
        ∗ owes (c : Thread nD τ) (O + TR c r) W
        ∗ dutyTok ER (sendCell c r) 0 (0 : Fin 3) ∗ reached ER (sendCell c r) 0
        ∗ dutyTok ER (recvCell (pe c r) r) 0 (0 : Fin 3) ∗ reached ER (recvCell (pe c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sBlk c r) (.remote (Dev.tc n : Thread nD τ) (oBlk c) (.dma (sendA r).sem) hsc) (.dma (recvA r).sem) hsrc hdst hsem) k) Q) := by
  subst hn
  unfold colsPts rowsPts TR
  exact Rounds.wp_send_pointsTo 𝒱₀ ER (a2aRd m) (c : Thread nD τ) none (κ₁ := K (c, iS r)) (κ₂ := K (pe c r, iR r))
    (r₁ := 0) (r₂ := 0) (d₁ := (0 : Fin 3)) (d₂ := (0 : Fin 3)) (fd := fd)
    (by rw [duties_send]; exact Finset.mem_singleton_self _) (by rw [duties_recv]; exact Finset.mem_singleton_self _)
    () () N rfl (amount_send m c r 0) (amount_recv m (pe c r) r 0) O rfl (W := W)
    (by rw [payload_send]; exact Entails.of_eq (cols_congr c r _ _ hfs))
    (by rw [payload_recv]; unfold recvPay; rw [sr_pe]; exact Entails.of_eq (rows_congr (pe c r) c _ _ (land_rows m c r fd fs hfs)))

/-- The local copy: the own column block, at `scrV` there, lands in the own rows at the device's `outV`; both come back with
    the local cell. -/
theorem wp_copy_a2a (c : Dev nD)
    {hsrc : (sOwn c : Memref sig .tc .vmem S512x512 .bf16).view.WordExact} {hdst : (oBlk c : Memref sig .tc .hbm S512x512 .bf16).view.WordExact}
    {hsem : DmaTarget.Typed (nD := nD) .vmem (.dma locA.sem) (DmaTarget.here (p := (c : Thread nD τ).2) (oBlk c))}
    {α : Type} {Q : α → sProp 𝕄} {k : PUnit → Prog (TpuEff nD τ sig (Elt F) Λ₀ .tc) α}
    (fs : Buf (Elt F) ((sOwn c).view.loc (c : Thread nD τ))) (hfs : ∀ j ∈ (sOwn c).view.set, fs j = scrV m c j)
    (fd : Buf (Elt F) ((oBlk c).view.loc (c : Thread nD τ))) :
    iprop(cellInv ER (a2aRd m) (K (c, 7)) (locCell c)
        ∗ ((sOwn c).view.loc (c : Thread nD τ) ↦[(sOwn c).view.set]{fullShare} fs) ∗ ((oBlk c).view.loc (c : Thread nD τ) ↦[(oBlk c).view.set]{fullShare} fd)
        ∗ dutyTok ER (locCell c) 0 (0 : Fin 3) ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sOwn c) (DmaTarget.here (p := (c : Thread nD τ).2) (oBlk c)) (.dma locA.sem) hsrc hdst hsem) k) Q) := by
  exact Rounds.wp_copy_pointsTo 𝒱₀ ER (a2aRd m) (c : Thread nD τ) none (κ := K (c, 7)) (r := 0) (d := (0 : Fin 3)) (fd := fd)
    (by rw [duties_loc]; exact Finset.mem_singleton_self _) () N rfl (amount_loc m c 0)
    (by rw [payload_loc]; unfold locPay
        exact BI.sep_mono (Entails.of_eq (rows_congr c c _ _ (land_own m c fd fs hfs))) (Entails.of_eq (own_congr c _ _ hfs)))

set_option maxHeartbeats 3200000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost invs marks payToks creds
  simp only [bigSep_fin3, bigSep_fin8]
  iintro ⟨⟨⟨⟨⟨⟨#I0, #I1, #I2, #I3, #I4, #I5, #I6, #I7⟩, ⟨#Ib0, #Ib1, #Ib2⟩, #Ir0, #Ir1, #Ir2⟩,
      ⟨⟨#M0, #M1, #M2, #M3, #M4, #M5, #M6, #M7⟩, ⟨#Mb0, #Mb1, #Mb2⟩, #Mr0, #Mr1, #Mr2⟩,
      ⟨A0, A1, A2, A3, A4, A5, A6, A7⟩, ⟨Tb0, Tb1, Tb2⟩, ⟨Tr0, Tr1, Tr2⟩, ⟨Ts0, Ts1, Ts2⟩, Tl⟩,
      ⟨Cb, Cr0, Cr1, Cr2⟩, #Hlev, Hout, ⟨%f0, Hscr⟩⟩, Ho, ⟨%d0, %g0, %hg0, Hx⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the column block two places on, cast into the scratch
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hscr; iintro Hscr
  iapply (wp_store 𝒱₀ (c : Thread nD τ) none Set.univ (m := sM) (r := R1 c 1) (Mk := Finset.univ) (Finset.subset_univ _)) $$ Hscr; iintro Hscr
  -- the result array cut into its row blocks: three go to the peers with the signals
  ihave Hr := (split_rows c _) $$ Hout
  icases Hr with ⟨Ro0, Ro1, Ro2, Rown⟩
  simp only [dev1_eq c, dev2_eq c, dev3_eq c]
  iapply (Rounds.wp_signal 𝒱₀ ER (a2aRd m) (c : Thread nD τ) none (dst := (pe c 0 : Thread nD τ)) (κ := K (pe c 0, 0))
      (d := (0 : Fin 3)) (by rw [duties_bar]; exact Finset.mem_univ _) ((amount_bar m (pe c 0) 0).trans (by decide)) () (O₁ c) rfl)
    $$ [HO Tb0 Ro0]
  · isplitr; · iexact Ib0
    isplitl [HO]; · iexact HO
    isplitl [Tb0]; · iexact Tb0
    isplitl [Ro0]
    · rw [payload_bar]; unfold barPay; rw [sr_pe, neg_0]
      isplitl [Ro0]; · iexists _; iexact Ro0
      iexact M6
    · iexact Mb0
  iintro HO
  iapply (Rounds.wp_signal 𝒱₀ ER (a2aRd m) (c : Thread nD τ) none (dst := (pe c 1 : Thread nD τ)) (κ := K (pe c 1, 0))
      (d := (1 : Fin 3)) (by rw [duties_bar]; exact Finset.mem_univ _) ((amount_bar m (pe c 1) 1).trans (by decide)) () (O₂ c) rfl)
    $$ [HO Tb1 Ro1]
  · isplitr; · iexact Ib1
    isplitl [HO]; · iexact HO
    isplitl [Tb1]; · iexact Tb1
    isplitl [Ro1]
    · rw [payload_bar]; unfold barPay; rw [sr_pe, neg_1]
      isplitl [Ro1]; · iexists _; iexact Ro1
      iexact M5
    · iexact Mb1
  iintro HO
  iapply (Rounds.wp_signal 𝒱₀ ER (a2aRd m) (c : Thread nD τ) none (dst := (pe c 2 : Thread nD τ)) (κ := K (pe c 2, 0))
      (d := (2 : Fin 3)) (by rw [duties_bar]; exact Finset.mem_univ _) ((amount_bar m (pe c 2) 2).trans (by decide)) () (O₃ c) rfl)
    $$ [HO Tb2 Ro2]
  · isplitr; · iexact Ib2
    isplitl [HO]; · iexact HO
    isplitl [Tb2]; · iexact Tb2
    isplitl [Ro2]
    · rw [payload_bar]; unfold barPay; rw [sr_pe, neg_2]
      isplitl [Ro2]; · iexists _; iexact Ro2
      iexact M4
    · iexact Mb2
  iintro HO
  -- the wait for the three peers' signals, owing the three transfers' credit: each peer's rows `c` come with it
  iapply (Rounds.wp_wait_rest_token 𝒱₀ ER (a2aRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [Cb HO A0]
  · isplitr; · iexact I0
    isplitl [Cb]; · iexact Cb
    isplitl [HO]; · iexact HO
    isplitr; · iapply (mayWait_bar c); iexact Hlev
    iexact A0
  iintro ⟨HO, A0, -, Hpay⟩
  ihave Hp := (Entails.of_eq (rest_bar m c)) $$ Hpay
  unfold barPay
  rw [sr_0, sr_1, sr_2]
  icases Hp with ⟨⟨⟨%fa, P2⟩, -⟩, ⟨⟨%fb, P1⟩, -⟩, ⟨⟨%fc, P0⟩, -⟩⟩
  -- transfer 1 (two places on): its source leaves the scratch
  ihave Hs := (split_cols1 c _) $$ Hscr
  icases Hs with ⟨Hc1, Hrest⟩
  unfold O₃
  iapply (wp_send_a2a m K c _ 1 (dev4_eq c) _ (store_cols m c 1 _) fb (TR c 2 + TR c 0) _) $$ [Hc1 P1 HO Ts1 Tr1]
  · isplitr; · iexact I2
    isplitr; · iexact Ir1
    isplitl [Hc1]; · iexact Hc1
    isplitl [P1]; · iexact P1
    isplitl [HO]; · iexact HO
    isplitl [Ts1]; · iexact Ts1
    isplitr; · iexact M2
    isplitl [Tr1]; · iexact Tr1
    iexact Mr1
  iintro ⟨Cs1, HO⟩
  -- the column block one place on, cast into what is left of the scratch
  iapply (wp_load 𝒱₀ (c : Thread nD τ) none Set.univ (m := xM) (Finset.subset_univ _)) $$ Hx; iintro Hx
  iapply (wp_load 𝒱₀ (c : Thread nD τ) none Set.univ (m := sM) (Finset.Subset.trans (Finset.subset_of_eq (load_set c 0)) (cols_sub0 c))) $$ Hrest; iintro Hrest
  iapply (wp_store 𝒱₀ (c : Thread nD τ) none Set.univ (m := sM) (r := R1 c 0) (Mk := Finset.univ) (Finset.Subset.trans (Finset.subset_of_eq (store_set c 0)) (cols_sub0 c))) $$ Hrest; iintro Hrest
  ihave Hs := (split_cols0 c _) $$ Hrest
  icases Hs with ⟨Hc0, Hrest⟩
  iapply (wp_send_a2a m K c _ 0 (dev5_eq c) _ (store_cols m c 0 _) fc (TR c 2) _) $$ [Hc0 P0 HO Ts0 Tr0]
  · isplitr; · iexact I1
    isplitr; · iexact Ir0
    isplitl [Hc0]; · iexact Hc0
    isplitl [P0]; · iexact P0
    isplitl [HO]; · iexact HO
    isplitl [Ts0]; · iexact Ts0
    isplitr; · iexact M1
    isplitl [Tr0]; · iexact Tr0
    iexact Mr0
  iintro ⟨Cs0, HO⟩
  -- the column block three places on
  iapply (wp_load 𝒱₀ (c : Thread nD τ) none Set.univ (m := xM) (Finset.subset_univ _)) $$ Hx; iintro Hx
  iapply (wp_load 𝒱₀ (c : Thread nD τ) none Set.univ (m := sM) (Finset.Subset.trans (Finset.subset_of_eq (load_set c 2)) (cols_sub2 c))) $$ Hrest; iintro Hrest
  iapply (wp_store 𝒱₀ (c : Thread nD τ) none Set.univ (m := sM) (r := R1 c 2) (Mk := Finset.univ) (Finset.Subset.trans (Finset.subset_of_eq (store_set c 2)) (cols_sub2 c))) $$ Hrest; iintro Hrest
  ihave Hs := (split_cols2 c _) $$ Hrest
  icases Hs with ⟨Hc2, Hown⟩
  ihave HO' := (Entails.of_eq (show (owes (c : Thread nD τ) (TR c 2) _ : sProp 𝕄) = owes (c : Thread nD τ) (0 + TR c 2) _ from by rw [zero_add])) $$ HO
  iapply (wp_send_a2a m K c _ 2 (dev6_eq c) _ (store_cols m c 2 _) fa (0) _) $$ [Hc2 P2 HO' Ts2 Tr2]
  · isplitr; · iexact I3
    isplitr; · iexact Ir2
    isplitl [Hc2]; · iexact Hc2
    isplitl [P2]; · iexact P2
    isplitl [HO']; · iexact HO'
    isplitl [Ts2]; · iexact Ts2
    isplitr; · iexact M3
    isplitl [Tr2]; · iexact Tr2
    iexact Mr2
  iintro ⟨Cs2, HO⟩
  -- the own column block, cast into what is left: the local copy's source
  unfold ownPts rowsPts
  iapply (wp_load 𝒱₀ (c : Thread nD τ) none Set.univ (m := xM) (Finset.subset_univ _)) $$ Hx; iintro Hx
  iapply (wp_load 𝒱₀ (c : Thread nD τ) none Set.univ (m := sM) (Finset.subset_of_eq (load_own_set c))) $$ Hown; iintro Hown
  iapply (wp_store 𝒱₀ (c : Thread nD τ) none Set.univ (m := sM) (r := R4 c) (Mk := Finset.univ) (Finset.subset_of_eq (store_own_set c))) $$ Hown; iintro Hown
  -- the local copy into the own rows
  iapply (wp_copy_a2a m K c _ (store_own m c _) _) $$ [Hown Rown Tl]
  · isplitr; · iexact I7
    isplitl [Hown]; · iexact Hown
    isplitl [Rown]; · iexact Rown
    isplitl [Tl]; · iexact Tl
    iexact M7
  iintro Cl
  -- the three receive waits: each sender's rows, landed
  iapply (Rounds.wp_wait_rest_token 𝒱₀ ER (a2aRd m) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m c 0).symm)) $$ [Cr0 HO A4]
  · isplitr; · iexact I4
    isplitl [Cr0]; · iexact Cr0
    isplitl [HO]; · iexact HO
    isplitr; · rw [MayWait_zero]; iempintro
    iexact A4
  iintro ⟨HO, A4, -, Hpay⟩
  ihave Rr0 := (Entails.of_eq (rest_recv m c 0)) $$ Hpay
  iapply (Rounds.wp_wait_rest_token 𝒱₀ ER (a2aRd m) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m c 1).symm)) $$ [Cr1 HO A5]
  · isplitr; · iexact I5
    isplitl [Cr1]; · iexact Cr1
    isplitl [HO]; · iexact HO
    isplitr; · rw [MayWait_zero]; iempintro
    iexact A5
  iintro ⟨HO, A5, -, Hpay⟩
  ihave Rr1 := (Entails.of_eq (rest_recv m c 1)) $$ Hpay
  iapply (Rounds.wp_wait_rest_token 𝒱₀ ER (a2aRd m) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m c 2).symm)) $$ [Cr2 HO A6]
  · isplitr; · iexact I6
    isplitl [Cr2]; · iexact Cr2
    isplitl [HO]; · iexact HO
    isplitr; · rw [MayWait_zero]; iempintro
    iexact A6
  iintro ⟨HO, A6, -, Hpay⟩
  ihave Rr2 := (Entails.of_eq (rest_recv m c 2)) $$ Hpay
  -- the local copy's wait: the own rows landed, the own columns back
  iapply (Rounds.wp_wait_rest_token 𝒱₀ ER (a2aRd m) (c : Thread nD τ) none (κ := K (c, 7))
      (wpE_waitDma2_eq 𝒱₀ (c : Thread nD τ) none Set.univ) (Set.mem_univ _) () (O := 0) (R := 0) (m := 0) (T := ∅)
      (by rw [Nat.zero_add]; exact (expect_loc m c).symm)) $$ [Cl HO A7]
  · isplitr; · iexact I7
    isplitl [Cl]; · iexact Cl
    isplitl [HO]; · iexact HO
    isplitr; · rw [MayWait_zero]; iempintro
    iexact A7
  iintro ⟨HO, A7, -, Hpay⟩
  ihave Rl := (Entails.of_eq (rest_loc m c)) $$ Hpay
  -- the three send waits: the sources back
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m c 1).symm)) $$ [Cs1 HO A2]
  · isplitr; · iexact I2
    isplitl [Cs1]; · iexact Cs1
    isplitl [HO]; · iexact HO
    isplitr; · rw [MayWait_zero]; iempintro
    iexact A2
  iintro ⟨HO, A2, -, Hpay⟩
  ihave Rs1 := (Entails.of_eq (rest_send m c 1)) $$ Hpay
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m c 0).symm)) $$ [Cs0 HO A1]
  · isplitr; · iexact I1
    isplitl [Cs0]; · iexact Cs0
    isplitl [HO]; · iexact HO
    isplitr; · rw [MayWait_zero]; iempintro
    iexact A1
  iintro ⟨HO, A1, -, Hpay⟩
  ihave Rs0 := (Entails.of_eq (rest_send m c 0)) $$ Hpay
  iapply (Rounds.wp_wait_rest_token 𝒱₀ ER (a2aRd m) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m c 2).symm)) $$ [Cs2 HO A3]
  · isplitr; · iexact I3
    isplitl [Cs2]; · iexact Cs2
    isplitl [HO]; · iexact HO
    isplitr; · rw [MayWait_zero]; iempintro
    iexact A3
  iintro ⟨HO, A3, -, Hpay⟩
  ihave Rs2 := (Entails.of_eq (rest_send m c 2)) $$ Hpay
  -- the end: the own cells closed, the blocks put together
  rw [wp_ret]
  imod (body_finish m K c _) $$ [A1 A2 A3 A4 A5 A6 A7 Rr0 Rr1 Rr2 Rl Rs0 Rs1 Rs2 HO Hx] with Hpost
  · isplitr
    · unfold invs; simp only [bigSep_fin3, bigSep_fin8]
      isplitr
      · isplitr; · iexact I0
        isplitr; · iexact I1
        isplitr; · iexact I2
        isplitr; · iexact I3
        isplitr; · iexact I4
        isplitr; · iexact I5
        isplitr; · iexact I6
        iexact I7
      isplitr
      · isplitr; · iexact Ib0
        isplitr; · iexact Ib1
        iexact Ib2
      · isplitr; · iexact Ir0
        isplitr; · iexact Ir1
        iexact Ir2
    isplitl [A1 A2 A3 A4 A5 A6 A7]
    · isplitl [A1]; · iexact A1
      isplitl [A2]; · iexact A2
      isplitl [A3]; · iexact A3
      isplitl [A4]; · iexact A4
      isplitl [A5]; · iexact A5
      isplitl [A6]; · iexact A6
      iexact A7
    isplitl [Rr0 Rr1 Rr2 Rl Rs0 Rs1 Rs2]
    · isplitl [Rr0]; · iexact Rr0
      isplitl [Rr1]; · iexact Rr1
      isplitl [Rr2]; · iexact Rr2
      isplitl [Rl]; · iexact Rl
      isplitl [Rs0]; · iexact Rs0
      isplitl [Rs1]; · iexact Rs1
      iexact Rs2
    isplitl [HO]; · iexact HO
    iexact Hx
  imodintro
  iapply Hk
  iexact Hpost

end Body

end Cert.Kernel.A2A

end
-- ==== Proof.KernelIdeal.Peers.lean ====
/-
  The mesh arithmetic of the all-to-all on four devices. Device `c` sends, at offset `1 + r` (`r : Fin 3`), to
  device `pe c r = c + 1 + r (mod 4)`, and receives on its cell `r` from `sr c r = c - 1 - r (mod 4)`; `neg r` is the
  offset at which the peer sends back. The printed device chains and the printed offset chains of the body are put in
  closed form here, decided over the four devices.
-/
import proofs.«900008_g7700000000000009_dist_a2a_v7x_i4_i_m512_n512_bf16_1_alg».proof.Proof.Gen.KernelIdeal

namespace Cert.KernelIdeal.A2A

open Cert.KernelIdeal Cert.KernelIdeal.Gen
open Idealize.ShloMosaic

/-- The device `1 + r` places after `c` on the ring of four. -/
def pe (c : Dev nD) (r : Fin 3) : Dev nD := ⟨(c.val + 1 + r.val) % 4, Nat.mod_lt _ (by decide)⟩
/-- The device `1 + r` places before `c`. -/
def sr (c : Dev nD) (r : Fin 3) : Dev nD := ⟨(c.val + 3 - r.val) % 4, Nat.mod_lt _ (by decide)⟩
/-- The offset back: `(1 + r) + (1 + neg r) = 4`. -/
def neg (r : Fin 3) : Fin 3 := ⟨2 - r.val, by omega⟩

theorem sr_pe (c : Dev nD) (r : Fin 3) : sr (pe c r) r = c := by revert c r; decide
theorem pe_sr (c : Dev nD) (r : Fin 3) : pe (sr c r) r = c := by revert c r; decide
theorem pe_pe_neg (c : Dev nD) (r : Fin 3) : pe (pe c r) (neg r) = c := by revert c r; decide
theorem pe_neg_eq_sr (c : Dev nD) (r : Fin 3) : pe c (neg r) = sr c r := by revert c r; decide
theorem neg_neg (r : Fin 3) : neg (neg r) = r := by revert r; decide
theorem pe_ne_self (c : Dev nD) (r : Fin 3) : pe c r ≠ c := by revert c r; decide
theorem sr_ne_self (c : Dev nD) (r : Fin 3) : sr c r ≠ c := by revert c r; decide
theorem pe_inj (c : Dev nD) (r r' : Fin 3) (h : pe c r = pe c r') : r = r' := by revert c r r'; decide
theorem sr_inj (c : Dev nD) (r r' : Fin 3) (h : sr c r = sr c r') : r = r' := by revert c r r'; decide
theorem pe_inj_left (c c' : Dev nD) (r : Fin 3) (h : pe c r = pe c' r) : c = c' := by revert c c' r; decide

/-- The three signals name the devices 1, 2, 3 places on; the three transfers the devices 2, 1, 3 places on. -/
theorem dev1_eq (c : Dev nD) : (⟨k0_dev1 c, k0_dev1_lt c⟩ : Dev nD) = pe c 0 := by revert c; decide +kernel
theorem dev2_eq (c : Dev nD) : (⟨k0_dev2 c, k0_dev2_lt c⟩ : Dev nD) = pe c 1 := by revert c; decide +kernel
theorem dev3_eq (c : Dev nD) : (⟨k0_dev3 c, k0_dev3_lt c⟩ : Dev nD) = pe c 2 := by revert c; decide +kernel
theorem dev4_eq (c : Dev nD) : (⟨k0_dev4 c, k0_dev4_lt c⟩ : Dev nD) = pe c 1 := by revert c; decide +kernel
theorem dev5_eq (c : Dev nD) : (⟨k0_dev5 c, k0_dev5_lt c⟩ : Dev nD) = pe c 0 := by revert c; decide +kernel
theorem dev6_eq (c : Dev nD) : (⟨k0_dev6 c, k0_dev6_lt c⟩ : Dev nD) = pe c 2 := by revert c; decide +kernel

/-- The printed offsets in closed form: the column block of the peer `1 + r` places on (loads, stores and the
    transfers' sources), the row block and the column block of the peer `1 + r` places back (the receive waits). -/
theorem off1_eq (c : Dev nD) (r : Fin 3) : k0_off1 c (BitVec.ofNat 32 (1 + r.val)) = ![0, 512 * (pe c r).val] := by
  revert c r; decide +kernel
theorem off3_eq (c : Dev nD) (r : Fin 3) : k0_off3 c (BitVec.ofNat 32 (1 + r.val)) = ![0, 512 * (pe c r).val] := by
  revert c r; decide +kernel
theorem off6_eq (c : Dev nD) (r : Fin 3) : k0_off6 c (BitVec.ofNat 32 (1 + r.val)) = ![512 * (sr c r).val, 0] := by
  revert c r; decide +kernel
theorem off7_eq (c : Dev nD) (r : Fin 3) : k0_off7 c (BitVec.ofNat 32 (1 + r.val)) = ![0, 512 * (sr c r).val] := by
  revert c r; decide +kernel

end Cert.KernelIdeal.A2A
-- ==== Proof.KernelIdeal.Protocol.lean ====
/-
  The all-to-all on four devices, as a protocol. Every device casts its [512, 2048] block of `x` to bf16 one column
  block at a time into a scratch buffer, shakes hands with its three peers on the barrier semaphore, sends column
  block `t` of the scratch to device `t`'s result rows `[512 c, 512 c + 512)` (its own block by a local copy), waits
  for the three blocks addressed to it, for its local copy and for its three sends.

  Cells of device `c`, duty names `Fin 3` (the offset less one): the barrier cell has one round of three duties of one
  unit, duty `r` paid by the device `1 + r` places before `c`, which hands over its result rows `c` (where `c`'s
  transfer to it will land) and that it has reached round 0 of the receive cell that transfer credits; send cell `r`,
  receive cell `r` and the local cell have one duty of one block's credit each; a send cell's duty gives the source
  column block back, a receive cell's the result rows of the sender holding the sender's cast column block `c`.
-/
import proofs.«900008_g7700000000000009_dist_a2a_v7x_i4_i_m512_n512_bf16_1_alg».proof.Proof.KernelIdeal.Peers
import proofs.«900008_g7700000000000009_dist_a2a_v7x_i4_i_m512_n512_bf16_1_alg».proof.Proof.Gen.KernelIdeal.Skeleton
import proofs.«900008_g7700000000000009_dist_a2a_v7x_i4_i_m512_n512_bf16_1_alg».proof.Proof.Gen.KernelIdeal.Launch
import proofs.«900008_g7700000000000009_dist_a2a_v7x_i4_i_m512_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and cells -/

/-- The staged block of `x`, the result array, the bf16 scratch. -/
abbrev xM : Memref sig .tc .vmem S512x2048 .f32 := Memref.whole cc0_stg0_0
abbrev oM : Memref sig .tc .hbm S2048x512 .bf16 := Memref.whole main_v1
abbrev sM : Memref sig .tc .vmem S512x2048 .bf16 := Memref.whole cc0_scratch0

theorem inb3 (r : Fin 3) : ∀ a, (![1 + r.val] : Fin 1 → Nat) a + S1.size a ≤ S4.size a := by revert r; decide

/-- Result rows `[512 s, 512 s + 512)` (of any device's result array): where device `s`'s transfers land. -/
abbrev oBlk (s : Dev nD) : Memref sig .tc .hbm S512x512 .bf16 :=
  oM.slice (Rect.unit (s := S2048x512) (k0_off2 s) S512x512.size (k0_off2_inb s)) (fun _ => rfl)
/-- Scratch columns of the peer `1 + r` places on: the source of transfer `r`. -/
abbrev sBlk (c : Dev nD) (r : Fin 3) : Memref sig .tc .vmem S512x512 .bf16 :=
  sM.slice (Rect.unit (s := S512x2048) (k0_off3 c (BitVec.ofNat 32 (1 + r.val))) S512x512.size (k0_off3_inb c r)) (fun _ => rfl)
/-- Scratch columns `[512 c, 512 c + 512)`: the source of the local copy. -/
abbrev sOwn (c : Dev nD) : Memref sig .tc .vmem S512x512 .bf16 :=
  sM.slice (Rect.unit (s := S512x2048) (k0_off5 c) S512x512.size (k0_off5_inb c)) (fun _ => rfl)

/-- The runtime's barrier semaphore of collective id 0 (unscoped); the send, receive and local DMA semaphores. -/
abbrev barS : Sem sig := (SemArray.scalar (sig.barrier 0 rfl) : Sems sig S_).sem
abbrev sendA (r : Fin 3) : DmaSems sig S_ := (cc0_scratch1.slice (Rect.unit (s := S4) ![1 + r.val] S1.size (inb3 r))).squeeze S_ squeezes_S1_S_
abbrev recvA (r : Fin 3) : DmaSems sig S_ := (cc0_scratch2.slice (Rect.unit (s := S4) ![1 + r.val] S1.size (inb3 r))).squeeze S_ squeezes_S1_S_
abbrev locA : DmaSems sig S_ := cc0_scratch3

abbrev barCell (c : Dev nD) : GSem nD τ sig := ((c : Thread nD τ), .reg barS)
abbrev sendCell (c : Dev nD) (r : Fin 3) : GSem nD τ sig := ((c : Thread nD τ), .dma (sendA r).sem)
abbrev recvCell (c : Dev nD) (r : Fin 3) : GSem nD τ sig := ((c : Thread nD τ), .dma (recvA r).sem)
abbrev locCell (c : Dev nD) : GSem nD τ sig := ((c : Thread nD τ), .dma locA.sem)

/-- The kernel's OWN (scoped) semaphores it uses, as the launch indexes them: send 0–2, receive 0–2, local; -/
abbrev osem : Fin 7 → SemLoc sig := fun
  | 0 => .dma (sendA 0).sem | 1 => .dma (sendA 1).sem | 2 => .dma (sendA 2).sem
  | 3 => .dma (recvA 0).sem | 4 => .dma (recvA 1).sem | 5 => .dma (recvA 2).sem | 6 => .dma locA.sem
/-- all eight of the protocol's, the barrier first. -/
abbrev csem : Fin 8 → SemLoc sig := fun
  | 0 => .reg barS
  | 1 => .dma (sendA 0).sem | 2 => .dma (sendA 1).sem | 3 => .dma (sendA 2).sem
  | 4 => .dma (recvA 0).sem | 5 => .dma (recvA 1).sem | 6 => .dma (recvA 2).sem | 7 => .dma locA.sem
abbrev kcell (ck : Dev nD × Fin 8) : GSem nD τ sig := ((ck.1 : Thread nD τ), csem ck.2)
/-- Where send cell `r`, receive cell `r` sit in that list. -/
abbrev iS (r : Fin 3) : Fin 8 := ⟨1 + r.val, by omega⟩
abbrev iR (r : Fin 3) : Fin 8 := ⟨4 + r.val, by omega⟩

/-- One block's credit. -/
abbrev N : ℕ := (oBlk (0 : Dev nD)).view.dmaCredit
theorem N_pos : 0 < N := View.dmaCredit_pos _ (by decide)

/-! ## Contents -/

/-- A float's change of format f32 → bf16. -/
def tr (a : Elt F .f32) : Elt F .bf16 := FloatOps.truncf .bf16 bitsLt_bf16_f32 a

/-- Device `c`'s staged block of `x`. -/
def xstg (c : Dev nD) : (cc0_stg0_0 : Ref sig .tc).ty.Contents (Elt F) :=
  (win0_0.blk (0 : Fin 1)).view.read (Elt F) (m ((c : Thread nD τ).loc main_arg0))

/-- The scratch once every column block is cast: `x`'s block, entry by entry in bf16. -/
def scrV (c : Dev nD) : Buf (Elt F) ((c : Thread nD τ).loc cc0_scratch0) := fun i => tr (xstg m c i)

/-- The device whose transfer lands at row `i 0` of a result array: `i 0 / 512`. -/
def rowDev (i : S2048x512.Idx) : Dev nD := ⟨(i 0).val / 512, Nat.div_lt_of_lt_mul (i 0).isLt⟩

/-- Device `c`'s result array in the end: rows `[512 s, 512 s + 512)` hold columns `[512 c, 512 c + 512)` of device
    `s`'s cast block. -/
def outV (c : Dev nD) : Buf (Elt F) ((c : Thread nD τ).loc main_v1) := fun i =>
  scrV m (rowDev i) (Shape.pair (d := ![512, 2048]) ⟨(i 0).val % 512, Nat.mod_lt _ (by decide)⟩
    ⟨512 * c.val + (i 1).val, by have h1 : (i 1).val < 512 := (i 1).isLt; have hc : c.val < 4 := c.isLt; show _ < 2048; omega⟩)

/-! ## Points-to of the pieces -/

/-- Result rows `s` of device `c`, holding `f` there. -/
def rowsPts (c s : Dev nD) (f : Buf (Elt F) ((oBlk s).view.loc (c : Thread nD τ))) : sProp 𝕄 :=
  (oBlk s).view.loc (c : Thread nD τ) ↦[(oBlk s).view.set]{fullShare} f
/-- The source columns of device `c`'s transfer `r`, holding `f` there. -/
def colsPts (c : Dev nD) (r : Fin 3) (f : Buf (Elt F) ((sBlk c r).view.loc (c : Thread nD τ))) : sProp 𝕄 :=
  (sBlk c r).view.loc (c : Thread nD τ) ↦[(sBlk c r).view.set]{fullShare} f
/-- The source columns of device `c`'s local copy, holding `f` there. -/
def ownPts (c : Dev nD) (f : Buf (Elt F) ((sOwn c).view.loc (c : Thread nD τ))) : sProp 𝕄 :=
  (sOwn c).view.loc (c : Thread nD τ) ↦[(sOwn c).view.set]{fullShare} f

omit [FloatOps F] in
instance rowsPts_storable (c s : Dev nD) (f) : BI.Storable (upEmb : UEmb _ 𝕄) (rowsPts (F := F) c s f) := by unfold rowsPts; infer_instance
omit [FloatOps F] in
instance colsPts_storable (c : Dev nD) (r : Fin 3) (f) : BI.Storable (upEmb : UEmb _ 𝕄) (colsPts (F := F) c r f) := by unfold colsPts; infer_instance
omit [FloatOps F] in
instance ownPts_storable (c : Dev nD) (f) : BI.Storable (upEmb : UEmb _ 𝕄) (ownPts (F := F) c f) := by unfold ownPts; infer_instance

/-! ## The schedule -/

/-- What the device `1 + r` places before `c` (that is `sr c r`) hands `c` with its signal: its result rows `c`, at any
    contents, and that it has reached round 0 of the receive cell `c`'s transfer to it credits. -/
def barPay (c : Dev nD) (r : Fin 3) : sProp 𝕄 := iprop((∃ f, rowsPts (sr c r) c f) ∗ reached ER (recvCell (sr c r) (neg r)) 0)
/-- Receive cell `r` of `c`: the rows of the sender `sr c r`, landed. -/
def recvPay (c : Dev nD) (r : Fin 3) : sProp 𝕄 := rowsPts c (sr c r) (outV m c)
/-- Send cell `r` of `c`: the source columns back. -/
def sendPay (c : Dev nD) (r : Fin 3) : sProp 𝕄 := colsPts c r (scrV m c)
/-- The local cell: the own rows landed and the own columns back. -/
def locPay (c : Dev nD) : sProp 𝕄 := iprop(rowsPts c c (outV m c) ∗ ownPts c (scrV m c))

abbrev IsBar (g : GSem nD τ sig) : Prop := g.1.2 = .tc ∧ g.2 = .reg barS
abbrev IsXfer (g : GSem nD τ sig) : Prop := g.1.2 = .tc ∧ ∃ k : Fin 7, g.2 = osem k

/-- One round, round 0: a barrier cell has the three duties of one unit each; a send, receive or local cell the duty
    `0` of the block's credit. -/
def a2aRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvA 0).sem then recvPay m g.1.1 0
    else if g.2 = .dma (recvA 1).sem then recvPay m g.1.1 1
    else if g.2 = .dma (recvA 2).sem then recvPay m g.1.1 2
    else if g.2 = .dma (sendA 0).sem then sendPay m g.1.1 0
    else if g.2 = .dma (sendA 1).sem then sendPay m g.1.1 1
    else if g.2 = .dma (sendA 2).sem then sendPay m g.1.1 2
    else if g.2 = .dma locA.sem then locPay m g.1.1
    else iprop(emp)
  amount_pos g _ _ _ := by
    by_cases h : g.2 = .reg barS
    · rw [if_pos h]; exact Nat.one_pos
    · rw [if_neg h]; exact N_pos

instance a2aRd_payload_storable (g : GSem nD τ sig) (r : ℕ) (d : Fin 3) :
    BI.Storable (upEmb : UEmb _ 𝕄) ((a2aRd (F := F) m).payload g r d) := by
  show BI.Storable upEmb (if g.2 = .reg barS then barPay g.1.1 d
    else if g.2 = .dma (recvA 0).sem then recvPay m g.1.1 0
    else if g.2 = .dma (recvA 1).sem then recvPay m g.1.1 1
    else if g.2 = .dma (recvA 2).sem then recvPay m g.1.1 2
    else if g.2 = .dma (sendA 0).sem then sendPay m g.1.1 0
    else if g.2 = .dma (sendA 1).sem then sendPay m g.1.1 1
    else if g.2 = .dma (sendA 2).sem then sendPay m g.1.1 2
    else if g.2 = .dma locA.sem then locPay m g.1.1
    else iprop(emp))
  unfold barPay recvPay sendPay locPay
  (repeat' split) <;> infer_instance

/-! ## What each device owes at launch; the levels -/

/-- A block's credit to the receive cell transfer `r` lands on; a unit to the barrier cell signal `r` raises. -/
def TR (c : Dev nD) (r : Fin 3) : CellTallies nD τ sig Unit := tallyAt (recvCell (pe c r) r) () N
def TB (c : Dev nD) (r : Fin 3) : CellTallies nD τ sig Unit := tallyAt (barCell (pe c r)) () 1

/-- What device `c` owes after its three signals (its three transfers, in the order the program peels them: 1, 0, 2 from the
    right), after two, after one, and at launch. -/
def O₃ (c : Dev nD) : CellTallies nD τ sig Unit := TR c 2 + TR c 0 + TR c 1
def O₂ (c : Dev nD) : CellTallies nD τ sig Unit := O₃ c + TB c 2
def O₁ (c : Dev nD) : CellTallies nD τ sig Unit := O₂ c + TB c 1
def O₀ (c : Dev nD) : CellTallies nD τ sig Unit := O₁ c + TB c 0

def L (g : GSem nD τ sig) : Finset Unit := if g.1.2 = .tc then {()} else ∅
abbrev IsRecv (sm : SemLoc sig) : Prop := sm = .dma (recvA 0).sem ∨ sm = .dma (recvA 1).sem ∨ sm = .dma (recvA 2).sem
/-- barrier cells at 1, receive cells at 2, everything else (staging, send, local) at 0. -/
def lv (g : GSem nD τ sig) (_ : Unit) : ℕ := if g.2 = .reg barS then 1 else if IsRecv g.2 then 2 else 0

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own eight, its
    three peers' barrier cells (its signals) and the receive cell each of its transfers credits. -/
def invs (K : Dev nD × Fin 8 → ℕ) (c : Dev nD) : sProp 𝕄 :=
  iprop((bigSep Finset.univ fun k : Fin 8 => cellInv ER (a2aRd m) (K (c, k)) (kcell (c, k)))
    ∗ (bigSep Finset.univ fun r : Fin 3 => cellInv ER (a2aRd m) (K (pe c r, 0)) (barCell (pe c r)))
    ∗ (bigSep Finset.univ fun r : Fin 3 => cellInv ER (a2aRd m) (K (pe c r, iR r)) (recvCell (pe c r) r)))

instance invs_persistent (K : Dev nD × Fin 8 → ℕ) (c : Dev nD) : BI.Persistent (invs m K c) := by unfold invs; infer_instance

/-- The rounds' records device `c` knows: round 0 reached at every cell it pays or owns. -/
def marks (c : Dev nD) : sProp 𝕄 :=
  iprop((bigSep Finset.univ fun k : Fin 8 => reached ER (kcell (c, k)) 0)
    ∗ (bigSep Finset.univ fun r : Fin 3 => reached ER (barCell (pe c r)) 0)
    ∗ (bigSep Finset.univ fun r : Fin 3 => reached ER (recvCell (pe c r) r) 0))

instance marks_persistent (c : Dev nD) : BI.Persistent (marks (F := F) c) := by unfold marks; infer_instance

/-- The tokens of the duties device `c` pays: duty `r` of the barrier cell its signal `r` raises, the duty of the receive
    cell its transfer `r` credits, of its own three send cells and of its local cell. -/
def payToks (c : Dev nD) : sProp 𝕄 :=
  iprop((bigSep Finset.univ fun r : Fin 3 => dutyTok ER (barCell (pe c r)) 0 r)
    ∗ (bigSep Finset.univ fun r : Fin 3 => dutyTok ER (recvCell (pe c r) r) 0 (0 : Fin 3))
    ∗ (bigSep Finset.univ fun r : Fin 3 => dutyTok ER (sendCell c r) 0 (0 : Fin 3))
    ∗ dutyTok ER (locCell c) 0 (0 : Fin 3))

/-- The protocol's ghost state device `c` starts from. -/
def ghost (K : Dev nD × Fin 8 → ℕ) (c : Dev nD) : sProp 𝕄 :=
  iprop(invs m K c ∗ marks c ∗ (bigSep Finset.univ fun k : Fin 8 => atPos ER (kcell (c, k)) 0 ∅ 0) ∗ payToks c)

/-- The credit tokens the launch deals device `c`: its barrier's three units and its three receive cells' credit. -/
def creds (c : Dev nD) : sProp 𝕄 :=
  iprop(cred (tallyAt (barCell c) () 3) ∗ bigSep Finset.univ fun r : Fin 3 => cred (tallyAt (recvCell c r) () N))

/-- What device `c`'s body starts from, besides the scratch: the ghost state at some names, the credit tokens, the level
    facts, and its result array whole as launched. -/
def start (c : Dev nD) : sProp 𝕄 :=
  iprop((∃ K, ghost m K c) ∗ creds c ∗ levAts L lv ∗ (((c : Thread nD τ).loc main_v1) ↦{fullShare} m ((c : Thread nD τ).loc main_v1)))

def Φ₀ (c : Dev nD) : sProp 𝕄 := iprop(start m c ∗ ∃ f, ((c : Thread nD τ).loc cc0_scratch0) ↦{fullShare} f)
/-- After the point: the result array whole at its final contents, the scratch whole, the seven own cells at zero, closed
    (the barrier cell is the runtime's: nothing to hand back). -/
def Φ₁ (c : Dev nD) : sProp 𝕄 :=
  iprop((((c : Thread nD τ).loc main_v1) ↦{fullShare} outV m c) ∗ (∃ f, ((c : Thread nD τ).loc cc0_scratch0) ↦{fullShare} f)
    ∗ bigSep Finset.univ fun k : Fin 7 => semVal ((c : Thread nD τ), osem k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 8 → ℕ) (c : Dev nD) : sProp 𝕄 :=
  iprop((ghost m K c ∗ creds c ∗ levAts L lv ∗ (((c : Thread nD τ).loc main_v1) ↦{fullShare} m ((c : Thread nD τ).loc main_v1))
      ∗ ∃ f, ((c : Thread nD τ).loc cc0_scratch0) ↦{fullShare} f)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

end Cert.KernelIdeal.A2A

end
-- ==== Proof.KernelIdeal.Tables.lean ====
/-
  The schedule's tables, cell by cell: which duties round 0 of each cell has, their amounts, what a round expects,
  what each duty hands over; and the level evidence for each wait (barrier cells sit below receive cells, everything a
  device still owes when it waits lies above the cell it waits on).
-/
import proofs.«900008_g7700000000000009_dist_a2a_v7x_i4_i_m512_n512_bf16_1_alg».proof.Proof.KernelIdeal.Protocol

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores are pairwise distinct -/

theorem send_ne_bar (r : Fin 3) : (SemLoc.dma (sendA r).sem : SemLoc sig) ≠ .reg barS := fun h => by cases h
theorem recv_ne_bar (r : Fin 3) : (SemLoc.dma (recvA r).sem : SemLoc sig) ≠ .reg barS := fun h => by cases h
theorem loc_ne_bar : (SemLoc.dma locA.sem : SemLoc sig) ≠ .reg barS := fun h => by cases h
theorem send_ne_recv (r r' : Fin 3) : (SemLoc.dma (sendA r).sem : SemLoc sig) ≠ .dma (recvA r').sem := by revert r r'; decide
theorem send_ne_send (r r' : Fin 3) (h : r ≠ r') : (SemLoc.dma (sendA r).sem : SemLoc sig) ≠ .dma (sendA r').sem := by revert r r'; decide
theorem recv_ne_recv (r r' : Fin 3) (h : r ≠ r') : (SemLoc.dma (recvA r).sem : SemLoc sig) ≠ .dma (recvA r').sem := by revert r r'; decide
theorem loc_ne_send (r : Fin 3) : (SemLoc.dma locA.sem : SemLoc sig) ≠ .dma (sendA r).sem := by revert r; decide
theorem loc_ne_recv (r : Fin 3) : (SemLoc.dma locA.sem : SemLoc sig) ≠ .dma (recvA r).sem := by revert r; decide

section Sched
variable (c : Dev nD) (r : Fin 3)

/-- An index of `Fin 3` is one of the three literals. -/
private theorem fin3_cases (r : Fin 3) : r = 0 ∨ r = 1 ∨ r = 2 := by revert r; decide

private theorem not_bar_send : ¬ IsBar (sendCell c r) := fun h => send_ne_bar r h.2
private theorem not_bar_recv : ¬ IsBar (recvCell c r) := fun h => recv_ne_bar r h.2
private theorem not_bar_loc : ¬ IsBar (locCell c) := fun h => loc_ne_bar h.2

/-- Send, receive and local cells are among the seven transfer cells. -/
private theorem xfer_send : IsXfer (sendCell c r) := by
  rcases fin3_cases r with rfl | rfl | rfl
  exacts [⟨rfl, 0, rfl⟩, ⟨rfl, 1, rfl⟩, ⟨rfl, 2, rfl⟩]
private theorem xfer_recv : IsXfer (recvCell c r) := by
  rcases fin3_cases r with rfl | rfl | rfl
  exacts [⟨rfl, 3, rfl⟩, ⟨rfl, 4, rfl⟩, ⟨rfl, 5, rfl⟩]
private theorem xfer_loc : IsXfer (locCell c) := ⟨rfl, 6, rfl⟩

/-! ## Duties, amounts, expected units -/

theorem duties_bar : (a2aRd (F := F) m).duties (barCell c) 0 = Finset.univ := by dsimp only [a2aRd]; exact if_pos ⟨rfl, rfl, rfl⟩
theorem duties_send : (a2aRd (F := F) m).duties (sendCell c r) 0 = {0} := by
  dsimp only [a2aRd]; rw [if_neg (fun h => not_bar_send c r h.2)]; exact if_pos ⟨rfl, xfer_send c r⟩
theorem duties_recv : (a2aRd (F := F) m).duties (recvCell c r) 0 = {0} := by
  dsimp only [a2aRd]; rw [if_neg (fun h => not_bar_recv c r h.2)]; exact if_pos ⟨rfl, xfer_recv c r⟩
theorem duties_loc : (a2aRd (F := F) m).duties (locCell c) 0 = {0} := by
  dsimp only [a2aRd]; rw [if_neg (fun h => not_bar_loc c h.2)]; exact if_pos ⟨rfl, xfer_loc c⟩
theorem duties_later (g : GSem nD τ sig) : ∀ r, 1 ≤ r → (a2aRd (F := F) m).duties g r = ∅ :=
  fun r hr => by dsimp only [a2aRd]; rw [if_neg fun h => by omega, if_neg fun h => by omega]

theorem amount_bar (d : Fin 3) : (a2aRd (F := F) m).amount (barCell c) 0 d = 1 := by dsimp only [a2aRd]; exact if_pos rfl
theorem amount_send (d : Fin 3) : (a2aRd (F := F) m).amount (sendCell c r) 0 d = N := by dsimp only [a2aRd]; exact if_neg (send_ne_bar r)
theorem amount_recv (d : Fin 3) : (a2aRd (F := F) m).amount (recvCell c r) 0 d = N := by dsimp only [a2aRd]; exact if_neg (recv_ne_bar r)
theorem amount_loc (d : Fin 3) : (a2aRd (F := F) m).amount (locCell c) 0 d = N := by dsimp only [a2aRd]; exact if_neg loc_ne_bar

theorem expect_bar : (a2aRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]
theorem expect_loc : (a2aRd (F := F) m).expect (locCell c) 0 = N := by
  unfold Schedule.expect Schedule.amountOf; rw [duties_loc, Finset.sum_singleton, amount_loc]

/-! ## Payloads -/

theorem payload_bar (d : Fin 3) : (a2aRd (F := F) m).payload (barCell c) 0 d = barPay c d := by dsimp only [a2aRd]; rw [if_pos rfl]
theorem payload_send (d : Fin 3) : (a2aRd (F := F) m).payload (sendCell c r) 0 d = sendPay m c r := by
  dsimp only [a2aRd]
  rw [if_neg (send_ne_bar r), if_neg (send_ne_recv r 0), if_neg (send_ne_recv r 1), if_neg (send_ne_recv r 2)]
  rcases fin3_cases r with rfl | rfl | rfl
  · rw [if_pos rfl]
  · rw [if_neg (send_ne_send 1 0 (by decide)), if_pos rfl]
  · rw [if_neg (send_ne_send 2 0 (by decide)), if_neg (send_ne_send 2 1 (by decide)), if_pos rfl]
theorem payload_recv (d : Fin 3) : (a2aRd (F := F) m).payload (recvCell c r) 0 d = recvPay m c r := by
  dsimp only [a2aRd]
  rw [if_neg (recv_ne_bar r)]
  rcases fin3_cases r with rfl | rfl | rfl
  · rw [if_pos rfl]
  · rw [if_neg (recv_ne_recv 1 0 (by decide)), if_pos rfl]
  · rw [if_neg (recv_ne_recv 2 0 (by decide)), if_neg (recv_ne_recv 2 1 (by decide)), if_pos rfl]
theorem payload_loc (d : Fin 3) : (a2aRd (F := F) m).payload (locCell c) 0 d = locPay m c := by
  dsimp only [a2aRd]
  rw [if_neg loc_ne_bar, if_neg (loc_ne_recv 0), if_neg (loc_ne_recv 1), if_neg (loc_ne_recv 2),
    if_neg (loc_ne_send 0), if_neg (loc_ne_send 1), if_neg (loc_ne_send 2), if_pos rfl]

/-- The rest of the barrier cell's round, no duty taken: the three peers' payloads. -/
theorem rest_bar : bigSep ((a2aRd (F := F) m).duties (barCell c) 0 \ ∅) (fun d => (a2aRd (F := F) m).payload (barCell c) 0 d)
    = iprop(barPay c 0 ∗ barPay c 1 ∗ barPay c 2) := by
  rw [Finset.sdiff_empty, duties_bar, funext (payload_bar m c)]
  exact bigSep_univ_eq_bigSepL [0, 1, 2] (by decide) (by decide) _
theorem rest_send : bigSep ((a2aRd (F := F) m).duties (sendCell c r) 0 \ ∅) (fun d => (a2aRd (F := F) m).payload (sendCell c r) 0 d) = sendPay m c r := by
  rw [Finset.sdiff_empty, duties_send, bigSep_singleton, payload_send]
theorem rest_recv : bigSep ((a2aRd (F := F) m).duties (recvCell c r) 0 \ ∅) (fun d => (a2aRd (F := F) m).payload (recvCell c r) 0 d) = recvPay m c r := by
  rw [Finset.sdiff_empty, duties_recv, bigSep_singleton, payload_recv]
theorem rest_loc : bigSep ((a2aRd (F := F) m).duties (locCell c) 0 \ ∅) (fun d => (a2aRd (F := F) m).payload (locCell c) 0 d) = locPay m c := by
  rw [Finset.sdiff_empty, duties_loc, bigSep_singleton, payload_loc]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- A receive cell's semaphore is one of the three receive semaphores. -/
private theorem isRecv_recv (r : Fin 3) : IsRecv (SemLoc.dma (recvA r).sem : SemLoc sig) := by
  rcases (show r = 0 ∨ r = 1 ∨ r = 2 by revert r; decide) with rfl | rfl | rfl
  exacts [.inl rfl, .inr (.inl rfl), .inr (.inr rfl)]

/-- What a device owes after its three signals sits on its peers' receive cells. -/
private theorem O₃_pos {c : Dev nD} {g : GSem nD τ sig} {u : Unit} (h : 0 < O₃ c g u) : ∃ r, g = recvCell (pe c r) r := by
  unfold O₃ TR at h
  simp only [Pi.add_apply, Finsupp.add_apply, tallyAt_apply] at h
  by_contra hn
  rw [not_exists] at hn
  rw [if_neg (fun h' => hn 2 h'.1), if_neg (fun h' => hn 0 h'.1), if_neg (fun h' => hn 1 h'.1)] at h
  exact Nat.lt_irrefl 0 h

/-- What a device owes at launch sits on its peers' receive and barrier cells. -/
theorem O₀_pos {c : Dev nD} {g : GSem nD τ sig} {u : Unit} (h : 0 < O₀ c g u) :
    (∃ r, g = recvCell (pe c r) r) ∨ (∃ r, g = barCell (pe c r)) := by
  unfold O₀ O₁ O₂ O₃ TR TB at h
  simp only [Pi.add_apply, Finsupp.add_apply, tallyAt_apply] at h
  by_contra hn
  rw [not_or, not_exists, not_exists] at hn
  rw [if_neg (fun h' => hn.1 2 h'.1), if_neg (fun h' => hn.1 0 h'.1), if_neg (fun h' => hn.1 1 h'.1),
    if_neg (fun h' => hn.2 2 h'.1), if_neg (fun h' => hn.2 1 h'.1), if_neg (fun h' => hn.2 0 h'.1)] at h
  exact Nat.lt_irrefl 0 h

/-- A wait on a cell that is neither a barrier nor a receive cell (level 0: the pipeline's staging cells), owing what is
    owed at launch or nothing. -/
theorem mayWait_stage (c : Dev nD) (q : DmaSem sig) (hq : ¬ IsRecv (SemLoc.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; dsimp only [lv]; rw [if_neg (fun h => by cases h), if_neg hq])
      (fun g u hg => by
        rcases O₀_pos hg with ⟨r, rfl⟩ | ⟨r, rfl⟩
        · dsimp only [lv]; rw [if_neg (recv_ne_bar r), if_pos (isRecv_recv r)]; decide
        · dsimp only [lv]; rw [if_pos rfl]; decide)
  · rw [MayWait_zero]; iintro -; iempintro

/-- At its barrier wait a device owes its three transfers' credit only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨r, rfl⟩ := O₃_pos hg; exact Finset.mem_singleton_self _)
    (fun p hp => by rw [Finset.mem_singleton.mp hp]; dsimp only [lv]; rw [if_pos rfl])
    (fun g u hg => by
      obtain ⟨r, rfl⟩ := O₃_pos hg
      dsimp only [lv]; rw [if_neg (recv_ne_bar r), if_pos (isRecv_recv r)]; decide)

end Cert.KernelIdeal.A2A

end
-- ==== Proof.KernelIdeal.Launch.lean ====
/-
  The launch of the all-to-all: the protocol's ghost state funded for all four devices under one update (every cell's
  invariant allocated, the duty tokens dealt to the devices that pay them), each device's credit read off what its
  three peers owe it, the result array routed through the region as the unscoped rest and read back at the end.
-/
import proofs.«900008_g7700000000000009_dist_a2a_v7x_i4_i_m512_n512_bf16_1_alg».proof.Proof.KernelIdeal.Tables

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's layout facts -/

private theorem ownSemFacts : Pipeline.OwnSemFacts cfg0.spec osem := by decide

private theorem share_eq (c : Dev nD) (w : Fin cfg0.W) : (dats m 0 c).share w = fullShare := by unfold Dat.share; split <;> rfl

private theorem csem_injective : Function.Injective (csem : Fin 8 → SemLoc sig) := by decide

private theorem kcell_injective : Function.Injective (kcell : Dev nD × Fin 8 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- Receive cell `r` is the cell at place `iR r` of a device's eight. -/
private theorem csem_iR (r : Fin 3) : csem (iR r) = .dma (recvA r).sem := by revert r; decide
private theorem kcell_iR (c : Dev nD) (r : Fin 3) : kcell (c, iR r) = recvCell c r := by
  show (((c : Dev nD) : Thread nD τ), csem (iR r)) = _
  rw [csem_iR]

/-- All the protocol's cells: each device's eight. -/
private def a2aCells : Finset (GSem nD τ sig) := Finset.univ.map ⟨kcell, kcell_injective⟩

/-- The duty tokens minted for a device's own cells, as (place of the cell, duty): the barrier's three duties, then the one
    duty of each of the seven transfer cells. -/
private abbrev tcell : Fin 10 → Fin 8 × Fin 3 := fun
  | 0 => (0, 0) | 1 => (0, 1) | 2 => (0, 2)
  | 3 => (1, 0) | 4 => (2, 0) | 5 => (3, 0) | 6 => (4, 0) | 7 => (5, 0) | 8 => (6, 0) | 9 => (7, 0)
private theorem tcell_injective : Function.Injective tcell := by decide
private abbrev tokOf (cj : Dev nD × Fin 10) : GSem nD τ sig × ℕ × Fin 3 := (kcell (cj.1, (tcell cj.2).1), 0, (tcell cj.2).2)
private theorem tokOf_injective : Function.Injective (tokOf : Dev nD × Fin 10 → GSem nD τ sig × ℕ × Fin 3) := by
  rintro ⟨c, j⟩ ⟨c', j'⟩ h
  have h1 : (c, (tcell j).1) = (c', (tcell j').1) := kcell_injective (congrArg (fun x : GSem nD τ sig × ℕ × Fin 3 => x.1) h)
  have h2 : (tcell j).2 = (tcell j').2 := congrArg (fun x : GSem nD τ sig × ℕ × Fin 3 => x.2.2) h
  have hc : c = c' := congrArg Prod.fst h1
  have hk : (tcell j).1 = (tcell j').1 := congrArg Prod.snd h1
  have hj : j = j' := tcell_injective (Prod.ext hk h2)
  subst hc; subst hj; rfl
private def a2aToks : Finset (GSem nD τ sig × ℕ × Fin 3) := Finset.univ.map ⟨tokOf, tokOf_injective⟩

/-- The launch element: the pipeline library's, and the protocol's cells and tokens. -/
private def u₀ : UU :=
  (initOf (Pipeline.cells cfgs cellOf_inj) (Pipeline.launchToks cfgs cellOf_inj), initOf a2aCells a2aToks)

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
private theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
private theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The duty tokens of device `c`'s own cells: its barrier's three, its receive cells', its send cells', its local cell's. -/
private def toks (c : Dev nD) : sProp 𝕄 :=
  iprop((bigSep Finset.univ fun r : Fin 3 => dutyTok ER (barCell c) 0 r)
    ∗ (bigSep Finset.univ fun r : Fin 3 => dutyTok ER (recvCell c r) 0 (0 : Fin 3))
    ∗ (bigSep Finset.univ fun r : Fin 3 => dutyTok ER (sendCell c r) 0 (0 : Fin 3))
    ∗ dutyTok ER (locCell c) 0 (0 : Fin 3))

omit [FloatOps F] in
private theorem toks_intro (c : Dev nD) :
    (bigSep Finset.univ fun j : Fin 10 => (dutyTok ER (kcell (c, (tcell j).1)) 0 (tcell j).2 : sProp 𝕄)) ⊢ toks c := by
  unfold toks
  rw [bigSep_fin10, bigSep_fin3, bigSep_fin3, bigSep_fin3]
  iintro ⟨B0, B1, B2, S0, S1, S2, R0, R1, R2, Lc⟩
  isplitl [B0 B1 B2]
  · isplitl [B0]; · iexact B0
    isplitl [B1]; · iexact B1
    iexact B2
  isplitl [R0 R1 R2]
  · isplitl [R0]; · iexact R0
    isplitl [R1]; · iexact R1
    iexact R2
  isplitl [S0 S1 S2]
  · isplitl [S0]; · iexact S0
    isplitl [S1]; · iexact S1
    iexact S2
  iexact Lc

/-- What the launch element deals device `c`: its eight cells' round states, positions and round-0 marks, and its own cells' tokens. -/
private def G (c : Dev nD) : sProp 𝕄 :=
  iprop((bigSep Finset.univ fun k : Fin 8 => roundState ER (a2aRd m) (kcell (c, k)) 0)
    ∗ (bigSep Finset.univ fun k : Fin 8 => iprop(atPos ER (kcell (c, k)) 0 ∅ 0 ∗ reached ER (kcell (c, k)) 0)) ∗ toks c)

/-- What the global step makes of it. -/
private def G' (c : Dev nD) : sProp 𝕄 := iprop(∃ K, ghost m K c)

private theorem fund_cells : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : Fin 8 => Φ (kcell (c, k)) := by
    unfold a2aCells; rw [bigSep_map, bigSep_univ_prod]; rfl
  have hT : bigSep a2aToks (fun x => (dutyTok ER x.1 x.2.1 x.2.2 : sProp 𝕄))
      = bigSep Finset.univ fun c : Dev nD => bigSep Finset.univ fun j : Fin 10 => (dutyTok ER (kcell (c, (tcell j).1)) 0 (tcell j).2 : sProp 𝕄) := by
    unfold a2aToks; rw [bigSep_map, bigSep_univ_prod]; rfl
  iintro HX
  imod (Rounds.fund ER (a2aRd m) a2aCells a2aToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (bigSep_mono fun c _ => toks_intro (F := F) c)) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
/-- The send, receive and local semaphores are the kernel's own seven; -/
private theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0) := by
  rw [Pipeline.ownSems0_eq_of_list c osem [0, 1, 2, 3, 4, 5, 6] (by decide) (by decide)]; rfl
omit [FloatOps F] in
/-- the barrier semaphore the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
  rw [ownSems0_eq, unscopedSems0_eq, bigSep_fin8]
  iintro ⟨HO, HB⟩
  isplitl [HB]; · iexact HB
  iexact HO

private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 8 => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (kcell (c, k)) 0) ∗ bigSep Finset.univ fun k : Fin 8 => roundState ER (a2aRd m) (kcell (c, k)) 0)
      ⊢ (|={Set.univ}=> bigSep Finset.univ fun k : Fin 8 => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name and its round-0 mark: persistent, so every device may read off the ones it needs. -/
private def records (K : Dev nD × Fin 8 → ℕ) : sProp 𝕄 :=
  iprop((bigSep Finset.univ fun ck : Dev nD × Fin 8 => cellInv ER (a2aRd m) (K ck) (kcell ck))
    ∗ bigSep Finset.univ fun ck : Dev nD × Fin 8 => reached ER (kcell ck) 0)

private instance records_persistent (K : Dev nD × Fin 8 → ℕ) : BI.Persistent (records m K) := by unfold records; infer_instance

private theorem inv_at (K : Dev nD × Fin 8 → ℕ) (ck : Dev nD × Fin 8) : records m K ⊢ cellInv ER (a2aRd m) (K ck) (kcell ck) := by
  have h : (bigSep Finset.univ fun ck : Dev nD × Fin 8 => (cellInv ER (a2aRd m) (K ck) (kcell ck) : sProp 𝕄)) ⊢ cellInv ER (a2aRd m) (K ck) (kcell ck) :=
    bigSep_elim (Finset.mem_univ ck)
  unfold records
  iintro ⟨HI, -⟩
  iapply h; iexact HI
private theorem reached_at (K : Dev nD × Fin 8 → ℕ) (ck : Dev nD × Fin 8) : records m K ⊢ reached ER (kcell ck) 0 := by
  have h : (bigSep Finset.univ fun ck : Dev nD × Fin 8 => (reached ER (kcell ck) 0 : sProp 𝕄)) ⊢ reached ER (kcell ck) 0 :=
    bigSep_elim (Finset.mem_univ ck)
  unfold records
  iintro ⟨-, HR⟩
  iapply h; iexact HR

private theorem invs_intro (K : Dev nD × Fin 8 → ℕ) (c : Dev nD) : records m K ⊢ invs m K c := by
  have h1 : records m K ⊢ bigSep Finset.univ fun k : Fin 8 => cellInv ER (a2aRd m) (K (c, k)) (kcell (c, k)) :=
    bigSep_intro_persistent fun k _ => inv_at m K (c, k)
  have h2 : records m K ⊢ bigSep Finset.univ fun r : Fin 3 => cellInv ER (a2aRd m) (K (pe c r, 0)) (barCell (pe c r)) :=
    bigSep_intro_persistent fun r _ => inv_at m K (pe c r, 0)
  have h3 : records m K ⊢ bigSep Finset.univ fun r : Fin 3 => cellInv ER (a2aRd m) (K (pe c r, iR r)) (recvCell (pe c r) r) :=
    bigSep_intro_persistent fun r _ => (inv_at m K (pe c r, iR r)).trans (Entails.of_eq (congrArg _ (kcell_iR (pe c r) r)))
  unfold invs
  iintro #H
  isplitr; · iapply h1; iexact H
  isplitr; · iapply h2; iexact H
  iapply h3; iexact H

private theorem marks_intro (K : Dev nD × Fin 8 → ℕ) (c : Dev nD) : records m K ⊢ marks c := by
  have h1 : records m K ⊢ bigSep Finset.univ fun k : Fin 8 => reached ER (kcell (c, k)) 0 :=
    bigSep_intro_persistent fun k _ => reached_at m K (c, k)
  have h2 : records m K ⊢ bigSep Finset.univ fun r : Fin 3 => reached ER (barCell (pe c r)) 0 :=
    bigSep_intro_persistent fun r _ => reached_at m K (pe c r, 0)
  have h3 : records m K ⊢ bigSep Finset.univ fun r : Fin 3 => reached ER (recvCell (pe c r) r) 0 :=
    bigSep_intro_persistent fun r _ => (reached_at m K (pe c r, iR r)).trans (Entails.of_eq (congrArg (fun g => reached ER g 0) (kcell_iR (pe c r) r)))
  unfold marks
  iintro #H
  isplitr; · iapply h1; iexact H
  isplitr; · iapply h2; iexact H
  iapply h3; iexact H

/-- The records, a device's positions and the tokens of the duties it pays are its ghost state. -/
private theorem ghost_intro (K : Dev nD × Fin 8 → ℕ) (c : Dev nD) :
    iprop(records m K ∗ ((bigSep Finset.univ fun k : Fin 8 => atPos ER (kcell (c, k)) 0 ∅ 0) ∗ payToks c)) ⊢ G' m c := by
  unfold G' ghost
  iintro ⟨#HR, Hat, Htk⟩
  iexists K
  isplitr; · iapply (invs_intro m K c); iexact HR
  isplitr; · iapply (marks_intro m K c); iexact HR
  isplitl [Hat]; · iexact Hat
  iexact Htk

/-- The devices at a fixed offset: a bijection of the mesh. -/
private abbrev ringE (r : Fin 3) : Dev nD ≃ Dev nD := ⟨fun c => pe c r, fun c => sr c r, fun c => sr_pe c r, fun c => pe_sr c r⟩

omit [FloatOps F] in
private theorem deal (r : Fin 3) (Φ : Dev nD → sProp 𝕄) : bigSep Finset.univ Φ ⊢ bigSep Finset.univ fun c => Φ (pe c r) :=
  Entails.of_eq (bigSep_univ_equiv (ringE r) Φ)

omit [FloatOps F] in
/-- The tokens dealt over the mesh: duty `r` of a barrier cell and the duty of receive cell `r` go to the device `1 + r` places
    before the cell's owner; the send and local tokens stay. -/
private theorem toks_around : (bigSep Finset.univ fun c : Dev nD => (toks c : sProp 𝕄)) ⊢ bigSep Finset.univ fun c : Dev nD => payToks c := by
  unfold toks payToks
  simp only [bigSep_fin3, bigSep_sep']
  iintro ⟨⟨B0, B1, B2⟩, ⟨R0, R1, R2⟩, HS, HL⟩
  ihave B0' := (deal 0 fun c : Dev nD => (dutyTok ER (barCell c) 0 (0 : Fin 3) : sProp 𝕄)) $$ B0
  ihave B1' := (deal 1 fun c : Dev nD => (dutyTok ER (barCell c) 0 (1 : Fin 3) : sProp 𝕄)) $$ B1
  ihave B2' := (deal 2 fun c : Dev nD => (dutyTok ER (barCell c) 0 (2 : Fin 3) : sProp 𝕄)) $$ B2
  ihave R0' := (deal 0 fun c : Dev nD => (dutyTok ER (recvCell c 0) 0 (0 : Fin 3) : sProp 𝕄)) $$ R0
  ihave R1' := (deal 1 fun c : Dev nD => (dutyTok ER (recvCell c 1) 0 (0 : Fin 3) : sProp 𝕄)) $$ R1
  ihave R2' := (deal 2 fun c : Dev nD => (dutyTok ER (recvCell c 2) 0 (0 : Fin 3) : sProp 𝕄)) $$ R2
  isplitl [B0' B1' B2']
  · isplitl [B0']; · iexact B0'
    isplitl [B1']; · iexact B1'
    iexact B2'
  isplitl [R0' R1' R2']
  · isplitl [R0']; · iexact R0'
    isplitl [R1']; · iexact R1'
    iexact R2'
  isplitl [HS]; · iexact HS
  iexact HL

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k : Fin 8 => iprop(∃ κ : ℕ, cellInv ER (a2aRd m) κ (kcell (c, k))))
          ∗ (bigSep Finset.univ fun k : Fin 8 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (a2aRd m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 8 => (atPos ER (kcell (c, k)) 0 ∅ 0 : sProp 𝕄)) payToks).symm)
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
private theorem cred_three (g : GSem nD τ sig) :
    iprop(cred (tallyAt g () 1) ∗ cred (tallyAt g () 1) ∗ cred (tallyAt g () 1)) ⊢ (cred (tallyAt g () 3) : sProp 𝕄) := by
  have h3 : (tallyAt g () 3 : CellTallies nD τ sig Unit) = tallyAt g () 1 + (tallyAt g () 1 + tallyAt g () 1) := by
    rw [tallyAt_add, tallyAt_add]
  rw [h3]
  exact (sep_mono_right (cred_add _ _).2).trans (cred_add _ _).2

omit [FloatOps F] in
/-- Device `c`'s launch credit: each of the three devices before it owes its barrier cell a unit, and the device `1 + r` places
    before it owes its receive cell `r` a block's credit. -/
private theorem creds_intro (c : Dev nD) : (Pipeline.launchCred O₀ c : sProp 𝕄) ⊢ creds c := by
  have hO : (O₀ : Dev nD → CellTallies nD τ sig Unit) = fun d =>
      tallyAt (recvCell (pe d 2) 2) () N + tallyAt (recvCell (pe d 0) 0) () N + tallyAt (recvCell (pe d 1) 1) () N
        + tallyAt (barCell (pe d 2)) () 1 + tallyAt (barCell (pe d 1)) () 1 + tallyAt (barCell (pe d 0)) () 1 := funext fun d => rfl
  rw [hO, Pipeline.launchCred_add, Pipeline.launchCred_add, Pipeline.launchCred_add, Pipeline.launchCred_add, Pipeline.launchCred_add]
  unfold creds
  iintro ⟨⟨⟨⟨⟨R2, R0⟩, R1⟩, B2⟩, B1⟩, B0⟩
  ihave R0' := (Pipeline.launchCred_tallyAt (SemLoc.dma (recvA 0).sem) (fun d => pe d 0) (fun d => sr d 0) (fun c => pe_sr c 0) (fun d => sr_pe d 0) () N c) $$ R0
  ihave R1' := (Pipeline.launchCred_tallyAt (SemLoc.dma (recvA 1).sem) (fun d => pe d 1) (fun d => sr d 1) (fun c => pe_sr c 1) (fun d => sr_pe d 1) () N c) $$ R1
  ihave R2' := (Pipeline.launchCred_tallyAt (SemLoc.dma (recvA 2).sem) (fun d => pe d 2) (fun d => sr d 2) (fun c => pe_sr c 2) (fun d => sr_pe d 2) () N c) $$ R2
  ihave B0' := (Pipeline.launchCred_tallyAt (SemLoc.reg barS) (fun d => pe d 0) (fun d => sr d 0) (fun c => pe_sr c 0) (fun d => sr_pe d 0) () 1 c) $$ B0
  ihave B1' := (Pipeline.launchCred_tallyAt (SemLoc.reg barS) (fun d => pe d 1) (fun d => sr d 1) (fun c => pe_sr c 1) (fun d => sr_pe d 1) () 1 c) $$ B1
  ihave B2' := (Pipeline.launchCred_tallyAt (SemLoc.reg barS) (fun d => pe d 2) (fun d => sr d 2) (fun c => pe_sr c 2) (fun d => sr_pe d 2) () 1 c) $$ B2
  isplitl [B0' B1' B2']
  · iapply (cred_three (F := F) (barCell c))
    isplitl [B0']; · iexact B0'
    isplitl [B1']; · iexact B1'
    iexact B2'
  rw [bigSep_fin3]
  isplitl [R0']; · iexact R0'
  isplitl [R1']; · iexact R1'
  iexact R2'

/-! ## The theorem's side conditions -/

/-- The result array is no window's: it reaches the body as the launch's unscoped rest. -/
private theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hv, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hv
  · iempintro

private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

private theorem phi1_exit (c : Dev nD) :
    (dats m 0 c).Φ (Fin.last cfg0.N)
      ⊢ iprop((((c : Thread nD τ).loc main_v1) ↦{fullShare} outV m c) ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨Hv, Hs, Hz⟩
  isplitl [Hv]; · iexact Hv
  isplitl [Hz]; · iexact Hz
  iexact Hs

private theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run guarantees of every final state: each device's result array at its final contents, its block of `x`
    as launched. -/
def QC : PUnit × MemSt nD τ sig (Elt F) → Prop := fun r => ∀ c : Dev nD,
  r.2.mem ((c : Thread nD τ).loc main_v1) = outV m c ∧ r.2.mem ((c : Thread nD τ).loc main_arg0) = m ((c : Thread nD τ).loc main_arg0)

set_option maxRecDepth 8000 in
/-- At the compiled mesh of four devices, from any memory with zero counters: every weakly fair execution of @main
    terminates, nothing faulting, each device's result array ends at `outV` and its block of `x` unchanged — given the
    body's obligation on every device. -/
theorem run_main (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => (((c : Thread nD τ).loc main_v1) ↦{fullShare} outV m c)) (Z := fun _ => iprop(emp))
    (hX := start_intro m ρ) (hin := phi0_intro m) (hout := phi1_exit m)
    (QY := fun c s => s.mem ((c : Thread nD τ).loc main_v1) = outV m c)
    (hY := fun c s' => by
      iintro ⟨Hv, -, HSI⟩
      icombine HSI Hv gives %hx
      imodintro
      isplitr; · ipureintro; exact Buf.eq_of_forall_mem_univ hx
      iexact HSI)
    (hQ := fun s h c => ⟨(h c).2.2, ((h c).1 0).trans ((dats (F := F) m 0 c).arrAt_in (0 : Fin 1) rfl _)⟩)

/-- info: 'Cert.KernelIdeal.A2A.run_main' depends on axioms: [propext, Classical.choice, Quot.sound] -/
#guard_msgs in #print axioms run_main

end Cert.KernelIdeal.A2A

end
-- ==== Proof.KernelIdeal.Obligation.lean ====
/-
  The body obligation of the pipeline library on device `c`, from the body's run: the library hands the body the
  invariant before the point, what is owed and the staged window; the run gives back the invariant after it.
-/
import proofs.«900008_g7700000000000009_dist_a2a_v7x_i4_i_m512_n512_bf16_1_alg».proof.Proof.KernelIdeal.Protocol

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A whole buffer owned at contents `X` is a points-to of it at some contents equal to `X`. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the library hands the body at the one point: the invariant before it, what is owed, the staged window. -/
private def bodyPre' (c : Dev nD) : sProp 𝕄 :=
  iprop(Φ₀ m c ∗ (dats m 0 c).owesAt () t₀.castSucc
    ∗ (∃ d, stg c cc0_stg0_0 ((dats m 0 c).before (0 : Fin 1) t₀ d)))

/-- The library's body obligation on device `c`, given the body's run from `bodyPre` to `bodyPost` at any names `K`. -/
theorem body_obligation_of
    (hsound : ∀ (K : Dev nD × Fin 8 → ℕ) (c : Dev nD) (Kt : PUnit → sProp 𝕄),
      iprop(bodyPre m K c ∗ (bodyPost m c -∗ Kt ⟨⟩))
        ⊢ wp frame (wpE (defs₀ (F := F)) 𝒱₀ c none) Set.univ (bodyAt0 (F := F) t₀) Kt)
    (c : Dev nD) : BodyObligation (dats (F := F) m 0 c) (defs₀ (F := F)) 𝒱₀ () Set.univ := by
  intro t
  rw [fin_N t]
  rw [bigSep_W0, bigSep_W0]
  simp only [owns_whole_eq]
  show bodyPre' m c ⊢ wp frame (wpE (defs₀ (F := F)) 𝒱₀ c none) Set.univ (bodyAt0 (F := F) t₀) (fun _ => bodyPost m c)
  unfold bodyPre' Φ₀ start
  iintro ⟨⟨⟨⟨%K, Hg⟩, Hcr, Hlev, Hv⟩, Hscr⟩, Ho, Hx⟩
  iapply (hsound K c fun _ => bodyPost m c)
  unfold bodyPre
  isplitr []
  · isplitl [Hg Hcr Hlev Hv Hscr]
    · isplitl [Hg]; · iexact Hg
      isplitl [Hcr]; · iexact Hcr
      isplitl [Hlev]; · iexact Hlev
      isplitl [Hv]; · iexact Hv
      iexact Hscr
    isplitl [Ho]; · iexact Ho
    iexact Hx
  · iintro H; iexact H

end Cert.KernelIdeal.A2A

end
-- ==== Proof.KernelIdeal.Landing.lean ====
/-
  The pieces of the two buffers, as sets of indices and as values. The scratch's four column blocks (the three sources
  of the transfers and the local copy's) are pairwise disjoint and cover it; a result array's four row blocks likewise.
  A store of a cast column block of `x` leaves that column block of the scratch at `scrV` (whatever it held) and
  touches no other; a transfer of column block `t` of device `c`'s scratch into rows `c` of device `t`'s result leaves
  those rows at `outV` of `t`.
-/
import proofs.«900008_g7700000000000009_dist_a2a_v7x_i4_i_m512_n512_bf16_1_alg».proof.Proof.KernelIdeal.Protocol
import Idealize.ShloMosaic.Lib.Pipeline.Value

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The three spellings of one cast -/

theorem pay3_pay2 (v : Vec F S512x512 .f32) : k0_pay3 (k0_pay2 v) = k0_pay1 v := rfl
theorem pay4_eq (v : Vec F S512x512 .f32) : k0_pay4 v = k0_pay1 v := rfl
theorem pay6_pay5 (v : Vec F S512x512 .f32) : k0_pay6 (k0_pay5 v) = k0_pay1 v := rfl

/-! ## The blocks as index sets -/

/-- Membership in a unit-stride 512 × 512 rectangle of the scratch, and of a result array, in coordinates. -/
private theorem mem_unit_s (off : Fin 2 → Nat) (inb : ∀ a, off a + S512x512.size a ≤ S512x2048.size a) (i : S512x2048.Idx) :
    i ∈ (Rect.unit (s := S512x2048) off S512x512.size inb).set ↔
      (off 0 ≤ (i 0).val ∧ (i 0).val < off 0 + 512) ∧ (off 1 ≤ (i 1).val ∧ (i 1).val < off 1 + 512) := by
  rw [Rect.mem_set_unit, Fin.forall_fin_two]; exact Iff.rfl
private theorem mem_unit_o (off : Fin 2 → Nat) (inb : ∀ a, off a + S512x512.size a ≤ S2048x512.size a) (i : S2048x512.Idx) :
    i ∈ (Rect.unit (s := S2048x512) off S512x512.size inb).set ↔
      (off 0 ≤ (i 0).val ∧ (i 0).val < off 0 + 512) ∧ (off 1 ≤ (i 1).val ∧ (i 1).val < off 1 + 512) := by
  rw [Rect.mem_set_unit, Fin.forall_fin_two]; exact Iff.rfl

/-- The blocks are their rectangles. -/
private theorem sBlk_set (c : Dev nD) (r : Fin 3) : (sBlk c r).view.set
    = (Rect.unit (s := S512x2048) (k0_off3 c (BitVec.ofNat 32 (1 + r.val))) S512x512.size (k0_off3_inb c r)).set :=
  View.set_slice_whole cc0_scratch0 _
private theorem sOwn_set (c : Dev nD) : (sOwn c).view.set = (Rect.unit (s := S512x2048) (k0_off5 c) S512x512.size (k0_off5_inb c)).set :=
  View.set_slice_whole cc0_scratch0 _
private theorem oBlk_set (s : Dev nD) : (oBlk s).view.set = (Rect.unit (s := S2048x512) (k0_off2 s) S512x512.size (k0_off2_inb s)).set :=
  View.set_slice_whole main_v1 _

/-- The offsets, coordinate by coordinate. -/
private theorem off3_0 (c : Dev nD) (r : Fin 3) : k0_off3 c (BitVec.ofNat 32 (1 + r.val)) 0 = 0 := by rw [off3_eq]; rfl
private theorem off3_1 (c : Dev nD) (r : Fin 3) : k0_off3 c (BitVec.ofNat 32 (1 + r.val)) 1 = 512 * (pe c r).val := by rw [off3_eq]; rfl
private theorem off5_0 (c : Dev nD) : k0_off5 c 0 = 0 := by rw [k0_off5_eq]; rfl
private theorem off5_1 (c : Dev nD) : k0_off5 c 1 = 512 * c.val := by rw [k0_off5_eq]; rfl
private theorem off2_0 (s : Dev nD) : k0_off2 s 0 = 512 * s.val := by rw [k0_off2_eq]; rfl
private theorem off2_1 (s : Dev nD) : k0_off2 s 1 = 0 := by rw [k0_off2_eq]; rfl

/-- Source column block `r` of device `c` is the columns of the peer `1 + r` places on; the local copy's source the
    device's own columns; result row block `s` the rows of device `s`. -/
private theorem mem_cols (c : Dev nD) (r : Fin 3) (i : S512x2048.Idx) :
    i ∈ (sBlk c r).view.set ↔ 512 * (pe c r).val ≤ (i 1).val ∧ (i 1).val < 512 * (pe c r).val + 512 := by
  have h0 : (i 0).val < 512 := (i 0).isLt
  rw [sBlk_set, mem_unit_s, off3_0, off3_1]; omega
private theorem mem_own (c : Dev nD) (i : S512x2048.Idx) :
    i ∈ (sOwn c).view.set ↔ 512 * c.val ≤ (i 1).val ∧ (i 1).val < 512 * c.val + 512 := by
  have h0 : (i 0).val < 512 := (i 0).isLt
  rw [sOwn_set, mem_unit_s, off5_0, off5_1]; omega
private theorem mem_rows (s : Dev nD) (i : S2048x512.Idx) :
    i ∈ (oBlk s).view.set ↔ 512 * s.val ≤ (i 0).val ∧ (i 0).val < 512 * s.val + 512 := by
  have h1 : (i 1).val < 512 := (i 1).isLt
  rw [oBlk_set, mem_unit_o, off2_0, off2_1]; omega

/-- The peers' places on the ring, as numbers. -/
private theorem pe0_val (c : Dev nD) : (pe c 0).val = (c.val + 1) % 4 := by revert c; decide
private theorem pe1_val (c : Dev nD) : (pe c 1).val = (c.val + 2) % 4 := by revert c; decide
private theorem pe2_val (c : Dev nD) : (pe c 2).val = (c.val + 3) % 4 := by revert c; decide
private theorem sr0_val (c : Dev nD) : (sr c 0).val = (c.val + 3) % 4 := by revert c; decide
private theorem sr1_val (c : Dev nD) : (sr c 1).val = (c.val + 2) % 4 := by revert c; decide
private theorem sr2_val (c : Dev nD) : (sr c 2).val = (c.val + 1) % 4 := by revert c; decide

/-- The store's rectangle is the transfer's source rectangle, the local store's the local copy's. -/
private theorem rect13 (c : Dev nD) (r : Fin 3) :
    Rect.unit (s := S512x2048) (k0_off1 c (BitVec.ofNat 32 (1 + r.val))) S512x512.size (k0_off1_inb c r)
      = Rect.unit (s := S512x2048) (k0_off3 c (BitVec.ofNat 32 (1 + r.val))) S512x512.size (k0_off3_inb c r) :=
  Rect.unit_congr ((off1_eq c r).trans (off3_eq c r).symm) _ _
private theorem rect45 (c : Dev nD) :
    Rect.unit (s := S512x2048) (k0_off4 c) S512x512.size (k0_off4_inb c) = Rect.unit (s := S512x2048) (k0_off5 c) S512x512.size (k0_off5_inb c) :=
  Rect.unit_congr ((k0_off4_eq c).trans (k0_off5_eq c).symm) _ _

/-- The rectangle a store of column block `r` writes through, and the load rectangle of the same columns, are the
    source of transfer `r`. -/
theorem store_set (c : Dev nD) (r : Fin 3) :
    ((sM : Memref sig .tc .vmem S512x2048 .bf16).access (Rect.unit (s := S512x2048) (k0_off1 c (BitVec.ofNat 32 (1 + r.val))) S512x512.size (k0_off1_inb c r))).setOn Finset.univ = (sBlk c r).view.set := by
  rw [rect13]; rfl
theorem load_set (c : Dev nD) (r : Fin 3) :
    (sM : Memref sig .tc .vmem S512x2048 .bf16).view.setOn ((Rect.unit (s := S512x2048) (k0_off1 c (BitVec.ofNat 32 (1 + r.val))) S512x512.size (k0_off1_inb c r))).toLoadRect.set = (sBlk c r).view.set := by
  rw [rect13, sBlk_set]; exact Finset.map_refl
theorem store_own_set (c : Dev nD) :
    ((sM : Memref sig .tc .vmem S512x2048 .bf16).access (Rect.unit (s := S512x2048) (k0_off4 c) S512x512.size (k0_off4_inb c))).setOn Finset.univ = (sOwn c).view.set := by
  rw [rect45]; rfl
theorem load_own_set (c : Dev nD) :
    (sM : Memref sig .tc .vmem S512x2048 .bf16).view.setOn ((Rect.unit (s := S512x2048) (k0_off4 c) S512x512.size (k0_off4_inb c))).toLoadRect.set = (sOwn c).view.set := by
  rw [rect45, sOwn_set]; exact Finset.map_refl

theorem cols_disjoint (c : Dev nD) (r r' : Fin 3) (h : r ≠ r') : Disjoint (sBlk c r).view.set (sBlk c r').view.set := by
  have hne : (pe c r).val ≠ (pe c r').val := fun e => h (pe_inj c r r' (Fin.ext e))
  refine Finset.disjoint_left.mpr fun i hi hi' => ?_
  have h1 := (mem_cols c r i).mp hi
  have h2 := (mem_cols c r' i).mp hi'
  omega
theorem cols_own_disjoint (c : Dev nD) (r : Fin 3) : Disjoint (sBlk c r).view.set (sOwn c).view.set := by
  have hne : (pe c r).val ≠ c.val := fun e => pe_ne_self c r (Fin.ext e)
  refine Finset.disjoint_left.mpr fun i hi hi' => ?_
  have h1 := (mem_cols c r i).mp hi
  have h2 := (mem_own c i).mp hi'
  omega
/-- Taken in the order the transfers are issued (1, 0, 2), each source lies in what is left, and what is left in the end is
    the local copy's source. -/
theorem cols_sub0 (c : Dev nD) : (sBlk c 0).view.set ⊆ Finset.univ \ (sBlk c 1).view.set := by
  intro i hi
  have hc : c.val < 4 := c.isLt
  have h0 := (mem_cols c 0 i).mp hi
  rw [pe0_val] at h0
  refine Finset.mem_sdiff.mpr ⟨Finset.mem_univ _, fun h => ?_⟩
  have h1 := (mem_cols c 1 i).mp h
  rw [pe1_val] at h1
  omega
theorem cols_sub2 (c : Dev nD) : (sBlk c 2).view.set ⊆ (Finset.univ \ (sBlk c 1).view.set) \ (sBlk c 0).view.set := by
  intro i hi
  have hc : c.val < 4 := c.isLt
  have h2 := (mem_cols c 2 i).mp hi
  rw [pe2_val] at h2
  refine Finset.mem_sdiff.mpr ⟨Finset.mem_sdiff.mpr ⟨Finset.mem_univ _, fun h => ?_⟩, fun h => ?_⟩
  · have h1 := (mem_cols c 1 i).mp h
    rw [pe1_val] at h1
    omega
  · have h0 := (mem_cols c 0 i).mp h
    rw [pe0_val] at h0
    omega
theorem cols_rest (c : Dev nD) : ((Finset.univ \ (sBlk c 1).view.set) \ (sBlk c 0).view.set) \ (sBlk c 2).view.set = (sOwn c).view.set := by
  ext i
  have hc : c.val < 4 := c.isLt
  have hi1 : (i 1).val < 2048 := (i 1).isLt
  have e0 := mem_cols c 0 i
  have e1 := mem_cols c 1 i
  have e2 := mem_cols c 2 i
  have eo := mem_own c i
  rw [pe0_val] at e0
  rw [pe1_val] at e1
  rw [pe2_val] at e2
  rw [Finset.mem_sdiff, Finset.mem_sdiff, Finset.mem_sdiff, e0, e1, e2, eo]
  simp only [Finset.mem_univ, true_and]
  omega
/-- And back: the four column blocks make the scratch. -/
theorem cols_union (c : Dev nD) :
    (sBlk c 0).view.set ∪ ((sBlk c 1).view.set ∪ ((sBlk c 2).view.set ∪ (sOwn c).view.set)) = Finset.univ := by
  ext i
  have hc : c.val < 4 := c.isLt
  have hi1 : (i 1).val < 2048 := (i 1).isLt
  have e0 := mem_cols c 0 i
  have e1 := mem_cols c 1 i
  have e2 := mem_cols c 2 i
  have eo := mem_own c i
  rw [pe0_val] at e0
  rw [pe1_val] at e1
  rw [pe2_val] at e2
  rw [Finset.mem_union, Finset.mem_union, Finset.mem_union, e0, e1, e2, eo]
  simp only [Finset.mem_univ, iff_true]
  omega

theorem rows_disjoint (s s' : Dev nD) (h : s ≠ s') : Disjoint (oBlk s).view.set (oBlk s').view.set := by
  have hne : s.val ≠ s'.val := fun e => h (Fin.ext e)
  refine Finset.disjoint_left.mpr fun i hi hi' => ?_
  have h1 := (mem_rows s i).mp hi
  have h2 := (mem_rows s' i).mp hi'
  omega
/-- The rows given to the three peers, in the order of the signals (0, 1, 2), and the own rows left. -/
theorem rows_sub1 (c : Dev nD) : (oBlk (pe c 1)).view.set ⊆ Finset.univ \ (oBlk (pe c 0)).view.set := by
  intro i hi
  have hc : c.val < 4 := c.isLt
  have h1 := (mem_rows (pe c 1) i).mp hi
  rw [pe1_val] at h1
  refine Finset.mem_sdiff.mpr ⟨Finset.mem_univ _, fun h => ?_⟩
  have h0 := (mem_rows (pe c 0) i).mp h
  rw [pe0_val] at h0
  omega
theorem rows_sub2 (c : Dev nD) : (oBlk (pe c 2)).view.set ⊆ (Finset.univ \ (oBlk (pe c 0)).view.set) \ (oBlk (pe c 1)).view.set := by
  intro i hi
  have hc : c.val < 4 := c.isLt
  have h2 := (mem_rows (pe c 2) i).mp hi
  rw [pe2_val] at h2
  refine Finset.mem_sdiff.mpr ⟨Finset.mem_sdiff.mpr ⟨Finset.mem_univ _, fun h => ?_⟩, fun h => ?_⟩
  · have h0 := (mem_rows (pe c 0) i).mp h
    rw [pe0_val] at h0
    omega
  · have h1 := (mem_rows (pe c 1) i).mp h
    rw [pe1_val] at h1
    omega
theorem rows_rest (c : Dev nD) : ((Finset.univ \ (oBlk (pe c 0)).view.set) \ (oBlk (pe c 1)).view.set) \ (oBlk (pe c 2)).view.set = (oBlk c).view.set := by
  ext i
  have hc : c.val < 4 := c.isLt
  have hi0 : (i 0).val < 2048 := (i 0).isLt
  have e0 := mem_rows (pe c 0) i
  have e1 := mem_rows (pe c 1) i
  have e2 := mem_rows (pe c 2) i
  have eo := mem_rows c i
  rw [pe0_val] at e0
  rw [pe1_val] at e1
  rw [pe2_val] at e2
  rw [Finset.mem_sdiff, Finset.mem_sdiff, Finset.mem_sdiff, e0, e1, e2, eo]
  simp only [Finset.mem_univ, true_and]
  omega
/-- And back: the three senders' rows and the own rows make the result array. -/
theorem rows_union (c : Dev nD) :
    (oBlk (sr c 0)).view.set ∪ ((oBlk (sr c 1)).view.set ∪ ((oBlk (sr c 2)).view.set ∪ (oBlk c).view.set)) = Finset.univ := by
  ext i
  have hc : c.val < 4 := c.isLt
  have hi0 : (i 0).val < 2048 := (i 0).isLt
  have e0 := mem_rows (sr c 0) i
  have e1 := mem_rows (sr c 1) i
  have e2 := mem_rows (sr c 2) i
  have eo := mem_rows c i
  rw [sr0_val] at e0
  rw [sr1_val] at e1
  rw [sr2_val] at e2
  rw [Finset.mem_union, Finset.mem_union, Finset.mem_union, e0, e1, e2, eo]
  simp only [Finset.mem_univ, iff_true]
  omega

/-! ## The values -/

/-- The stored payload, entry by entry: the change of format of the entry read. -/
private theorem pay1_apply (v : Vec F S512x512 .f32) (y : S512x512.Idx) : k0_pay1 v y = tr (v y) := by
  unfold k0_pay1
  simp only [shapeCast_self]
  rfl

/-- The cast scratch at equal devices and equal indices. -/
private theorem scrV_congr {c c' : Dev nD} (hc : c = c') (j j' : S512x2048.Idx) (hj : j = j') : scrV m c j = scrV m c' j' := by
  subst hc hj; rfl

/-- Where the blocks' own indices sit in their buffers, coordinate by coordinate. -/
private theorem oBlk_emb_0 (s : Dev nD) (y : S512x512.Idx) : (((oBlk s).view.emb y : S2048x512.Idx) 0).val = 512 * s.val + (y 0).val := by
  show k0_off2 s 0 + 1 * (y 0).val = _
  rw [off2_0]; omega
private theorem oBlk_emb_1 (s : Dev nD) (y : S512x512.Idx) : (((oBlk s).view.emb y : S2048x512.Idx) 1).val = (y 1).val := by
  show k0_off2 s 1 + 1 * (y 1).val = _
  rw [off2_1]; omega
private theorem sBlk_emb_0 (c : Dev nD) (r : Fin 3) (y : S512x512.Idx) : (((sBlk c r).view.emb y : S512x2048.Idx) 0).val = (y 0).val := by
  show k0_off3 c (BitVec.ofNat 32 (1 + r.val)) 0 + 1 * (y 0).val = _
  rw [off3_0]; omega
private theorem sBlk_emb_1 (c : Dev nD) (r : Fin 3) (y : S512x512.Idx) :
    (((sBlk c r).view.emb y : S512x2048.Idx) 1).val = 512 * (pe c r).val + (y 1).val := by
  show k0_off3 c (BitVec.ofNat 32 (1 + r.val)) 1 + 1 * (y 1).val = _
  rw [off3_1]; omega
private theorem sOwn_emb_0 (c : Dev nD) (y : S512x512.Idx) : (((sOwn c).view.emb y : S512x2048.Idx) 0).val = (y 0).val := by
  show k0_off5 c 0 + 1 * (y 0).val = _
  rw [off5_0]; omega
private theorem sOwn_emb_1 (c : Dev nD) (y : S512x512.Idx) : (((sOwn c).view.emb y : S512x2048.Idx) 1).val = 512 * c.val + (y 1).val := by
  show k0_off5 c 1 + 1 * (y 1).val = _
  rw [off5_1]; omega

/-- Device `t`'s final result at entry `y` of its rows `c`: device `c`'s cast block at row `y 0`, column `512 t + y 1`. -/
private theorem outV_emb (t c : Dev nD) (y : S512x512.Idx) (j : S512x2048.Idx) (h0 : (j 0).val = (y 0).val)
    (h1 : (j 1).val = 512 * t.val + (y 1).val) : outV m t ((oBlk c).view.emb y) = scrV m c j := by
  have hy0 : (y 0).val < 512 := (y 0).isLt
  unfold outV
  refine scrV_congr m ?_ _ _ ?_
  · apply Fin.ext
    show (((oBlk c).view.emb y : S2048x512.Idx) 0).val / 512 = c.val
    rw [oBlk_emb_0]; omega
  · apply Shape.idx_ext₂
    · show (((oBlk c).view.emb y : S2048x512.Idx) 0).val % 512 = (j 0).val
      rw [oBlk_emb_0, h0]; omega
    · show 512 * t.val + (((oBlk c).view.emb y : S2048x512.Idx) 1).val = (j 1).val
      rw [oBlk_emb_1, h1]

/-- A store of the cast of `x`'s column block `r` through that block's rectangle leaves the block at `scrV`, over any
    earlier contents. -/
theorem store_cols (c : Dev nD) (r : Fin 3) (f : Buf (Elt F) ((c : Thread nD τ).loc cc0_scratch0)) :
    ∀ i ∈ (sBlk c r).view.set,
      (((sM : Memref sig .tc .vmem S512x2048 .bf16).access (Rect.unit (s := S512x2048) (k0_off1 c (BitVec.ofNat 32 (1 + r.val))) S512x512.size (k0_off1_inb c r))).write (Elt F) f
        (k0_pay1 ((xM : Memref sig .tc .vmem S512x2048 .f32).view.readAt (Elt F) ((Rect.unit (s := S512x2048) (k0_off1 c (BitVec.ofNat 32 (1 + r.val))) S512x512.size (k0_off1_inb c r))).toLoadRect (xstg m c))) Finset.univ) i = scrV m c i := by
  intro i hi
  rw [← store_set, View.setOn_univ] at hi
  obtain ⟨y, rfl⟩ := View.exists_emb_of_mem_set _ hi
  refine (View.write_emb_of_mem _ _ (Finset.mem_univ y)).trans ?_
  rw [pay1_apply]
  rfl
theorem store_own (c : Dev nD) (f : Buf (Elt F) ((c : Thread nD τ).loc cc0_scratch0)) :
    ∀ i ∈ (sOwn c).view.set,
      (((sM : Memref sig .tc .vmem S512x2048 .bf16).access (Rect.unit (s := S512x2048) (k0_off4 c) S512x512.size (k0_off4_inb c))).write (Elt F) f
        (k0_pay1 ((xM : Memref sig .tc .vmem S512x2048 .f32).view.readAt (Elt F) ((Rect.unit (s := S512x2048) (k0_off4 c) S512x512.size (k0_off4_inb c))).toLoadRect (xstg m c))) Finset.univ) i = scrV m c i := by
  intro i hi
  rw [← store_own_set, View.setOn_univ] at hi
  obtain ⟨y, rfl⟩ := View.exists_emb_of_mem_set _ hi
  refine (View.write_emb_of_mem _ _ (Finset.mem_univ y)).trans ?_
  rw [pay1_apply]
  rfl

/-- Transfer `r` of device `c`, its source column block at `scrV`, leaves rows `c` of the peer's result at the peer's `outV`. -/
theorem land_rows (c : Dev nD) (r : Fin 3) (fd : Buf (Elt F) ((oBlk c).view.loc (pe c r : Thread nD τ)))
    (fs : Buf (Elt F) ((sBlk c r).view.loc (c : Thread nD τ))) (hfs : ∀ j ∈ (sBlk c r).view.set, fs j = scrV m c j) :
    ∀ i ∈ (oBlk c).view.set, ((oBlk c).view.write (Elt F) fd ((sBlk c r).view.read (Elt F) fs) Finset.univ) i = outV m (pe c r) i := by
  intro i hi
  obtain ⟨y, rfl⟩ := View.exists_emb_of_mem_set _ hi
  refine (View.write_emb_of_mem _ _ (Finset.mem_univ y)).trans ?_
  rw [View.read_apply, hfs _ (View.emb_mem_set _ y)]
  exact (outV_emb m (pe c r) c y _ (sBlk_emb_0 c r y) (sBlk_emb_1 c r y)).symm
/-- The local copy leaves the own rows at the device's own `outV`. -/
theorem land_own (c : Dev nD) (fd : Buf (Elt F) ((oBlk c).view.loc (c : Thread nD τ)))
    (fs : Buf (Elt F) ((sOwn c).view.loc (c : Thread nD τ))) (hfs : ∀ j ∈ (sOwn c).view.set, fs j = scrV m c j) :
    ∀ i ∈ (oBlk c).view.set, ((oBlk c).view.write (Elt F) fd ((sOwn c).view.read (Elt F) fs) Finset.univ) i = outV m c i := by
  intro i hi
  obtain ⟨y, rfl⟩ := View.exists_emb_of_mem_set _ hi
  refine (View.write_emb_of_mem _ _ (Finset.mem_univ y)).trans ?_
  rw [View.read_apply, hfs _ (View.emb_mem_set _ y)]
  exact (outV_emb m c c y _ (sOwn_emb_0 c y) (sOwn_emb_1 c y)).symm

end Cert.KernelIdeal.A2A

end
-- ==== Proof.KernelIdeal.Pieces.lean ====
/-
  The two buffers cut into their blocks and put together again, as assertions: the result array whole is its four
  row blocks held apart, the scratch whole its four column blocks; taken in the order the program lends them out.
-/
import proofs.«900008_g7700000000000009_dist_a2a_v7x_i4_i_m512_n512_bf16_1_alg».proof.Proof.KernelIdeal.Landing

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The scratch less the source of transfer 1; less the sources of transfers 1 and 0. -/
abbrev rest1Pts (c : Dev nD) (f : Buf (Elt F) ((c : Thread nD τ).loc cc0_scratch0)) : sProp 𝕄 :=
  ((c : Thread nD τ).loc cc0_scratch0) ↦[Finset.univ \ (sBlk c 1).view.set]{fullShare} f
abbrev rest0Pts (c : Dev nD) (f : Buf (Elt F) ((c : Thread nD τ).loc cc0_scratch0)) : sProp 𝕄 :=
  ((c : Thread nD τ).loc cc0_scratch0) ↦[(Finset.univ \ (sBlk c 1).view.set) \ (sBlk c 0).view.set]{fullShare} f

/-! ## Four pieces of one buffer, for any location and any four index sets -/

omit [FloatOps F] in
/-- A buffer held whole is its pieces `A`, `B`, `C` taken out one after the other and the rest `D`. -/
private theorem split4 {ℓ : Loc nD τ sig} {A B C D : Finset (Idx ℓ)} (f : Buf (Elt F) ℓ)
    (hB : B ⊆ Finset.univ \ A) (hC : C ⊆ (Finset.univ \ A) \ B) (hD : ((Finset.univ \ A) \ B) \ C = D) :
    ((ℓ ↦{fullShare} f) : sProp 𝕄)
      ⊢ iprop((ℓ ↦[A]{fullShare} f) ∗ (ℓ ↦[B]{fullShare} f) ∗ (ℓ ↦[C]{fullShare} f) ∗ ℓ ↦[D]{fullShare} f) := by
  subst hD
  refine (pointsTo_split_subset (Finset.subset_univ A)).1.trans (BI.sep_mono (BI.Entails.refl _) ?_)
  refine (pointsTo_split_subset hB).1.trans (BI.sep_mono (BI.Entails.refl _) ?_)
  exact (pointsTo_split_subset hC).1

omit [FloatOps F] in
/-- Four pairwise disjoint pieces that cover the buffer, held at one contents, are the buffer whole. -/
private theorem join4 {ℓ : Loc nD τ sig} {A B C D : Finset (Idx ℓ)} (f : Buf (Elt F) ℓ)
    (dAB : Disjoint A B) (dAC : Disjoint A C) (dAD : Disjoint A D) (dBC : Disjoint B C) (dBD : Disjoint B D)
    (dCD : Disjoint C D) (hU : A ∪ (B ∪ (C ∪ D)) = Finset.univ) :
    iprop((ℓ ↦[A]{fullShare} f) ∗ (ℓ ↦[B]{fullShare} f) ∗ (ℓ ↦[C]{fullShare} f) ∗ ℓ ↦[D]{fullShare} f)
      ⊢ ((ℓ ↦{fullShare} f) : sProp 𝕄) := by
  have d1 : Disjoint B (C ∪ D) := Finset.disjoint_union_right.mpr ⟨dBC, dBD⟩
  have d0 : Disjoint A (B ∪ (C ∪ D)) := Finset.disjoint_union_right.mpr ⟨dAB, Finset.disjoint_union_right.mpr ⟨dAC, dAD⟩⟩
  refine (BI.sep_mono (BI.Entails.refl _) (BI.sep_mono (BI.Entails.refl _) (pointsTo_union dCD).2)).trans ?_
  refine (BI.sep_mono (BI.Entails.refl _) (pointsTo_union d1).2).trans ?_
  refine (pointsTo_union d0).2.trans ?_
  rw [hU]

theorem rows_congr (c s : Dev nD) (f g : Buf (Elt F) ((oBlk s).view.loc (c : Thread nD τ))) (h : ∀ i ∈ (oBlk s).view.set, f i = g i) :
    rowsPts c s f = rowsPts c s g := by
  unfold rowsPts; exact pointsTo_congr h
theorem cols_congr (c : Dev nD) (r : Fin 3) (f g : Buf (Elt F) ((sBlk c r).view.loc (c : Thread nD τ))) (h : ∀ i ∈ (sBlk c r).view.set, f i = g i) :
    colsPts c r f = colsPts c r g := by
  unfold colsPts; exact pointsTo_congr h
theorem own_congr (c : Dev nD) (f g : Buf (Elt F) ((sOwn c).view.loc (c : Thread nD τ))) (h : ∀ i ∈ (sOwn c).view.set, f i = g i) :
    ownPts c f = ownPts c g := by
  unfold ownPts; exact pointsTo_congr h

/-- The result array whole is the rows of the three peers (in the order of the signals) and the own rows. -/
theorem split_rows (c : Dev nD) (f : Buf (Elt F) ((c : Thread nD τ).loc main_v1)) :
    ((((c : Thread nD τ).loc main_v1) ↦{fullShare} f) : sProp 𝕄)
      ⊢ iprop(rowsPts c (pe c 0) f ∗ rowsPts c (pe c 1) f ∗ rowsPts c (pe c 2) f ∗ rowsPts c c f) :=
  split4 (ℓ := (c : Thread nD τ).loc main_v1) f (rows_sub1 c) (rows_sub2 c) (rows_rest c)
/-- The rows of the three senders and the own rows, at one contents, are the result array whole. -/
theorem join_rows (c : Dev nD) (f : Buf (Elt F) ((c : Thread nD τ).loc main_v1)) :
    iprop(rowsPts c (sr c 0) f ∗ rowsPts c (sr c 1) f ∗ rowsPts c (sr c 2) f ∗ rowsPts c c f)
      ⊢ ((((c : Thread nD τ).loc main_v1) ↦{fullShare} f) : sProp 𝕄) :=
  join4 (ℓ := (c : Thread nD τ).loc main_v1) f
    (rows_disjoint _ _ fun h => absurd (sr_inj c 0 1 h) (by decide))
    (rows_disjoint _ _ fun h => absurd (sr_inj c 0 2 h) (by decide))
    (rows_disjoint _ _ (sr_ne_self c 0))
    (rows_disjoint _ _ fun h => absurd (sr_inj c 1 2 h) (by decide))
    (rows_disjoint _ _ (sr_ne_self c 1))
    (rows_disjoint _ _ (sr_ne_self c 2))
    (rows_union c)

/-- The scratch lends the sources of the transfers in the order 1, 0, 2; what is left is the local copy's source. -/
theorem split_cols1 (c : Dev nD) (f : Buf (Elt F) ((c : Thread nD τ).loc cc0_scratch0)) :
    ((((c : Thread nD τ).loc cc0_scratch0) ↦{fullShare} f) : sProp 𝕄) ⊢ iprop(colsPts c 1 f ∗ rest1Pts c f) :=
  (pointsTo_split_subset (ℓ := (c : Thread nD τ).loc cc0_scratch0) (Finset.subset_univ (sBlk c 1).view.set)).1
theorem split_cols0 (c : Dev nD) (f : Buf (Elt F) ((c : Thread nD τ).loc cc0_scratch0)) :
    rest1Pts c f ⊢ iprop(colsPts c 0 f ∗ rest0Pts c f) :=
  (pointsTo_split_subset (ℓ := (c : Thread nD τ).loc cc0_scratch0) (cols_sub0 c)).1
theorem split_cols2 (c : Dev nD) (f : Buf (Elt F) ((c : Thread nD τ).loc cc0_scratch0)) :
    rest0Pts c f ⊢ iprop(colsPts c 2 f ∗ ownPts c f) := by
  refine (pointsTo_split_subset (ℓ := (c : Thread nD τ).loc cc0_scratch0) (cols_sub2 c)).1.trans ?_
  rw [cols_rest c]
  exact BI.Entails.refl _
/-- The four column blocks at one contents are the scratch whole. -/
theorem join_cols (c : Dev nD) (f : Buf (Elt F) ((c : Thread nD τ).loc cc0_scratch0)) :
    iprop(colsPts c 0 f ∗ colsPts c 1 f ∗ colsPts c 2 f ∗ ownPts c f)
      ⊢ ((((c : Thread nD τ).loc cc0_scratch0) ↦{fullShare} f) : sProp 𝕄) :=
  join4 (ℓ := (c : Thread nD τ).loc cc0_scratch0) f
    (cols_disjoint c 0 1 (by decide)) (cols_disjoint c 0 2 (by decide)) (cols_own_disjoint c 0)
    (cols_disjoint c 1 2 (by decide)) (cols_own_disjoint c 1) (cols_own_disjoint c 2)
    (cols_union c)

end Cert.KernelIdeal.A2A

end
-- ==== Proof.KernelIdeal.Finish.lean ====
/-
  The end of one device's body: every wait taken, the seven own cells sit past their one round and are closed (their
  counters at zero are the device's again), the four row blocks of the result array, all at the final contents, are the
  array whole, the four column blocks of the scratch the scratch whole.
-/
import proofs.«900008_g7700000000000009_dist_a2a_v7x_i4_i_m512_n512_bf16_1_alg».proof.Proof.KernelIdeal.Tables
import proofs.«900008_g7700000000000009_dist_a2a_v7x_i4_i_m512_n512_bf16_1_alg».proof.Proof.KernelIdeal.Pieces

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_finish (K : Dev nD × Fin 8 → ℕ) (c : Dev nD) (W : Waits sig Unit) :
    iprop(invs m K c
      ∗ (atPos ER (sendCell c 0) (0 + 1) ∅ 0 ∗ atPos ER (sendCell c 1) (0 + 1) ∅ 0 ∗ atPos ER (sendCell c 2) (0 + 1) ∅ 0
        ∗ atPos ER (recvCell c 0) (0 + 1) ∅ 0 ∗ atPos ER (recvCell c 1) (0 + 1) ∅ 0 ∗ atPos ER (recvCell c 2) (0 + 1) ∅ 0
        ∗ atPos ER (locCell c) (0 + 1) ∅ 0)
      ∗ (recvPay m c 0 ∗ recvPay m c 1 ∗ recvPay m c 2 ∗ locPay m c ∗ sendPay m c 0 ∗ sendPay m c 1 ∗ sendPay m c 2)
      ∗ owes (c : Thread nD τ) 0 W
      ∗ (((c : Thread nD τ).loc cc0_stg0_0) ↦{fullShare} xstg m c))
    ⊢ iprop(|={Set.univ}=> bodyPost m c) := by
  unfold invs recvPay locPay sendPay
  have hI : bigSep Finset.univ (fun k : Fin 8 => cellInv ER (a2aRd m) (K (c, k)) (kcell (c, k)))
      = iprop(cellInv ER (a2aRd m) (K (c, 0)) (barCell c)
        ∗ cellInv ER (a2aRd m) (K (c, 1)) (sendCell c 0) ∗ cellInv ER (a2aRd m) (K (c, 2)) (sendCell c 1)
        ∗ cellInv ER (a2aRd m) (K (c, 3)) (sendCell c 2)
        ∗ cellInv ER (a2aRd m) (K (c, 4)) (recvCell c 0) ∗ cellInv ER (a2aRd m) (K (c, 5)) (recvCell c 1)
        ∗ cellInv ER (a2aRd m) (K (c, 6)) (recvCell c 2)
        ∗ cellInv ER (a2aRd m) (K (c, 7)) (locCell c)) :=
    bigSep_univ_eq_bigSepL [0, 1, 2, 3, 4, 5, 6, 7] (by decide) (by decide) _
  rw [hI]
  iintro ⟨⟨⟨-, HI1, HI2, HI3, HI4, HI5, HI6, HI7⟩, -, -⟩, ⟨HaS0, HaS1, HaS2, HaR0, HaR1, HaR2, HaL⟩,
    ⟨HR0, HR1, HR2, ⟨HLr, HLo⟩, HS0, HS1, HS2⟩, HO, Hx⟩
  -- the seven own cells, past their one round, close: their counters at zero are the device's again
  imod (Rounds.cell_close ER (a2aRd m) (Set.mem_univ (K (c, 1))) (fun h => h) (R := 0 + 1) (duties_later m (sendCell c 0))) $$ [HI1 HaS0] with Hz0
  · isplitl [HI1]; · iexact HI1
    iexact HaS0
  imod (Rounds.cell_close ER (a2aRd m) (Set.mem_univ (K (c, 2))) (fun h => h) (R := 0 + 1) (duties_later m (sendCell c 1))) $$ [HI2 HaS1] with Hz1
  · isplitl [HI2]; · iexact HI2
    iexact HaS1
  imod (Rounds.cell_close ER (a2aRd m) (Set.mem_univ (K (c, 3))) (fun h => h) (R := 0 + 1) (duties_later m (sendCell c 2))) $$ [HI3 HaS2] with Hz2
  · isplitl [HI3]; · iexact HI3
    iexact HaS2
  imod (Rounds.cell_close ER (a2aRd m) (Set.mem_univ (K (c, 4))) (fun h => h) (R := 0 + 1) (duties_later m (recvCell c 0))) $$ [HI4 HaR0] with Hz3
  · isplitl [HI4]; · iexact HI4
    iexact HaR0
  imod (Rounds.cell_close ER (a2aRd m) (Set.mem_univ (K (c, 5))) (fun h => h) (R := 0 + 1) (duties_later m (recvCell c 1))) $$ [HI5 HaR1] with Hz4
  · isplitl [HI5]; · iexact HI5
    iexact HaR1
  imod (Rounds.cell_close ER (a2aRd m) (Set.mem_univ (K (c, 6))) (fun h => h) (R := 0 + 1) (duties_later m (recvCell c 2))) $$ [HI6 HaR2] with Hz5
  · isplitl [HI6]; · iexact HI6
    iexact HaR2
  imod (Rounds.cell_close ER (a2aRd m) (Set.mem_univ (K (c, 7))) (fun h => h) (R := 0 + 1) (duties_later m (locCell c))) $$ [HI7 HaL] with Hz6
  · isplitl [HI7]; · iexact HI7
    iexact HaL
  -- the four row blocks at the final contents are the result array whole, the four column blocks the scratch whole
  ihave Hout := (join_rows c (outV m c)) $$ [HR0 HR1 HR2 HLr]
  · isplitl [HR0]; · iexact HR0
    isplitl [HR1]; · iexact HR1
    isplitl [HR2]; · iexact HR2
    iexact HLr
  ihave Hscr := (join_cols c (scrV m c)) $$ [HS0 HS1 HS2 HLo]
  · isplitl [HS0]; · iexact HS0
    isplitl [HS1]; · iexact HS1
    isplitl [HS2]; · iexact HS2
    iexact HLo
  imodintro
  unfold bodyPost Φ₁ Dat.owesAt Pipeline.owesWithin
  have hZ : bigSep Finset.univ (fun k : Fin 7 => (semVal ((c : Thread nD τ), osem k) 0 : sProp 𝕄))
      = iprop(semVal ((c : Thread nD τ), osem 0) 0 ∗ semVal ((c : Thread nD τ), osem 1) 0
        ∗ semVal ((c : Thread nD τ), osem 2) 0 ∗ semVal ((c : Thread nD τ), osem 3) 0
        ∗ semVal ((c : Thread nD τ), osem 4) 0 ∗ semVal ((c : Thread nD τ), osem 5) 0
        ∗ semVal ((c : Thread nD τ), osem 6) 0) :=
    bigSep_univ_eq_bigSepL [0, 1, 2, 3, 4, 5, 6] (by decide) (by decide)
      (fun k : Fin 7 => (semVal ((c : Thread nD τ), osem k) 0 : sProp 𝕄))
  rw [show (dats m 0 c).owed t₀.succ = 0 from rfl, hZ]
  isplitl [Hout Hscr Hz0 Hz1 Hz2 Hz3 Hz4 Hz5 Hz6]
  · isplitl [Hout]; · iexact Hout
    isplitl [Hscr]; · iexists _; iexact Hscr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists W
    isplitr; · ipureintro; exact fun _ _ => Or.inl trivial
    iexact HO
  iexists _
  isplitr; · (ipureintro; rfl)
  iexact Hx

/-- info: 'Cert.KernelIdeal.A2A.body_finish' depends on axioms: [propext, Classical.choice, Quot.sound] -/
#guard_msgs in #print axioms body_finish

end Cert.KernelIdeal.A2A

end
-- ==== Proof.KernelIdeal.Body.lean ====
/-
  One device's body, stepped once at a symbolic device `c`: the cast of the column block two places on into the scratch;
  the result array cut into its four row blocks, three handed to the peers with the three signals; the wait for the
  three peers' signals, which brings each peer's rows `c`; three times a transfer of a cast column block into a peer's
  rows `c`, the next column block cast meanwhile into the part of the scratch no pending transfer reads; the local copy;
  the seven waits, which bring back the four row blocks at their final contents and the four column blocks.
-/
import proofs.«900008_g7700000000000009_dist_a2a_v7x_i4_i_m512_n512_bf16_1_alg».proof.Proof.KernelIdeal.Tables
import proofs.«900008_g7700000000000009_dist_a2a_v7x_i4_i_m512_n512_bf16_1_alg».proof.Proof.KernelIdeal.Landing
import proofs.«900008_g7700000000000009_dist_a2a_v7x_i4_i_m512_n512_bf16_1_alg».proof.Proof.KernelIdeal.Pieces
import proofs.«900008_g7700000000000009_dist_a2a_v7x_i4_i_m512_n512_bf16_1_alg».proof.Proof.KernelIdeal.Finish

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fetch_0 (t : Fin cfg0.N) : (cfg0.win (0 : Fin 1)).fetch t = true := by rw [fin_N t]; rfl

theorem neg_0 : neg 0 = 2 := by decide
theorem neg_1 : neg 1 = 1 := by decide
theorem neg_2 : neg 2 = 0 := by decide
theorem sr_0 (c : Dev nD) : sr c 0 = pe c 2 := by revert c; decide
theorem sr_1 (c : Dev nD) : sr c 1 = pe c 1 := by revert c; decide
theorem sr_2 (c : Dev nD) : sr c 2 = pe c 0 := by revert c; decide

/-- The rectangle of column block `pe c r` of the scratch (and of the staged `x`), and of the own column block. -/
abbrev R1 (c : Dev nD) (r : Fin 3) : Rect S512x2048 := Rect.unit (s := S512x2048) (k0_off1 c (BitVec.ofNat 32 (1 + r.val))) S512x512.size (k0_off1_inb c r)
abbrev R4 (c : Dev nD) : Rect S512x2048 := Rect.unit (s := S512x2048) (k0_off4 c) S512x512.size (k0_off4_inb c)

section Body

variable (K : Dev nD × Fin 8 → ℕ)

/-- Transfer `r` of device `c`, addressed to `n = pe c r` (substituted, not rewritten): the source column block, at `scrV`
    there, goes out and comes back with the send cell; the peer's rows `c` land at the peer's `outV`. -/
theorem wp_send_a2a (c n : Dev nD) (r : Fin 3) (hn : n = pe c r)
    {hsc : (oBlk c : Memref sig (Dev.tc n : Thread nD τ).2.kind .hbm S512x512 .bf16).view.ref.isScScratch = false}
    {hsrc : (sBlk c r : Memref sig .tc .vmem S512x512 .bf16).view.WordExact} {hdst : (oBlk c : Memref sig .tc .hbm S512x512 .bf16).view.WordExact}
    {hsem : DmaTarget.Typed .vmem (.dma (recvA r).sem) (.remote (Dev.tc n : Thread nD τ) (oBlk c : Memref sig .tc .hbm S512x512 .bf16) (.dma (sendA r).sem) hsc)}
    {α : Type} {Q : α → sProp 𝕄} {k : PUnit → Prog (TpuEff nD τ sig (Elt F) Λ₀ .tc) α}
    (fs : Buf (Elt F) ((sBlk c r).view.loc (c : Thread nD τ))) (hfs : ∀ j ∈ (sBlk c r).view.set, fs j = scrV m c j)
    (fd : Buf (Elt F) ((oBlk c).view.loc (pe c r : Thread nD τ))) (O : CellTallies nD τ sig Unit) (W : Waits sig Unit) :
    iprop(cellInv ER (a2aRd m) (K (c, iS r)) (sendCell c r) ∗ cellInv ER (a2aRd m) (K (pe c r, iR r)) (recvCell (pe c r) r)
        ∗ colsPts c r fs ∗ rowsPts (pe c r) c fd
        ∗ owes (c : Thread nD τ) (O + TR c r) W
        ∗ dutyTok ER (sendCell c r) 0 (0 : Fin 3) ∗ reached ER (sendCell c r) 0
        ∗ dutyTok ER (recvCell (pe c r) r) 0 (0 : Fin 3) ∗ reached ER (recvCell (pe c r) r) 0)
      ⊢ iprop(((cred (tallyAt (sendCell c r) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sBlk c r) (.remote (Dev.tc n : Thread nD τ) (oBlk c) (.dma (sendA r).sem) hsc) (.dma (recvA r).sem) hsrc hdst hsem) k) Q) := by
  subst hn
  unfold colsPts rowsPts TR
  exact Rounds.wp_send_pointsTo 𝒱₀ ER (a2aRd m) (c : Thread nD τ) none (κ₁ := K (c, iS r)) (κ₂ := K (pe c r, iR r))
    (r₁ := 0) (r₂ := 0) (d₁ := (0 : Fin 3)) (d₂ := (0 : Fin 3)) (fd := fd)
    (by rw [duties_send]; exact Finset.mem_singleton_self _) (by rw [duties_recv]; exact Finset.mem_singleton_self _)
    () () N rfl (amount_send m c r 0) (amount_recv m (pe c r) r 0) O rfl (W := W)
    (by rw [payload_send]; exact Entails.of_eq (cols_congr c r _ _ hfs))
    (by rw [payload_recv]; unfold recvPay; rw [sr_pe]; exact Entails.of_eq (rows_congr (pe c r) c _ _ (land_rows m c r fd fs hfs)))

/-- The local copy: the own column block, at `scrV` there, lands in the own rows at the device's `outV`; both come back with
    the local cell. -/
theorem wp_copy_a2a (c : Dev nD)
    {hsrc : (sOwn c : Memref sig .tc .vmem S512x512 .bf16).view.WordExact} {hdst : (oBlk c : Memref sig .tc .hbm S512x512 .bf16).view.WordExact}
    {hsem : DmaTarget.Typed (nD := nD) .vmem (.dma locA.sem) (DmaTarget.here (p := (c : Thread nD τ).2) (oBlk c))}
    {α : Type} {Q : α → sProp 𝕄} {k : PUnit → Prog (TpuEff nD τ sig (Elt F) Λ₀ .tc) α}
    (fs : Buf (Elt F) ((sOwn c).view.loc (c : Thread nD τ))) (hfs : ∀ j ∈ (sOwn c).view.set, fs j = scrV m c j)
    (fd : Buf (Elt F) ((oBlk c).view.loc (c : Thread nD τ))) :
    iprop(cellInv ER (a2aRd m) (K (c, 7)) (locCell c)
        ∗ ((sOwn c).view.loc (c : Thread nD τ) ↦[(sOwn c).view.set]{fullShare} fs) ∗ ((oBlk c).view.loc (c : Thread nD τ) ↦[(oBlk c).view.set]{fullShare} fd)
        ∗ dutyTok ER (locCell c) 0 (0 : Fin 3) ∗ reached ER (locCell c) 0)
      ⊢ iprop((cred (tallyAt (locCell c) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sOwn c) (DmaTarget.here (p := (c : Thread nD τ).2) (oBlk c)) (.dma locA.sem) hsrc hdst hsem) k) Q) := by
  exact Rounds.wp_copy_pointsTo 𝒱₀ ER (a2aRd m) (c : Thread nD τ) none (κ := K (c, 7)) (r := 0) (d := (0 : Fin 3)) (fd := fd)
    (by rw [duties_loc]; exact Finset.mem_singleton_self _) () N rfl (amount_loc m c 0)
    (by rw [payload_loc]; unfold locPay
        exact BI.sep_mono (Entails.of_eq (rows_congr c c _ _ (land_own m c fd fs hfs))) (Entails.of_eq (own_congr c _ _ hfs)))

set_option maxHeartbeats 3200000 in
/-- The body, from `bodyPre`, one rule per effect in program order, to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ (bodyAt0 (F := F) t₀) Kt := by
  unfold bodyAt0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost invs marks payToks creds
  simp only [bigSep_fin3, bigSep_fin8]
  iintro ⟨⟨⟨⟨⟨⟨#I0, #I1, #I2, #I3, #I4, #I5, #I6, #I7⟩, ⟨#Ib0, #Ib1, #Ib2⟩, #Ir0, #Ir1, #Ir2⟩,
      ⟨⟨#M0, #M1, #M2, #M3, #M4, #M5, #M6, #M7⟩, ⟨#Mb0, #Mb1, #Mb2⟩, #Mr0, #Mr1, #Mr2⟩,
      ⟨A0, A1, A2, A3, A4, A5, A6, A7⟩, ⟨Tb0, Tb1, Tb2⟩, ⟨Tr0, Tr1, Tr2⟩, ⟨Ts0, Ts1, Ts2⟩, Tl⟩,
      ⟨Cb, Cr0, Cr1, Cr2⟩, #Hlev, Hout, ⟨%f0, Hscr⟩⟩, Ho, ⟨%d0, %g0, %hg0, Hx⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the column block two places on, cast into the scratch
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hscr; iintro Hscr
  iapply (wp_store 𝒱₀ (c : Thread nD τ) none Set.univ (m := sM) (r := R1 c 1) (Mk := Finset.univ) (Finset.subset_univ _)) $$ Hscr; iintro Hscr
  -- the result array cut into its row blocks: three go to the peers with the signals
  ihave Hr := (split_rows c _) $$ Hout
  icases Hr with ⟨Ro0, Ro1, Ro2, Rown⟩
  simp only [dev1_eq c, dev2_eq c, dev3_eq c]
  iapply (Rounds.wp_signal 𝒱₀ ER (a2aRd m) (c : Thread nD τ) none (dst := (pe c 0 : Thread nD τ)) (κ := K (pe c 0, 0))
      (d := (0 : Fin 3)) (by rw [duties_bar]; exact Finset.mem_univ _) ((amount_bar m (pe c 0) 0).trans (by decide)) () (O₁ c) rfl)
    $$ [HO Tb0 Ro0]
  · isplitr; · iexact Ib0
    isplitl [HO]; · iexact HO
    isplitl [Tb0]; · iexact Tb0
    isplitl [Ro0]
    · rw [payload_bar]; unfold barPay; rw [sr_pe, neg_0]
      isplitl [Ro0]; · iexists _; iexact Ro0
      iexact M6
    · iexact Mb0
  iintro HO
  iapply (Rounds.wp_signal 𝒱₀ ER (a2aRd m) (c : Thread nD τ) none (dst := (pe c 1 : Thread nD τ)) (κ := K (pe c 1, 0))
      (d := (1 : Fin 3)) (by rw [duties_bar]; exact Finset.mem_univ _) ((amount_bar m (pe c 1) 1).trans (by decide)) () (O₂ c) rfl)
    $$ [HO Tb1 Ro1]
  · isplitr; · iexact Ib1
    isplitl [HO]; · iexact HO
    isplitl [Tb1]; · iexact Tb1
    isplitl [Ro1]
    · rw [payload_bar]; unfold barPay; rw [sr_pe, neg_1]
      isplitl [Ro1]; · iexists _; iexact Ro1
      iexact M5
    · iexact Mb1
  iintro HO
  iapply (Rounds.wp_signal 𝒱₀ ER (a2aRd m) (c : Thread nD τ) none (dst := (pe c 2 : Thread nD τ)) (κ := K (pe c 2, 0))
      (d := (2 : Fin 3)) (by rw [duties_bar]; exact Finset.mem_univ _) ((amount_bar m (pe c 2) 2).trans (by decide)) () (O₃ c) rfl)
    $$ [HO Tb2 Ro2]
  · isplitr; · iexact Ib2
    isplitl [HO]; · iexact HO
    isplitl [Tb2]; · iexact Tb2
    isplitl [Ro2]
    · rw [payload_bar]; unfold barPay; rw [sr_pe, neg_2]
      isplitl [Ro2]; · iexists _; iexact Ro2
      iexact M4
    · iexact Mb2
  iintro HO
  -- the wait for the three peers' signals, owing the three transfers' credit: each peer's rows `c` come with it
  iapply (Rounds.wp_wait_rest_token 𝒱₀ ER (a2aRd m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [Cb HO A0]
  · isplitr; · iexact I0
    isplitl [Cb]; · iexact Cb
    isplitl [HO]; · iexact HO
    isplitr; · iapply (mayWait_bar c); iexact Hlev
    iexact A0
  iintro ⟨HO, A0, -, Hpay⟩
  ihave Hp := (Entails.of_eq (rest_bar m c)) $$ Hpay
  unfold barPay
  rw [sr_0, sr_1, sr_2]
  icases Hp with ⟨⟨⟨%fa, P2⟩, -⟩, ⟨⟨%fb, P1⟩, -⟩, ⟨⟨%fc, P0⟩, -⟩⟩
  -- transfer 1 (two places on): its source leaves the scratch
  ihave Hs := (split_cols1 c _) $$ Hscr
  icases Hs with ⟨Hc1, Hrest⟩
  unfold O₃
  iapply (wp_send_a2a m K c _ 1 (dev4_eq c) _ (store_cols m c 1 _) fb (TR c 2 + TR c 0) _) $$ [Hc1 P1 HO Ts1 Tr1]
  · isplitr; · iexact I2
    isplitr; · iexact Ir1
    isplitl [Hc1]; · iexact Hc1
    isplitl [P1]; · iexact P1
    isplitl [HO]; · iexact HO
    isplitl [Ts1]; · iexact Ts1
    isplitr; · iexact M2
    isplitl [Tr1]; · iexact Tr1
    iexact Mr1
  iintro ⟨Cs1, HO⟩
  -- the column block one place on, cast into what is left of the scratch
  iapply (wp_load 𝒱₀ (c : Thread nD τ) none Set.univ (m := xM) (Finset.subset_univ _)) $$ Hx; iintro Hx
  iapply (wp_load 𝒱₀ (c : Thread nD τ) none Set.univ (m := sM) (Finset.Subset.trans (Finset.subset_of_eq (load_set c 0)) (cols_sub0 c))) $$ Hrest; iintro Hrest
  iapply (wp_store 𝒱₀ (c : Thread nD τ) none Set.univ (m := sM) (r := R1 c 0) (Mk := Finset.univ) (Finset.Subset.trans (Finset.subset_of_eq (store_set c 0)) (cols_sub0 c))) $$ Hrest; iintro Hrest
  ihave Hs := (split_cols0 c _) $$ Hrest
  icases Hs with ⟨Hc0, Hrest⟩
  iapply (wp_send_a2a m K c _ 0 (dev5_eq c) _ (store_cols m c 0 _) fc (TR c 2) _) $$ [Hc0 P0 HO Ts0 Tr0]
  · isplitr; · iexact I1
    isplitr; · iexact Ir0
    isplitl [Hc0]; · iexact Hc0
    isplitl [P0]; · iexact P0
    isplitl [HO]; · iexact HO
    isplitl [Ts0]; · iexact Ts0
    isplitr; · iexact M1
    isplitl [Tr0]; · iexact Tr0
    iexact Mr0
  iintro ⟨Cs0, HO⟩
  -- the column block three places on
  iapply (wp_load 𝒱₀ (c : Thread nD τ) none Set.univ (m := xM) (Finset.subset_univ _)) $$ Hx; iintro Hx
  iapply (wp_load 𝒱₀ (c : Thread nD τ) none Set.univ (m := sM) (Finset.Subset.trans (Finset.subset_of_eq (load_set c 2)) (cols_sub2 c))) $$ Hrest; iintro Hrest
  iapply (wp_store 𝒱₀ (c : Thread nD τ) none Set.univ (m := sM) (r := R1 c 2) (Mk := Finset.univ) (Finset.Subset.trans (Finset.subset_of_eq (store_set c 2)) (cols_sub2 c))) $$ Hrest; iintro Hrest
  ihave Hs := (split_cols2 c _) $$ Hrest
  icases Hs with ⟨Hc2, Hown⟩
  ihave HO' := (Entails.of_eq (show (owes (c : Thread nD τ) (TR c 2) _ : sProp 𝕄) = owes (c : Thread nD τ) (0 + TR c 2) _ from by rw [zero_add])) $$ HO
  iapply (wp_send_a2a m K c _ 2 (dev6_eq c) _ (store_cols m c 2 _) fa (0) _) $$ [Hc2 P2 HO' Ts2 Tr2]
  · isplitr; · iexact I3
    isplitr; · iexact Ir2
    isplitl [Hc2]; · iexact Hc2
    isplitl [P2]; · iexact P2
    isplitl [HO']; · iexact HO'
    isplitl [Ts2]; · iexact Ts2
    isplitr; · iexact M3
    isplitl [Tr2]; · iexact Tr2
    iexact Mr2
  iintro ⟨Cs2, HO⟩
  -- the own column block, cast into what is left: the local copy's source
  unfold ownPts rowsPts
  iapply (wp_load 𝒱₀ (c : Thread nD τ) none Set.univ (m := xM) (Finset.subset_univ _)) $$ Hx; iintro Hx
  iapply (wp_load 𝒱₀ (c : Thread nD τ) none Set.univ (m := sM) (Finset.subset_of_eq (load_own_set c))) $$ Hown; iintro Hown
  iapply (wp_store 𝒱₀ (c : Thread nD τ) none Set.univ (m := sM) (r := R4 c) (Mk := Finset.univ) (Finset.subset_of_eq (store_own_set c))) $$ Hown; iintro Hown
  -- the local copy into the own rows
  iapply (wp_copy_a2a m K c _ (store_own m c _) _) $$ [Hown Rown Tl]
  · isplitr; · iexact I7
    isplitl [Hown]; · iexact Hown
    isplitl [Rown]; · iexact Rown
    isplitl [Tl]; · iexact Tl
    iexact M7
  iintro Cl
  -- the three receive waits: each sender's rows, landed
  iapply (Rounds.wp_wait_rest_token 𝒱₀ ER (a2aRd m) (c : Thread nD τ) none (κ := K (c, 4))
      (wpE_waitDma2_eq 𝒱₀ (c : Thread nD τ) none Set.univ) (Set.mem_univ _) () (O := 0) (R := 0) (m := 0) (T := ∅)
      (by rw [Nat.zero_add]; exact (expect_recv m c 0).symm)) $$ [Cr0 HO A4]
  · isplitr; · iexact I4
    isplitl [Cr0]; · iexact Cr0
    isplitl [HO]; · iexact HO
    isplitr; · rw [MayWait_zero]; iempintro
    iexact A4
  iintro ⟨HO, A4, -, Hpay⟩
  ihave Rr0 := (Entails.of_eq (rest_recv m c 0)) $$ Hpay
  iapply (Rounds.wp_wait_rest_token 𝒱₀ ER (a2aRd m) (c : Thread nD τ) none (κ := K (c, 5))
      (wpE_waitDma2_eq 𝒱₀ (c : Thread nD τ) none Set.univ) (Set.mem_univ _) () (O := 0) (R := 0) (m := 0) (T := ∅)
      (by rw [Nat.zero_add]; exact (expect_recv m c 1).symm)) $$ [Cr1 HO A5]
  · isplitr; · iexact I5
    isplitl [Cr1]; · iexact Cr1
    isplitl [HO]; · iexact HO
    isplitr; · rw [MayWait_zero]; iempintro
    iexact A5
  iintro ⟨HO, A5, -, Hpay⟩
  ihave Rr1 := (Entails.of_eq (rest_recv m c 1)) $$ Hpay
  iapply (Rounds.wp_wait_rest_token 𝒱₀ ER (a2aRd m) (c : Thread nD τ) none (κ := K (c, 6))
      (wpE_waitDma2_eq 𝒱₀ (c : Thread nD τ) none Set.univ) (Set.mem_univ _) () (O := 0) (R := 0) (m := 0) (T := ∅)
      (by rw [Nat.zero_add]; exact (expect_recv m c 2).symm)) $$ [Cr2 HO A6]
  · isplitr; · iexact I6
    isplitl [Cr2]; · iexact Cr2
    isplitl [HO]; · iexact HO
    isplitr; · rw [MayWait_zero]; iempintro
    iexact A6
  iintro ⟨HO, A6, -, Hpay⟩
  ihave Rr2 := (Entails.of_eq (rest_recv m c 2)) $$ Hpay
  -- the local copy's wait: the own rows landed, the own columns back
  iapply (Rounds.wp_wait_rest_token 𝒱₀ ER (a2aRd m) (c : Thread nD τ) none (κ := K (c, 7))
      (wpE_waitDma2_eq 𝒱₀ (c : Thread nD τ) none Set.univ) (Set.mem_univ _) () (O := 0) (R := 0) (m := 0) (T := ∅)
      (by rw [Nat.zero_add]; exact (expect_loc m c).symm)) $$ [Cl HO A7]
  · isplitr; · iexact I7
    isplitl [Cl]; · iexact Cl
    isplitl [HO]; · iexact HO
    isplitr; · rw [MayWait_zero]; iempintro
    iexact A7
  iintro ⟨HO, A7, -, Hpay⟩
  ihave Rl := (Entails.of_eq (rest_loc m c)) $$ Hpay
  -- the three send waits: the sources back
  iapply (Rounds.wp_wait_rest_token 𝒱₀ ER (a2aRd m) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m c 1).symm)) $$ [Cs1 HO A2]
  · isplitr; · iexact I2
    isplitl [Cs1]; · iexact Cs1
    isplitl [HO]; · iexact HO
    isplitr; · rw [MayWait_zero]; iempintro
    iexact A2
  iintro ⟨HO, A2, -, Hpay⟩
  ihave Rs1 := (Entails.of_eq (rest_send m c 1)) $$ Hpay
  iapply (Rounds.wp_wait_rest_token 𝒱₀ ER (a2aRd m) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m c 0).symm)) $$ [Cs0 HO A1]
  · isplitr; · iexact I1
    isplitl [Cs0]; · iexact Cs0
    isplitl [HO]; · iexact HO
    isplitr; · rw [MayWait_zero]; iempintro
    iexact A1
  iintro ⟨HO, A1, -, Hpay⟩
  ihave Rs0 := (Entails.of_eq (rest_send m c 0)) $$ Hpay
  iapply (Rounds.wp_wait_rest_token 𝒱₀ ER (a2aRd m) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m c 2).symm)) $$ [Cs2 HO A3]
  · isplitr; · iexact I3
    isplitl [Cs2]; · iexact Cs2
    isplitl [HO]; · iexact HO
    isplitr; · rw [MayWait_zero]; iempintro
    iexact A3
  iintro ⟨HO, A3, -, Hpay⟩
  ihave Rs2 := (Entails.of_eq (rest_send m c 2)) $$ Hpay
  -- the end: the own cells closed, the blocks put together
  rw [wp_ret]
  imod (body_finish m K c _) $$ [A1 A2 A3 A4 A5 A6 A7 Rr0 Rr1 Rr2 Rl Rs0 Rs1 Rs2 HO Hx] with Hpost
  · isplitr
    · unfold invs; simp only [bigSep_fin3, bigSep_fin8]
      isplitr
      · isplitr; · iexact I0
        isplitr; · iexact I1
        isplitr; · iexact I2
        isplitr; · iexact I3
        isplitr; · iexact I4
        isplitr; · iexact I5
        isplitr; · iexact I6
        iexact I7
      isplitr
      · isplitr; · iexact Ib0
        isplitr; · iexact Ib1
        iexact Ib2
      · isplitr; · iexact Ir0
        isplitr; · iexact Ir1
        iexact Ir2
    isplitl [A1 A2 A3 A4 A5 A6 A7]
    · isplitl [A1]; · iexact A1
      isplitl [A2]; · iexact A2
      isplitl [A3]; · iexact A3
      isplitl [A4]; · iexact A4
      isplitl [A5]; · iexact A5
      isplitl [A6]; · iexact A6
      iexact A7
    isplitl [Rr0 Rr1 Rr2 Rl Rs0 Rs1 Rs2]
    · isplitl [Rr0]; · iexact Rr0
      isplitl [Rr1]; · iexact Rr1
      isplitl [Rr2]; · iexact Rr2
      isplitl [Rl]; · iexact Rl
      isplitl [Rs0]; · iexact Rs0
      isplitl [Rs1]; · iexact Rs1
      iexact Rs2
    isplitl [HO]; · iexact HO
    iexact Hx
  imodintro
  iapply Hk
  iexact Hpost

end Body

end Cert.KernelIdeal.A2A

end
-- ==== Proof.Value.lean ====
/-
  The all-to-all against the one-device reference, over the extended reals. Device `s` holds rows `[512 s, 512 s + 512)`
  of the whole `x`; device `c`'s result is columns `[512 c, 512 c + 512)` of the whole `x` cast to bf16, entry by entry:
  row `512 s + r` of it came from device `s`. The reference casts the whole array. So each device's result is its
  column block of the reference's.
-/
import proofs.«900008_g7700000000000009_dist_a2a_v7x_i4_i_m512_n512_bf16_1_alg».proof.Defs
import proofs.«900008_g7700000000000009_dist_a2a_v7x_i4_i_m512_n512_bf16_1_alg».proof.Proof.KernelIdeal.Launch
import proofs.«900008_g7700000000000009_dist_a2a_v7x_i4_i_m512_n512_bf16_1_alg».proof.Proof.Gen.ReferenceIdeal
import proofs.«900008_g7700000000000009_dist_a2a_v7x_i4_i_m512_n512_bf16_1_alg».proof.Proof.Gen.ReferenceIdeal.Run
import proofs.«900008_g7700000000000009_dist_a2a_v7x_i4_i_m512_n512_bf16_1_alg».proof.Proof.Gen.Pre_finite_inputs_Kernel
import proofs.«900008_g7700000000000009_dist_a2a_v7x_i4_i_m512_n512_bf16_1_alg».proof.Proof.Gen.Pre_finite_inputs_ReferenceIdeal

noncomputable section

namespace Cert.Proof.A2AValue

open Idealize.ShloMosaic Idealize.ShloMosaic.TcCoe Idealize.SL.Sem

/-- Entry (row, column) = (512 s + p, 512 c + l) of the whole array: it is entry (p, 512 c + l) of row block `s` and entry
    (512 s + p, l) of column block `c`; so the two blocks' indices land on the same index of the whole. -/
private theorem idx_eq (hr : Layout.Tiles ⟨2, ![512, 2048]⟩ ⟨2, ![2048, 2048]⟩ 0 4)
    (hc : Layout.Tiles ⟨2, ![2048, 512]⟩ ⟨2, ![2048, 2048]⟩ 1 4)
    (c s : Fin 4) (i : (⟨2, ![2048, 512]⟩ : Shape).Idx) (p : Fin 512) (q : Fin 2048)
    (hs : s.val = (i 0).val / 512) (hp : p.val = (i 0).val % 512) (hq : q.val = 512 * c.val + (i 1).val) :
    hr.idx s (Shape.pair (d := ![512, 2048]) p q) = hc.idx c i := by
  funext b
  apply Fin.ext
  have h0 := Nat.div_add_mod (i 0).val 512
  rcases b with ⟨_ | _ | n, hb⟩
  · show s.val * 512 + p.val = (i 0).val
    omega
  · show q.val = c.val * 512 + (i 1).val
    omega
  · exact absurd hb (Nat.not_lt.2 (Nat.le_add_left 2 n))

/-- A device's staged block is its argument buffer: the window is the whole array, read through the view of the
    whole array at zero offsets. -/
private theorem xstg_eq (m : (ℓ : Loc Cert.KernelIdeal.nD Cert.KernelIdeal.τ Cert.KernelIdeal.sig) → Buf (Elt Ideal) ℓ)
    (s : Dev Cert.KernelIdeal.nD) :
    Cert.KernelIdeal.A2A.xstg m s = m ((s.tc : Thread Cert.KernelIdeal.nD Cert.KernelIdeal.τ).loc Cert.KernelIdeal.main_arg0) := by
  unfold Cert.KernelIdeal.A2A.xstg
  exact Memref.read_access_unit_zero (Elt Ideal) Cert.KernelIdeal.main_arg0 (funext fun a => Nat.zero_mul _) _ _

/-- The reference runs, its result the whole array cast and its argument unchanged; dropped to the frame. -/
theorem frame_ref : Cert.frame_ReferenceIdeal :=
  fun m ρ _ => (θ_run Cert.ReferenceIdeal.defs _ _).mono (fun _ h c => (h c).2)
    (Cert.ReferenceIdeal.Value.run (F := Ideal) m ρ)

/-- From the kernel's run to each device's final contents: the claim over the extended reals. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (Cert.KernelIdeal.A2A.QC (F := Ideal) m)) :
    Cert.algebraic_KernelIdeal_ReferenceIdeal := by
  intro m g m' g' _ hblk
  refine ⟨truncf (F := Ideal) (s := Cert.ReferenceIdeal.S2048x2048) (φ := .f32) .bf16
    (m' (((0 : Dev Cert.ReferenceIdeal.nD).tc : Thread Cert.ReferenceIdeal.nD Cert.ReferenceIdeal.τ).loc Cert.ReferenceIdeal.main_arg0))
    Cert.ReferenceIdeal.Gen.bitsLt_bf16_f32, ?_, ?_⟩
  · refine (θ_run _ _ _).mono (fun r h c => ⟨?_, (h c).2⟩) (hrun m g)
    rw [(h c).1]
    funext i
    have hx : Cert.KernelIdeal.A2A.xstg m (Cert.KernelIdeal.A2A.rowDev i)
        = Layout.block ⟨2, ![512, 2048]⟩ ⟨2, ![2048, 2048]⟩ 0 4 (Cert.KernelIdeal.A2A.rowDev i)
            (m' (((0 : Dev Cert.ReferenceIdeal.nD).tc : Thread Cert.ReferenceIdeal.nD Cert.ReferenceIdeal.τ).loc Cert.ReferenceIdeal.main_arg0)) :=
      (xstg_eq m _).trans (hblk (Cert.KernelIdeal.A2A.rowDev i))
    show Cert.KernelIdeal.A2A.tr (Cert.KernelIdeal.A2A.xstg m (Cert.KernelIdeal.A2A.rowDev i) _) = _
    rw [hx]
    exact congrArg (fun j => FloatOps.truncf (F := Ideal) .bf16 Cert.ReferenceIdeal.Gen.bitsLt_bf16_f32
        (m' (((0 : Dev Cert.ReferenceIdeal.nD).tc : Thread Cert.ReferenceIdeal.nD Cert.ReferenceIdeal.τ).loc Cert.ReferenceIdeal.main_arg0) j))
      (idx_eq _ _ c (Cert.KernelIdeal.A2A.rowDev i) i _ _ rfl rfl rfl)
  · exact (θ_run _ _ _).mono (fun r h => h 0) (Cert.ReferenceIdeal.Value.run (F := Ideal) m' g')

/-- info: 'Cert.Proof.A2AValue.frame_ref' depends on axioms: [propext, Classical.choice, Quot.sound] -/
#guard_msgs in #print axioms frame_ref
/-- info: 'Cert.Proof.A2AValue.algebraic_of_run' depends on axioms: [propext, Classical.choice, Quot.sound] -/
#guard_msgs in #print axioms algebraic_of_run

end Cert.Proof.A2AValue

end
-- ==== Proof.lean ====
/-
  The all-to-all of a [2048, 2048] array over four devices against its one-device reference. Each device holds 512 rows
  of `x`; it casts them to bf16 and sends column block `t` to device `t`, which places the four blocks it receives one
  under the other: device `c` ends with columns `[512 c, 512 c + 512)` of the whole array, cast. The reference casts the
  whole array, so each device's result is its column block of the reference's, entry by entry, with no arithmetic
  between them: the change of format is the one operation, the same on both sides.

  The frames of both kernels are the run of the protocol with the values dropped; the idealization rewrote nothing, so
  `preserves` is trivial; the claim over the extended reals is the run's named result against the reference's run.
-/
import proofs.«900008_g7700000000000009_dist_a2a_v7x_i4_i_m512_n512_bf16_1_alg».proof.Defs
import proofs.«900008_g7700000000000009_dist_a2a_v7x_i4_i_m512_n512_bf16_1_alg».proof.Proof.Gen.Kernel
import proofs.«900008_g7700000000000009_dist_a2a_v7x_i4_i_m512_n512_bf16_1_alg».proof.Proof.Gen.KernelIdeal
import proofs.«900008_g7700000000000009_dist_a2a_v7x_i4_i_m512_n512_bf16_1_alg».proof.Proof.Gen.ReferenceIdeal
import proofs.«900008_g7700000000000009_dist_a2a_v7x_i4_i_m512_n512_bf16_1_alg».proof.Proof.Gen.Pre_finite_inputs_Kernel
import proofs.«900008_g7700000000000009_dist_a2a_v7x_i4_i_m512_n512_bf16_1_alg».proof.Proof.Gen.Pre_finite_inputs_ReferenceIdeal
import proofs.«900008_g7700000000000009_dist_a2a_v7x_i4_i_m512_n512_bf16_1_alg».proof.Proof.Kernel.Launch
import proofs.«900008_g7700000000000009_dist_a2a_v7x_i4_i_m512_n512_bf16_1_alg».proof.Proof.Kernel.Obligation
import proofs.«900008_g7700000000000009_dist_a2a_v7x_i4_i_m512_n512_bf16_1_alg».proof.Proof.Kernel.Body
import proofs.«900008_g7700000000000009_dist_a2a_v7x_i4_i_m512_n512_bf16_1_alg».proof.Proof.KernelIdeal.Launch
import proofs.«900008_g7700000000000009_dist_a2a_v7x_i4_i_m512_n512_bf16_1_alg».proof.Proof.KernelIdeal.Obligation
import proofs.«900008_g7700000000000009_dist_a2a_v7x_i4_i_m512_n512_bf16_1_alg».proof.Proof.KernelIdeal.Body
import proofs.«900008_g7700000000000009_dist_a2a_v7x_i4_i_m512_n512_bf16_1_alg».proof.Proof.Value

noncomputable section

namespace Cert.Proof

open Idealize.ShloMosaic Idealize.SL.Sem

/-- The kernel as printed runs to the end on all four devices, faulting nowhere, its argument arrays unchanged. -/
theorem frame_p : Cert.frame_Kernel := fun m g _ =>
  (θ_run (Cert.Kernel.defs (F := Bits)) _ _).mono (fun _ h c => (h c).2)
    (Cert.Kernel.A2A.run_main (F := Bits) m g (Cert.Kernel.A2A.body_obligation_of m (Cert.Kernel.A2A.sound_body m)))

/-- The same of the idealized kernel. -/
theorem frame_pi : Cert.frame_KernelIdeal := fun m g _ =>
  (θ_run (Cert.KernelIdeal.defs (F := Ideal)) _ _).mono (fun _ h c => (h c).2)
    (Cert.KernelIdeal.A2A.run_main (F := Ideal) m g (Cert.KernelIdeal.A2A.body_obligation_of m (Cert.KernelIdeal.A2A.sound_body m)))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, A2AValue.frame_ref, trivial,
  A2AValue.algebraic_of_run fun m ρ =>
    Cert.KernelIdeal.A2A.run_main (F := Ideal) m ρ (Cert.KernelIdeal.A2A.body_obligation_of m (Cert.KernelIdeal.A2A.sound_body m))⟩

end Cert.Proof

end
